-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x50x768 : Shape := ⟨3, ![1024, 50, 768]⟩
abbrev S768x768 : Shape := ⟨2, ![768, 768]⟩
abbrev S768 : Shape := ⟨1, ![768]⟩
abbrev S_ : Shape := ⟨0, ![]⟩

class Facts : Prop where
  bcast_S_S1024x50x768 : S_.BroadcastsInDim S1024x50x768 (![] : Fin 0 → Fin S1024x50x768.rank)
  reducesTo_S1024x50x768_S_d0_1_2 : S1024x50x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S1024x50x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S1024x50x768 .f32 := Host.absf main_arg0
  let main_cst : FVec F S_ .f32 := constant S_ .f32 0x7F800000#32
  let main_v1 : FVec F S1024x50x768 .f32 := broadcastInDim S1024x50x768 ![] bcast_S_S1024x50x768 main_cst
  let main_v2 : IVec S1024x50x768 1 := cmpf .olt main_v0 main_v1
  let main_c : IVec S_ 1 := constantI S_ 1 1#1
  let main_v3 : IVec S_ 1 := (fun x v => Host.reduce IntOp.andi x v reducesTo_S1024x50x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S1024x50x768 : Shape := ⟨3, ![1024, 50, 768]⟩
abbrev S768x768 : Shape := ⟨2, ![768, 768]⟩
abbrev S768 : Shape := ⟨1, ![768]⟩
abbrev S50 : Shape := ⟨1, ![50]⟩
abbrev S50x1 : Shape := ⟨2, ![50, 1]⟩
abbrev S1x50 : Shape := ⟨2, ![1, 50]⟩
abbrev S50x50 : Shape := ⟨2, ![50, 50]⟩
abbrev S_ : Shape := ⟨0, ![]⟩
abbrev S1024x12x50x64 : Shape := ⟨4, ![1024, 12, 50, 64]⟩
abbrev S16x50x768 : Shape := ⟨3, ![16, 50, 768]⟩
abbrev S16x12x50x64 : Shape := ⟨4, ![16, 12, 50, 64]⟩
abbrev S1x50x768 : Shape := ⟨3, ![1, 50, 768]⟩
abbrev S50x768 : Shape := ⟨2, ![50, 768]⟩
abbrev S1x768 : Shape := ⟨2, ![1, 768]⟩
abbrev S16x50x64 : Shape := ⟨3, ![16, 50, 64]⟩
abbrev S16x50x50 : Shape := ⟨3, ![16, 50, 50]⟩
abbrev S1x50x50 : Shape := ⟨3, ![1, 50, 50]⟩
abbrev S16x50 : Shape := ⟨2, ![16, 50]⟩
abbrev S16x50x1 : Shape := ⟨3, ![16, 50, 1]⟩
abbrev S16x1 : Shape := ⟨2, ![16, 1]⟩
abbrev S16x1x1 : Shape := ⟨3, ![16, 1, 1]⟩
abbrev S16x1x50x64 : Shape := ⟨4, ![16, 1, 50, 64]⟩

abbrev nBuf : Space → Nat
  | .hbm => 29
  | .vmem => 14
  | .smem => 0
  | _ => 0

abbrev bufTy : (tb : Table) → Fin (tcTables nBuf tb) → BufTy
  | .hbm, ⟨0, _⟩ => ⟨S1024x50x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S50, .i32⟩
  | .hbm, ⟨8, _⟩ => ⟨S50x1, .i32⟩
  | .hbm, ⟨9, _⟩ => ⟨S1x50, .i32⟩
  | .hbm, ⟨10, _⟩ => ⟨S50x50, .i32⟩
  | .hbm, ⟨11, _⟩ => ⟨S50x50, .i32⟩
  | .hbm, ⟨12, _⟩ => ⟨S50x50, .i32⟩
  | .hbm, ⟨13, _⟩ => ⟨S50x50, .i32⟩
  | .hbm, ⟨14, _⟩ => ⟨S50x50, .f32⟩
  | .hbm, ⟨15, _⟩ => ⟨S_, .f32⟩
  | .hbm, ⟨16, _⟩ => ⟨S50x50, .f32⟩
  | .hbm, ⟨17, _⟩ => ⟨S50x50, .f32⟩
  | .hbm, ⟨18, _⟩ => ⟨S_, .f32⟩
  | .hbm, ⟨19, _⟩ => ⟨S50x50, .f32⟩
  | .hbm, ⟨20, _⟩ => ⟨S50x50, .f32⟩
  | .hbm, ⟨21, _⟩ => ⟨S768x768, .f32⟩
  | .hbm, ⟨22, _⟩ => ⟨S768x768, .bf16⟩
  | .hbm, ⟨23, _⟩ => ⟨S768x768, .f32⟩
  | .hbm, ⟨24, _⟩ => ⟨S768x768, .bf16⟩
  | .hbm, ⟨25, _⟩ => ⟨S768x768, .f32⟩
  | .hbm, ⟨26, _⟩ => ⟨S768x768, .bf16⟩
  | .hbm, ⟨27, _⟩ => ⟨S1024x12x50x64, .f32⟩
  | .hbm, ⟨28, _⟩ => ⟨S1024x50x768, .f32⟩
  | .local _ .vmem, ⟨0, _⟩ => ⟨S16x50x768, .f32⟩
  | .local _ .vmem, ⟨1, _⟩ => ⟨S16x50x768, .f32⟩
  | .local _ .vmem, ⟨2, _⟩ => ⟨S768x768, .bf16⟩
  | .local _ .vmem, ⟨3, _⟩ => ⟨S768, .f32⟩
  | .local _ .vmem, ⟨4, _⟩ => ⟨S768x768, .bf16⟩
  | .local _ .vmem, ⟨5, _⟩ => ⟨S768, .f32⟩
  | .local _ .vmem, ⟨6, _⟩ => ⟨S768x768, .bf16⟩
  | .local _ .vmem, ⟨7, _⟩ => ⟨S768, .f32⟩
  | .local _ .vmem, ⟨8, _⟩ => ⟨S50x50, .f32⟩
  | .local _ .vmem, ⟨9, _⟩ => ⟨S16x12x50x64, .f32⟩
  | .local _ .vmem, ⟨10, _⟩ => ⟨S16x12x50x64, .f32⟩
  | .local _ .vmem, ⟨11, _⟩ => ⟨S16x50x768, .f32⟩
  | .local _ .vmem, ⟨12, _⟩ => ⟨S16x50x768, .f32⟩
  | .local _ .vmem, ⟨13, _⟩ => ⟨S16x50x768, .f32⟩
  | _, _ => ⟨S1024x50x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x50x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x12x50x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S50_S50x1_0 : S50.BroadcastsInDim S50x1 (![0] : Fin 1 → Fin S50x1.rank)
  bcast_S50_S1x50_1 : S50.BroadcastsInDim S1x50 (![1] : Fin 1 → Fin S1x50.rank)
  bcast_S50x1_S50x50_0_1 : S50x1.BroadcastsInDim S50x50 (![0, 1] : Fin 2 → Fin S50x50.rank)
  bcast_S1x50_S50x50_0_1 : S1x50.BroadcastsInDim S50x50 (![0, 1] : Fin 2 → Fin S50x50.rank)
  bcast_S_S50x50 : S_.BroadcastsInDim S50x50 (![] : Fin 0 → Fin S50x50.rank)
  transposes_S768x768_S768x768_1_0 : S768x768.Transposes [1, 0] S768x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  inb_S16x50x768_S1x50x768_0_0_0 : ∀ a, (![0, 0, 0] : Fin 3 → Nat) a + S1x50x768.size a ≤ S16x50x768.size a
  h_S1x50x768 : 0 < S1x50x768.numel
  shapeCasts_S1x50x768_S50x768 : S1x50x768.ShapeCasts S50x768
  shapeCasts_S768_S1x768 : S768.ShapeCasts S1x768
  broadcasts_S1x768_S50x768 : S1x768.Broadcasts S50x768
  shapeCasts_S50x768_S1x50x768 : S50x768.ShapeCasts S1x50x768
  inb_S16x50x768_S1x50x768_1_0_0 : ∀ a, (![1, 0, 0] : Fin 3 → Nat) a + S1x50x768.size a ≤ S16x50x768.size a
  inb_S16x50x768_S1x50x768_2_0_0 : ∀ a, (![2, 0, 0] : Fin 3 → Nat) a + S1x50x768.size a ≤ S16x50x768.size a
  inb_S16x50x768_S1x50x768_3_0_0 : ∀ a, (![3, 0, 0] : Fin 3 → Nat) a + S1x50x768.size a ≤ S16x50x768.size a
  inb_S16x50x768_S1x50x768_4_0_0 : ∀ a, (![4, 0, 0] : Fin 3 → Nat) a + S1x50x768.size a ≤ S16x50x768.size a
  inb_S16x50x768_S1x50x768_5_0_0 : ∀ a, (![5, 0, 0] : Fin 3 → Nat) a + S1x50x768.size a ≤ S16x50x768.size a
  inb_S16x50x768_S1x50x768_6_0_0 : ∀ a, (![6, 0, 0] : Fin 3 → Nat) a + S1x50x768.size a ≤ S16x50x768.size a
  inb_S16x50x768_S1x50x768_7_0_0 : ∀ a, (![7, 0, 0] : Fin 3 → Nat) a + S1x50x768.size a ≤ S16x50x768.size a
  inb_S16x50x768_S1x50x768_8_0_0 : ∀ a, (![8, 0, 0] : Fin 3 → Nat) a + S1x50x768.size a ≤ S16x50x768.size a
  inb_S16x50x768_S1x50x768_9_0_0 : ∀ a, (![9, 0, 0] : Fin 3 → Nat) a + S1x50x768.size a ≤ S16x50x768.size a
  inb_S16x50x768_S1x50x768_10_0_0 : ∀ a, (![10, 0, 0] : Fin 3 → Nat) a + S1x50x768.size a ≤ S16x50x768.size a
  inb_S16x50x768_S1x50x768_11_0_0 : ∀ a, (![11, 0, 0] : Fin 3 → Nat) a + S1x50x768.size a ≤ S16x50x768.size a
  inb_S16x50x768_S1x50x768_12_0_0 : ∀ a, (![12, 0, 0] : Fin 3 → Nat) a + S1x50x768.size a ≤ S16x50x768.size a
  inb_S16x50x768_S1x50x768_13_0_0 : ∀ a, (![13, 0, 0] : Fin 3 → Nat) a + S1x50x768.size a ≤ S16x50x768.size a
  inb_S16x50x768_S1x50x768_14_0_0 : ∀ a, (![14, 0, 0] : Fin 3 → Nat) a + S1x50x768.size a ≤ S16x50x768.size a
  inb_S16x50x768_S1x50x768_15_0_0 : ∀ a, (![15, 0, 0] : Fin 3 → Nat) a + S1x50x768.size a ≤ S16x50x768.size a
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S16x50x768_S16x50x64_0_0_0 : ∀ a, (![0, 0, 0] : Fin 3 → Nat) a + S16x50x64.size a ≤ S16x50x768.size a
  h_S16x50x64 : 0 < S16x50x64.numel
  shapeCasts_S50x50_S1x50x50 : S50x50.ShapeCasts S1x50x50
  broadcasts_S1x50x50_S16x50x50 : S1x50x50.Broadcasts S16x50x50
  reduces_S16x50x64_S16x50 : S16x50x64.Reduces [2] S16x50
  shapeCasts_S16x50_S16x50x1 : S16x50.ShapeCasts S16x50x1
  reduces_S16x50x1_S16x1 : S16x50x1.Reduces [1] S16x1
  shapeCasts_S16x1_S16x1x1 : S16x1.ShapeCasts S16x1x1
  broadcasts_S16x1x1_S16x50x64 : S16x1x1.Broadcasts S16x50x64
  inb_S16x12x50x64_S16x1x50x64_0_0_0_0 : ∀ a, (![0, 0, 0, 0] : Fin 4 → Nat) a + S16x1x50x64.size a ≤ S16x12x50x64.size a
  h_S16x1x50x64 : 0 < S16x1x50x64.numel
  shapeCasts_S16x1x50x64_S16x50x64 : S16x1x50x64.ShapeCasts S16x50x64
  shapeCasts_S16x50x64_S16x1x50x64 : S16x50x64.ShapeCasts S16x1x50x64
  inb_S16x50x768_S16x50x64_0_0_64 : ∀ a, (![0, 0, 64] : Fin 3 → Nat) a + S16x50x64.size a ≤ S16x50x768.size a
  inb_S16x12x50x64_S16x1x50x64_0_1_0_0 : ∀ a, (![0, 1, 0, 0] : Fin 4 → Nat) a + S16x1x50x64.size a ≤ S16x12x50x64.size a
  inb_S16x50x768_S16x50x64_0_0_128 : ∀ a, (![0, 0, 128] : Fin 3 → Nat) a + S16x50x64.size a ≤ S16x50x768.size a
  inb_S16x12x50x64_S16x1x50x64_0_2_0_0 : ∀ a, (![0, 2, 0, 0] : Fin 4 → Nat) a + S16x1x50x64.size a ≤ S16x12x50x64.size a
  inb_S16x50x768_S16x50x64_0_0_192 : ∀ a, (![0, 0, 192] : Fin 3 → Nat) a + S16x50x64.size a ≤ S16x50x768.size a
  inb_S16x12x50x64_S16x1x50x64_0_3_0_0 : ∀ a, (![0, 3, 0, 0] : Fin 4 → Nat) a + S16x1x50x64.size a ≤ S16x12x50x64.size a
  inb_S16x50x768_S16x50x64_0_0_256 : ∀ a, (![0, 0, 256] : Fin 3 → Nat) a + S16x50x64.size a ≤ S16x50x768.size a
  inb_S16x12x50x64_S16x1x50x64_0_4_0_0 : ∀ a, (![0, 4, 0, 0] : Fin 4 → Nat) a + S16x1x50x64.size a ≤ S16x12x50x64.size a
  inb_S16x50x768_S16x50x64_0_0_320 : ∀ a, (![0, 0, 320] : Fin 3 → Nat) a + S16x50x64.size a ≤ S16x50x768.size a
  inb_S16x12x50x64_S16x1x50x64_0_5_0_0 : ∀ a, (![0, 5, 0, 0] : Fin 4 → Nat) a + S16x1x50x64.size a ≤ S16x12x50x64.size a
  inb_S16x50x768_S16x50x64_0_0_384 : ∀ a, (![0, 0, 384] : Fin 3 → Nat) a + S16x50x64.size a ≤ S16x50x768.size a
  inb_S16x12x50x64_S16x1x50x64_0_6_0_0 : ∀ a, (![0, 6, 0, 0] : Fin 4 → Nat) a + S16x1x50x64.size a ≤ S16x12x50x64.size a
  inb_S16x50x768_S16x50x64_0_0_448 : ∀ a, (![0, 0, 448] : Fin 3 → Nat) a + S16x50x64.size a ≤ S16x50x768.size a
  inb_S16x12x50x64_S16x1x50x64_0_7_0_0 : ∀ a, (![0, 7, 0, 0] : Fin 4 → Nat) a + S16x1x50x64.size a ≤ S16x12x50x64.size a
  inb_S16x50x768_S16x50x64_0_0_512 : ∀ a, (![0, 0, 512] : Fin 3 → Nat) a + S16x50x64.size a ≤ S16x50x768.size a
  inb_S16x12x50x64_S16x1x50x64_0_8_0_0 : ∀ a, (![0, 8, 0, 0] : Fin 4 → Nat) a + S16x1x50x64.size a ≤ S16x12x50x64.size a
  inb_S16x50x768_S16x50x64_0_0_576 : ∀ a, (![0, 0, 576] : Fin 3 → Nat) a + S16x50x64.size a ≤ S16x50x768.size a
  inb_S16x12x50x64_S16x1x50x64_0_9_0_0 : ∀ a, (![0, 9, 0, 0] : Fin 4 → Nat) a + S16x1x50x64.size a ≤ S16x12x50x64.size a
  inb_S16x50x768_S16x50x64_0_0_640 : ∀ a, (![0, 0, 640] : Fin 3 → Nat) a + S16x50x64.size a ≤ S16x50x768.size a
  inb_S16x12x50x64_S16x1x50x64_0_10_0_0 : ∀ a, (![0, 10, 0, 0] : Fin 4 → Nat) a + S16x1x50x64.size a ≤ S16x12x50x64.size a
  inb_S16x50x768_S16x50x64_0_0_704 : ∀ a, (![0, 0, 704] : Fin 3 → Nat) a + S16x50x64.size a ≤ S16x50x768.size a
  inb_S16x12x50x64_S16x1x50x64_0_11_0_0 : ∀ a, (![0, 11, 0, 0] : Fin 4 → Nat) a + S16x1x50x64.size a ≤ S16x12x50x64.size a
  shapeCasts_S1024x12x50x64_S1024x50x768 : S1024x12x50x64.ShapeCasts S1024x50x768
  dot_S50x768_S768x768_S50x768_1_0_0_1_n_n_wf : DotDims.WF S50x768 S768x768 S50x768 [1] [0] [0] [1] [] []
  dot_S16x50x64_S16x50x64_S16x50x50_2_2_1_1_0_0_wf : DotDims.WF S16x50x64 S16x50x64 S16x50x50 [2] [2] [1] [1] [0] [0]
  dot_S16x50x50_S16x50x64_S16x50x64_2_1_1_2_0_0_wf : DotDims.WF S16x50x50 S16x50x64 S16x50x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x50x768.size a ≤ S1024x50x768.size a
  hwx0_0 : ∀ i : grid0.Coords, EltTy.bits .f32 = 32 ∨ (Rect.block (s := S1024x50x768) S16x50x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768.size a ≤ S768.size a
  hwx0_6 : ∀ i : grid0.Coords, EltTy.bits .f32 = 32 ∨ (Rect.block (s := S768) S768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x50.size a ≤ S50x50.size a
  hwx0_7 : ∀ i : grid0.Coords, EltTy.bits .f32 = 32 ∨ (Rect.block (s := S50x50) S50x50.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x12x50x64.size a ≤ S1024x12x50x64.size a
  hwx0_8 : ∀ i : grid0.Coords, EltTy.bits .f32 = 32 ∨ (Rect.block (s := S1024x12x50x64) S16x12x50x64.size (cc0_transform_8 i) (hinb0_8 i)).WholeWords (EltTy.packing .f32)

variable [Facts₀]

def dot_S50x768_S768x768_S50x768_1_0_0_1_n_n : DotDims S50x768 S768x768 S50x768 where
  lhsContracting := [1]
  rhsContracting := [0]
  lhsNonContracting := [0]
  rhsNonContracting := [1]
  lhsBatch := []
  rhsBatch := []
  wf := dot_S50x768_S768x768_S50x768_1_0_0_1_n_n_wf
def dot_S16x50x64_S16x50x64_S16x50x50_2_2_1_1_0_0 : DotDims S16x50x64 S16x50x64 S16x50x50 where
  lhsContracting := [2]
  rhsContracting := [2]
  lhsNonContracting := [1]
  rhsNonContracting := [1]
  lhsBatch := [0]
  rhsBatch := [0]
  wf := dot_S16x50x64_S16x50x64_S16x50x50_2_2_1_1_0_0_wf
def dot_S16x50x50_S16x50x64_S16x50x64_2_1_1_2_0_0 : DotDims S16x50x50 S16x50x64 S16x50x64 where
  lhsContracting := [2]
  rhsContracting := [1]
  lhsNonContracting := [1]
  rhsNonContracting := [2]
  lhsBatch := [0]
  rhsBatch := [0]
  wf := dot_S16x50x50_S16x50x64_S16x50x64_2_1_1_2_0_0_wf

abbrev win0_0 : Pipeline.Window sig grid0 :=
  Pipeline.Window.ofSpec (Memref.whole main_arg0) S16x50x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S50x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S16x12x50x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x50x768 : Shape := ⟨3, ![1024, 50, 768]⟩
abbrev S768x768 : Shape := ⟨2, ![768, 768]⟩
abbrev S768 : Shape := ⟨1, ![768]⟩
abbrev S1x1x768 : Shape := ⟨3, ![1, 1, 768]⟩
abbrev S1024x50x12x64 : Shape := ⟨4, ![1024, 50, 12, 64]⟩
abbrev S1024x12x50x64 : Shape := ⟨4, ![1024, 12, 50, 64]⟩
abbrev S50 : Shape := ⟨1, ![50]⟩
abbrev S50x1 : Shape := ⟨2, ![50, 1]⟩
abbrev S1x50 : Shape := ⟨2, ![1, 50]⟩
abbrev S50x50 : Shape := ⟨2, ![50, 50]⟩
abbrev S_ : Shape := ⟨0, ![]⟩
abbrev S1024x12x50x50 : Shape := ⟨4, ![1024, 12, 50, 50]⟩
abbrev S1x1x50x50 : Shape := ⟨4, ![1, 1, 50, 50]⟩
abbrev S1024x12 : Shape := ⟨2, ![1024, 12]⟩
abbrev S1024x12x1x1 : Shape := ⟨4, ![1024, 12, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x50x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S1024x50x768, .f32⟩
  | .hbm, ⟨8, _⟩ => ⟨S1x1x768, .f32⟩
  | .hbm, ⟨9, _⟩ => ⟨S1024x50x768, .f32⟩
  | .hbm, ⟨10, _⟩ => ⟨S1024x50x768, .f32⟩
  | .hbm, ⟨11, _⟩ => ⟨S1024x50x12x64, .f32⟩
  | .hbm, ⟨12, _⟩ => ⟨S1024x12x50x64, .f32⟩
  | .hbm, ⟨13, _⟩ => ⟨S1024x50x768, .f32⟩
  | .hbm, ⟨14, _⟩ => ⟨S1x1x768, .f32⟩
  | .hbm, ⟨15, _⟩ => ⟨S1024x50x768, .f32⟩
  | .hbm, ⟨16, _⟩ => ⟨S1024x50x768, .f32⟩
  | .hbm, ⟨17, _⟩ => ⟨S1024x50x12x64, .f32⟩
  | .hbm, ⟨18, _⟩ => ⟨S1024x12x50x64, .f32⟩
  | .hbm, ⟨19, _⟩ => ⟨S1024x50x768, .f32⟩
  | .hbm, ⟨20, _⟩ => ⟨S1x1x768, .f32⟩
  | .hbm, ⟨21, _⟩ => ⟨S1024x50x768, .f32⟩
  | .hbm, ⟨22, _⟩ => ⟨S1024x50x768, .f32⟩
  | .hbm, ⟨23, _⟩ => ⟨S1024x50x12x64, .f32⟩
  | .hbm, ⟨24, _⟩ => ⟨S1024x12x50x64, .f32⟩
  | .hbm, ⟨25, _⟩ => ⟨S50, .i32⟩
  | .hbm, ⟨26, _⟩ => ⟨S50x1, .i32⟩
  | .hbm, ⟨27, _⟩ => ⟨S1x50, .i32⟩
  | .hbm, ⟨28, _⟩ => ⟨S50x50, .i32⟩
  | .hbm, ⟨29, _⟩ => ⟨S50x50, .i32⟩
  | .hbm, ⟨30, _⟩ => ⟨S50x50, .i32⟩
  | .hbm, ⟨31, _⟩ => ⟨S50x50, .i32⟩
  | .hbm, ⟨32, _⟩ => ⟨S50x50, .f32⟩
  | .hbm, ⟨33, _⟩ => ⟨S_, .f32⟩
  | .hbm, ⟨34, _⟩ => ⟨S50x50, .f32⟩
  | .hbm, ⟨35, _⟩ => ⟨S50x50, .f32⟩
  | .hbm, ⟨36, _⟩ => ⟨S_, .f32⟩
  | .hbm, ⟨37, _⟩ => ⟨S50x50, .f32⟩
  | .hbm, ⟨38, _⟩ => ⟨S50x50, .f32⟩
  | .hbm, ⟨39, _⟩ => ⟨S1024x12x50x50, .f32⟩
  | .hbm, ⟨40, _⟩ => ⟨S1x1x50x50, .f32⟩
  | .hbm, ⟨41, _⟩ => ⟨S1024x12x50x50, .f32⟩
  | .hbm, ⟨42, _⟩ => ⟨S1024x12x50x50, .f32⟩
  | .hbm, ⟨43, _⟩ => ⟨S1024x12x50x64, .f32⟩
  | .hbm, ⟨44, _⟩ => ⟨S1024x12x50x64, .f32⟩
  | .hbm, ⟨45, _⟩ => ⟨S_, .f32⟩
  | .hbm, ⟨46, _⟩ => ⟨S1024x12, .f32⟩
  | .hbm, ⟨47, _⟩ => ⟨S1024x12x1x1, .f32⟩
  | .hbm, ⟨48, _⟩ => ⟨S_, .f32⟩
  | .hbm, ⟨49, _⟩ => ⟨S1024x12x1x1, .f32⟩
  | .hbm, ⟨50, _⟩ => ⟨S1024x12x1x1, .f32⟩
  | .hbm, ⟨51, _⟩ => ⟨S_, .i32⟩
  | .hbm, ⟨52, _⟩ => ⟨S_, .f32⟩
  | .hbm, ⟨53, _⟩ => ⟨S1024x12, .f32⟩
  | .hbm, ⟨54, _⟩ => ⟨S1024x12x1x1, .f32⟩
  | .hbm, ⟨55, _⟩ => ⟨S_, .f32⟩
  | .hbm, ⟨56, _⟩ => ⟨S1024x12x1x1, .f32⟩
  | .hbm, ⟨57, _⟩ => ⟨S1024x12x1x1, .f32⟩
  | .hbm, ⟨58, _⟩ => ⟨S1024x12x50x64, .f32⟩
  | .hbm, ⟨59, _⟩ => ⟨S1024x12x50x64, .f32⟩
  | .hbm, ⟨60, _⟩ => ⟨S1024x12x50x64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S1024x12, .f32⟩
  | .hbm, ⟨66, _⟩ => ⟨S1024x12x1x1, .f32⟩
  | .hbm, ⟨67, _⟩ => ⟨S1024x12x1x1, .f32⟩
  | .hbm, ⟨68, _⟩ => ⟨S1024x12x1x1, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S1024x12x1x1, .f32⟩
  | .hbm, ⟨74, _⟩ => ⟨S1024x12x1x1, .f32⟩
  | .hbm, ⟨75, _⟩ => ⟨S1024x12x50x64, .f32⟩
  | .hbm, ⟨76, _⟩ => ⟨S1024x12x50x64, .f32⟩
  | .hbm, ⟨77, _⟩ => ⟨S_, .f32⟩
  | .hbm, ⟨78, _⟩ => ⟨S1024x12x1x1, .f32⟩
  | .hbm, ⟨79, _⟩ => ⟨S1024x12x1x1, .f32⟩
  | .hbm, ⟨80, _⟩ => ⟨S1024x12x1x1, .f32⟩
  | .hbm, ⟨81, _⟩ => ⟨S1024x12x50x64, .f32⟩
  | .hbm, ⟨82, _⟩ => ⟨S1024x12x50x64, .f32⟩
  | .hbm, ⟨83, _⟩ => ⟨S1024x50x768, .f32⟩
  | _, _ => ⟨S1024x50x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_v12 : Ref sig .tc := ⟨.hbm, 68, rfl⟩
abbrev main_call0_cst_3 : Ref sig .tc := ⟨.hbm, 69, rfl⟩
abbrev main_call0_v13 : Ref sig .tc := ⟨.hbm, 70, rfl⟩
abbrev main_call0_cst_4 : Ref sig .tc := ⟨.hbm, 71, rfl⟩
abbrev main_call0_call0_v0 : Ref sig .tc := ⟨.hbm, 72, rfl⟩
abbrev main_call0_call0_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_3 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S1024x50x768_0_1_2 : S1x1x768.BroadcastsInDim S1024x50x768 (![0, 1, 2] : Fin 3 → Fin S1024x50x768.rank)
  shapeCasts_S1024x50x768_S1024x50x12x64 : S1024x50x768.ShapeCasts S1024x50x12x64
  transposes_S1024x50x12x64_S1024x12x50x64_0_2_1_3 : S1024x50x12x64.Transposes [0, 2, 1, 3] S1024x12x50x64
  bcast_S50_S50x1_0 : S50.BroadcastsInDim S50x1 (![0] : Fin 1 → Fin S50x1.rank)
  bcast_S50_S1x50_1 : S50.BroadcastsInDim S1x50 (![1] : Fin 1 → Fin S1x50.rank)
  bcast_S50x1_S50x50_0_1 : S50x1.BroadcastsInDim S50x50 (![0, 1] : Fin 2 → Fin S50x50.rank)
  bcast_S1x50_S50x50_0_1 : S1x50.BroadcastsInDim S50x50 (![0, 1] : Fin 2 → Fin S50x50.rank)
  bcast_S_S50x50 : S_.BroadcastsInDim S50x50 (![] : Fin 0 → Fin S50x50.rank)
  bcast_S50x50_S1x1x50x50_2_3 : S50x50.BroadcastsInDim S1x1x50x50 (![2, 3] : Fin 2 → Fin S1x1x50x50.rank)
  bcast_S1x1x50x50_S1024x12x50x50_0_1_2_3 : S1x1x50x50.BroadcastsInDim S1024x12x50x50 (![0, 1, 2, 3] : Fin 4 → Fin S1024x12x50x50.rank)
  reducesTo_S1024x12x50x64_S1024x12_d2_3 : S1024x12x50x64.ReducesTo [2, 3] S1024x12
  h_S_ : 0 < S_.numel
  bcast_S1024x12_S1024x12x1x1_0_1 : S1024x12.BroadcastsInDim S1024x12x1x1 (![0, 1] : Fin 2 → Fin S1024x12x1x1.rank)
  bcast_S_S1024x12x1x1 : S_.BroadcastsInDim S1024x12x1x1 (![] : Fin 0 → Fin S1024x12x1x1.rank)
  bcast_S1024x12x1x1_S1024x12x50x64_0_1_2_3 : S1024x12x1x1.BroadcastsInDim S1024x12x50x64 (![0, 1, 2, 3] : Fin 4 → Fin S1024x12x50x64.rank)
  shapeCasts_S1024x12x50x64_S1024x50x768 : S1024x12x50x64.ShapeCasts S1024x50x768
  dot_S1024x50x768_S768x768_S1024x50x768_2_1_01_0_n_n_wf : DotDims.WF S1024x50x768 S768x768 S1024x50x768 [2] [1] [0, 1] [0] [] []
  dot_S1024x12x50x64_S1024x12x50x64_S1024x12x50x50_3_3_2_2_01_01_wf : DotDims.WF S1024x12x50x64 S1024x12x50x64 S1024x12x50x50 [3] [3] [2] [2] [0, 1] [0, 1]
  dot_S1024x12x50x50_S1024x12x50x64_S1024x12x50x64_3_2_2_3_01_01_wf : DotDims.WF S1024x12x50x50 S1024x12x50x64 S1024x12x50x64 [3] [2] [2] [3] [0, 1] [0, 1]

variable [Facts₀]

def dot_S1024x50x768_S768x768_S1024x50x768_2_1_01_0_n_n : DotDims S1024x50x768 S768x768 S1024x50x768 where
  lhsContracting := [2]
  rhsContracting := [1]
  lhsNonContracting := [0, 1]
  rhsNonContracting := [0]
  lhsBatch := []
  rhsBatch := []
  wf := dot_S1024x50x768_S768x768_S1024x50x768_2_1_01_0_n_n_wf
def dot_S1024x12x50x64_S1024x12x50x64_S1024x12x50x50_3_3_2_2_01_01 : DotDims S1024x12x50x64 S1024x12x50x64 S1024x12x50x50 where
  lhsContracting := [3]
  rhsContracting := [3]
  lhsNonContracting := [2]
  rhsNonContracting := [2]
  lhsBatch := [0, 1]
  rhsBatch := [0, 1]
  wf := dot_S1024x12x50x64_S1024x12x50x64_S1024x12x50x50_3_3_2_2_01_01_wf
def dot_S1024x12x50x50_S1024x12x50x64_S1024x12x50x64_3_2_2_3_01_01 : DotDims S1024x12x50x50 S1024x12x50x64 S1024x12x50x64 where
  lhsContracting := [3]
  rhsContracting := [2]
  lhsNonContracting := [2]
  rhsNonContracting := [3]
  lhsBatch := [0, 1]
  rhsBatch := [0, 1]
  wf := dot_S1024x12x50x50_S1024x12x50x64_S1024x12x50x64_3_2_2_3_01_01_wf

class Facts : Prop extends Facts₀ where

variable [Facts]
-- ==== Proof.KFun.lean ====
/-
  The two computations the kernel body repeats, each as one function of the values it reads.
  `rowProj w b x` is one batch row's linear layer: the 50 × 768 row `x` times the 768 × 768
  matrix `w` plus the bias row `b`.  `headOut dec q k v kf` is one head's work on a block of 16
  batch rows: scores `q · kᵀ` weighted entrywise by `dec`, applied to `v`, plus `kf`, then each
  row's 50 × 64 slab normalised to mean 0 and variance 1.
-/
import proofs.«173582_j32727650795908_1_alg».proof.Proof.Gen.KernelIdeal.Skeleton

noncomputable section

namespace Cert.KernelIdeal.Gen

open Idealize.ShloMosaic

variable {F : FTy → Type} [FloatOps F]

/-- One batch row through a linear layer. -/
def rowProj (w : Vec F S768x768 .bf16) (b : Vec F S768 .f32) (x : Vec F S1x50x768 .f32) : FVec F S1x50x768 .f32 :=
  k0_pay6 w b x

/-- One head of a block of 16 batch rows. -/
def headOut (dec : Vec F S50x50 .f32) (q k v kf : Vec F S16x50x64 .f32) : FVec F S16x1x50x64 .f32 :=
  k0_pay86 (k0_pay84 v) kf (k0_pay85 dec q k)

end Cert.KernelIdeal.Gen

end
-- ==== Proof.KPieces.lean ====
/-
  What the kernel body leaves in its buffers, piece by piece.  The body first fills three scratch
  buffers row by row (16 rows each: the query, key and value layers of the block's 16 batch rows),
  then for each of the 12 heads reads the head's 64 columns of the three buffers and stores the
  head's normalised output.  Each stored piece is identified, by unfolding alone, with one of two
  functions of the loaded values: a row through a linear layer, or one head's output.
-/
import proofs.«173582_j32727650795908_1_alg».proof.Proof.Gen.KernelIdeal.Frame
import proofs.«173582_j32727650795908_1_alg».proof.Proof.KFun

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- Every piece stored into scratch buffer 0 is one batch row of the block through a linear
    layer: row `i` of the block, the layer's matrix and bias read whole. -/
theorem hs0_pieces (c : Dev nD) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole)
    (x0 : Vec F S16x50x768 .f32) (x1 : Vec F S768x768 .bf16) (x2 : Vec F S768 .f32) :
    ∀ p ∈ kernelRun0_A.sl.HS0_16 c arg1 harg1 arg2 harg2 arg3 harg3 x0 x1 x2,
      ∃ (i : ℕ) (inb : ∀ a, (![i, 0, 0] : Fin 3 → ℕ) a + S1x50x768.size a ≤ S16x50x768.size a),
        p = ⟨Rect.unit (s := S16x50x768) ![i, 0, 0] S1x50x768.size inb,
          rowProj (View.readAt (Elt F) arg2.view (Rect.unit ![0, 0] S768x768.size inb_S768x768_S768x768_0_0).toLoadRect (harg2.unread x1))
            (View.readAt (Elt F) arg3.view (Rect.unit ![0] S768.size inb_S768_S768_0).toLoadRect (harg3.unread x2))
            (View.readAt (Elt F) arg1.view (Rect.unit (s := S16x50x768) ![i, 0, 0] S1x50x768.size inb).toLoadRect (harg1.unread x0))⟩ := by
  unfold kernelRun0_A.sl.HS0_16
  intro p hp
  simp only [List.mem_cons, List.mem_singleton, List.not_mem_nil, or_false] at hp
  rcases hp with rfl | rfl | rfl | rfl | rfl | rfl | rfl | rfl | rfl | rfl | rfl | rfl | rfl | rfl | rfl | rfl
  all_goals exact ⟨_, _, rfl⟩

/-- Every piece stored into scratch buffer 1 is one batch row of the block through a linear
    layer: row `i` of the block, the layer's matrix and bias read whole. -/
theorem hs1_pieces (c : Dev nD) (arg1 : Memref sig .tc .vmem S16x50x768 .f32) (harg1 : arg1.IsWhole) (arg4 : Memref sig .tc .vmem S768x768 .bf16) (harg4 : arg4.IsWhole) (arg5 : Memref sig .tc .vmem S768 .f32) (harg5 : arg5.IsWhole)
    (x0 : Vec F S16x50x768 .f32) (x3 : Vec F S768x768 .bf16) (x4 : Vec F S768 .f32) :
    ∀ p ∈ kernelRun0_A.sl.HS1_16 c arg1 harg1 arg4 harg4 arg5 harg5 x0 x3 x4,
      ∃ (i : ℕ) (inb : ∀ a, (![i, 0, 0] : Fin 3 → ℕ) a + S1x50x768.size a ≤ S16x50x768.size a),
        p = ⟨Rect.unit (s := S16x50x768) ![i, 0, 0] S1x50x768.size inb,
          rowProj (View.readAt (Elt F) arg4.view (Rect.unit ![0, 0] S768x768.size inb_S768x768_S768x768_0_0).toLoadRect (harg4.unread x3))
            (View.readAt (Elt F) arg5.view (Rect.unit ![0] S768.size inb_S768_S768_0).toLoadRect (harg5.unread x4))
            (View.readAt (Elt F) arg1.view (Rect.unit (s := S16x50x768) ![i, 0, 0] S1x50x768.size inb).toLoadRect (harg1.unread x0))⟩ := by
  unfold kernelRun0_A.sl.HS1_16
  intro p hp
  simp only [List.mem_cons, List.mem_singleton, List.not_mem_nil, or_false] at hp
  rcases hp with rfl | rfl | rfl | rfl | rfl | rfl | rfl | rfl | rfl | rfl | rfl | rfl | rfl | rfl | rfl | rfl
  all_goals exact ⟨_, _, rfl⟩

/-- Every piece stored into scratch buffer 2 is one batch row of the block through a linear
    layer: row `i` of the block, the layer's matrix and bias read whole. -/
theorem hs2_pieces (c : Dev nD) (arg1 : Memref sig .tc .vmem S16x50x768 .f32) (harg1 : arg1.IsWhole) (arg6 : Memref sig .tc .vmem S768x768 .bf16) (harg6 : arg6.IsWhole) (arg7 : Memref sig .tc .vmem S768 .f32) (harg7 : arg7.IsWhole)
    (x0 : Vec F S16x50x768 .f32) (x5 : Vec F S768x768 .bf16) (x6 : Vec F S768 .f32) :
    ∀ p ∈ kernelRun0_A.sl.HS2_16 c arg1 harg1 arg6 harg6 arg7 harg7 x0 x5 x6,
      ∃ (i : ℕ) (inb : ∀ a, (![i, 0, 0] : Fin 3 → ℕ) a + S1x50x768.size a ≤ S16x50x768.size a),
        p = ⟨Rect.unit (s := S16x50x768) ![i, 0, 0] S1x50x768.size inb,
          rowProj (View.readAt (Elt F) arg6.view (Rect.unit ![0, 0] S768x768.size inb_S768x768_S768x768_0_0).toLoadRect (harg6.unread x5))
            (View.readAt (Elt F) arg7.view (Rect.unit ![0] S768.size inb_S768_S768_0).toLoadRect (harg7.unread x6))
            (View.readAt (Elt F) arg1.view (Rect.unit (s := S16x50x768) ![i, 0, 0] S1x50x768.size inb).toLoadRect (harg1.unread x0))⟩ := by
  unfold kernelRun0_A.sl.HS2_16
  intro p hp
  simp only [List.mem_cons, List.mem_singleton, List.not_mem_nil, or_false] at hp
  rcases hp with rfl | rfl | rfl | rfl | rfl | rfl | rfl | rfl | rfl | rfl | rfl | rfl | rfl | rfl | rfl | rfl
  all_goals exact ⟨_, _, rfl⟩

/-- Every piece stored into the output block is one head's output: head `h` reads columns
    `64·h … 64·h + 63` of the three scratch buffers (the key buffer twice) and the weight table. -/
theorem out_pieces (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole) (x0 : Vec F S16x50x768 .f32) (x1 : Vec F S768x768 .bf16) (x2 : Vec F S768 .f32) (x3 : Vec F S768x768 .bf16) (x4 : Vec F S768 .f32) (x5 : Vec F S768x768 .bf16) (x6 : Vec F S768 .f32) (x7 : Vec F S50x50 .f32) :
    ∀ p ∈ (kernelRun0_A c i arg1 harg1 arg2 harg2 arg3 harg3 arg4 harg4 arg5 harg5 arg6 harg6 arg7 harg7 arg8 harg8 arg9 harg9 arg10 harg10 arg11 harg11 arg12 harg12 x0 x1 x2 x3 x4 x5 x6 x7).1,
      ∃ (h : ℕ) (inb : ∀ a, (![0, h, 0, 0] : Fin 4 → ℕ) a + S16x1x50x64.size a ≤ S16x12x50x64.size a)
        (inbs : ∀ a, (![0, 0, 64 * h] : Fin 3 → ℕ) a + S16x50x64.size a ≤ S16x50x768.size a),
        p = ⟨Rect.unit (s := S16x12x50x64) ![0, h, 0, 0] S16x1x50x64.size inb,
          headOut (View.readAt (Elt F) arg8.view (Rect.unit ![0, 0] S50x50.size inb_S50x50_S50x50_0_0).toLoadRect (harg8.unread x7))
            (arg10.view.readCov (kernelRun0_A.sl.HS0_16 c arg1 harg1 arg2 harg2 arg3 harg3 x0 x1 x2) (Rect.unit (s := S16x50x768) ![0, 0, 64 * h] S16x50x64.size inbs).toLoadRect)
            (arg11.view.readCov (kernelRun0_A.sl.HS1_16 c arg1 harg1 arg4 harg4 arg5 harg5 x0 x3 x4) (Rect.unit (s := S16x50x768) ![0, 0, 64 * h] S16x50x64.size inbs).toLoadRect)
            (arg12.view.readCov (kernelRun0_A.sl.HS2_16 c arg1 harg1 arg6 harg6 arg7 harg7 x0 x5 x6) (Rect.unit (s := S16x50x768) ![0, 0, 64 * h] S16x50x64.size inbs).toLoadRect)
            (arg11.view.readCov (kernelRun0_A.sl.HS1_16 c arg1 harg1 arg4 harg4 arg5 harg5 x0 x3 x4) (Rect.unit (s := S16x50x768) ![0, 0, 64 * h] S16x50x64.size inbs).toLoadRect)⟩ := by
  unfold kernelRun0_A
  dsimp only
  intro p hp
  simp only [List.mem_cons, List.mem_singleton, List.not_mem_nil, or_false] at hp
  rcases hp with rfl | rfl | rfl | rfl | rfl | rfl | rfl | rfl | rfl | rfl | rfl | rfl
  all_goals exact ⟨_, _, _, rfl⟩

/-- The 16 row pieces of scratch buffer 0 tile it. -/
theorem hs0_cover (c : Dev nD) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole)
    (x0 : Vec F S16x50x768 .f32) (x1 : Vec F S768x768 .bf16) (x2 : Vec F S768 .f32) (y : S16x50x768.Idx) :
    ∃ pc ∈ kernelRun0_A.sl.HS0_16 c arg1 harg1 arg2 harg2 arg3 harg3 x0 x1 x2, y ∈ pc.1.set :=
  View.cover_of_tiledL (kernelRun0_A.sl.HS0_16 c arg1 harg1 arg2 harg2 arg3 harg3 x0 x1 x2) S1x50x768.size (by sl_kernel_rfl) y

theorem hs1_cover (c : Dev nD) (arg1 : Memref sig .tc .vmem S16x50x768 .f32) (harg1 : arg1.IsWhole) (arg4 : Memref sig .tc .vmem S768x768 .bf16) (harg4 : arg4.IsWhole) (arg5 : Memref sig .tc .vmem S768 .f32) (harg5 : arg5.IsWhole)
    (x0 : Vec F S16x50x768 .f32) (x3 : Vec F S768x768 .bf16) (x4 : Vec F S768 .f32) (y : S16x50x768.Idx) :
    ∃ pc ∈ kernelRun0_A.sl.HS1_16 c arg1 harg1 arg4 harg4 arg5 harg5 x0 x3 x4, y ∈ pc.1.set :=
  View.cover_of_tiledL (kernelRun0_A.sl.HS1_16 c arg1 harg1 arg4 harg4 arg5 harg5 x0 x3 x4) S1x50x768.size (by sl_kernel_rfl) y

theorem hs2_cover (c : Dev nD) (arg1 : Memref sig .tc .vmem S16x50x768 .f32) (harg1 : arg1.IsWhole) (arg6 : Memref sig .tc .vmem S768x768 .bf16) (harg6 : arg6.IsWhole) (arg7 : Memref sig .tc .vmem S768 .f32) (harg7 : arg7.IsWhole)
    (x0 : Vec F S16x50x768 .f32) (x5 : Vec F S768x768 .bf16) (x6 : Vec F S768 .f32) (y : S16x50x768.Idx) :
    ∃ pc ∈ kernelRun0_A.sl.HS2_16 c arg1 harg1 arg6 harg6 arg7 harg7 x0 x5 x6, y ∈ pc.1.set :=
  View.cover_of_tiledL (kernelRun0_A.sl.HS2_16 c arg1 harg1 arg6 harg6 arg7 harg7 x0 x5 x6) S1x50x768.size (by sl_kernel_rfl) y

end Cert.KernelIdeal.Gen

end
-- ==== Proof.Spec.lean ====
/-
  The retention layer with a per-head group normalisation, as functions on the extended reals.

  For a batch entry m, a position s and an output column f a linear layer gives
      proj X W b m s f = (∑ e, X[m,s,e] · W[f,e]) + b[f].
  Column f = 64·h + d belongs to head h, lane d.  For head h the score of positions (s, t) is the
  dot product of the query row s and the key row t over the head's 64 lanes; scores are weighted
  entrywise by a fixed 50×50 table `dec`, applied to the value rows, and the key row is added back:
      mix m h s d = (∑ t, (score m h s t · dec[s,t]) · V[m,t,64h+d]) + K[m,s,64h+d].
  Each (m, h) slab of 50 × 64 numbers is then normalised to mean 0 and variance 1 (plus a small
  ε under the root).  Two spellings of that normalisation are stated: one takes the variance as
  the mean of squares minus the squared mean and multiplies by a reciprocal root (`normK`), the
  other takes the mean of squared deviations and divides by a root (`normR`).  They agree on
  slabs of finite numbers, which is proved elsewhere.
-/
import Idealize.ShloMosaic.PureOps.Ideal
import Idealize.ShloMosaic.Lib.ValueIdx

noncomputable section

open scoped BigOperators

namespace Cert.Ret

open Idealize.ShloMosaic Idealize.ShloMosaic.ValueIdx

abbrev SX : Shape := ⟨3, ![1024, 50, 768]⟩
abbrev SW : Shape := ⟨2, ![768, 768]⟩
abbrev SB : Shape := ⟨1, ![768]⟩
abbrev SD : Shape := ⟨2, ![50, 50]⟩
abbrev SO : Shape := ⟨4, ![1024, 12, 50, 64]⟩

/-- Column of head `h`, lane `d`: `64·h + d`. -/
def hd (h : Fin 12) (d : Fin 64) : Fin 768 := ⟨64 * h.val + d.val, by omega⟩

/-- The seven arrays the layer is applied to. -/
structure Inputs where
  X : SX.Idx → EReal
  Wq : SW.Idx → EReal
  bq : SB.Idx → EReal
  Wk : SW.Idx → EReal
  bk : SB.Idx → EReal
  Wv : SW.Idx → EReal
  bv : SB.Idx → EReal

/-- One entry of a linear layer: `(∑ e, X[m,s,e] · W[f,e]) + b[f]`. -/
def proj (X : SX.Idx → EReal) (W : SW.Idx → EReal) (b : SB.Idx → EReal)
    (m : Fin 1024) (s : Fin 50) (f : Fin 768) : EReal :=
  (∑ e : Fin 768, X (ix3 m s e) * W (ix2 f e)) + b (ix1 f)

def qAt (I : Inputs) (m : Fin 1024) (s : Fin 50) (f : Fin 768) : EReal := proj I.X I.Wq I.bq m s f
def kAt (I : Inputs) (m : Fin 1024) (s : Fin 50) (f : Fin 768) : EReal := proj I.X I.Wk I.bk m s f
def vAt (I : Inputs) (m : Fin 1024) (s : Fin 50) (f : Fin 768) : EReal := proj I.X I.Wv I.bv m s f

/-- The score of positions `(s, t)` in head `h`: query row `s` against key row `t`. -/
def score (I : Inputs) (m : Fin 1024) (h : Fin 12) (s t : Fin 50) : EReal :=
  ∑ d : Fin 64, qAt I m s (hd h d) * kAt I m t (hd h d)

/-- The weighted scores applied to the values, plus the key row. -/
def mix (dec : SD.Idx → EReal) (I : Inputs) (m : Fin 1024) (h : Fin 12) (s : Fin 50) (d : Fin 64) : EReal :=
  (∑ t : Fin 50, (score I m h s t * dec (ix2 s t)) * vAt I m t (hd h d)) + kAt I m s (hd h d)

/-- The slab size `50 · 64 = 3200` as the programs spell it. -/
def c3200 : EReal := Ideal.ofBits .f32 0x45480000#32
/-- The ε under the root as the programs spell it. -/
def ceps : EReal := Ideal.ofBits .f32 0x3727C5AC#32

/-- Normalisation with the variance taken as E[o²] − E[o]², times a reciprocal root. -/
def normK (o : Fin 50 → Fin 64 → EReal) (s : Fin 50) (d : Fin 64) : EReal :=
  (o s d - Ideal.div (∑ s', ∑ d', o s' d') c3200)
    * Ideal.rsqrt (Ideal.div (∑ s', ∑ d', o s' d' * o s' d') c3200
        - Ideal.div (∑ s', ∑ d', o s' d') c3200 * Ideal.div (∑ s', ∑ d', o s' d') c3200 + ceps)

/-- Normalisation with the variance taken as E[(o − E[o])²], divided by a root. -/
def normR (o : Fin 50 → Fin 64 → EReal) (s : Fin 50) (d : Fin 64) : EReal :=
  Ideal.div (o s d - Ideal.div (∑ s', ∑ d', o s' d') c3200)
    (Ideal.sqrt (Ideal.div (∑ s', ∑ d', (o s' d' - Ideal.div (∑ s'', ∑ d'', o s'' d'') c3200)
        * (o s' d' - Ideal.div (∑ s'', ∑ d'', o s'' d'') c3200)) c3200 + ceps))

/-- The layer's output array in the kernel's spelling of the normalisation. -/
def outK (dec : SD.Idx → EReal) (I : Inputs) : SO.Idx → EReal :=
  fun j => normK (fun s d => mix dec I (j 0) (j 1) s d) (j 2) (j 3)

/-- The layer's output array in the reference's spelling of the normalisation. -/
def outR (dec : SD.Idx → EReal) (I : Inputs) : SO.Idx → EReal :=
  fun j => normR (fun s d => mix dec I (j 0) (j 1) s d) (j 2) (j 3)

/-- Every entry of an array is a real number. -/
def AllReal {s : Shape} (x : s.Idx → EReal) : Prop := ∀ i, ∃ r : ℝ, x i = (r : EReal)

/-- Every entry of every input is a real number. -/
structure Inputs.Finite (I : Inputs) : Prop where
  X : AllReal I.X
  Wq : AllReal I.Wq
  bq : AllReal I.bq
  Wk : AllReal I.Wk
  bk : AllReal I.bk
  Wv : AllReal I.Wv
  bv : AllReal I.bv

end Cert.Ret

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KDots.lean ====
/-
  The kernel body's two repeated computations read at an index, at the ideal instance (floats are
  the extended reals, with no rounding and no order of summation).

  One batch row through a linear layer is, at position s and column f,
      (∑ e, x[0,s,e] · w[e,f]) + b[f].
  One head of a block of 16 batch rows is, at row i, position s and lane d, the normalisation
  (mean 0, variance 1 over the row's 50 × 64 slab, the variance taken as the mean of squares minus
  the squared mean, times a reciprocal root) of the slab
      o[s,d] = (∑ t, ((∑ e, q[i,s,e] · k[i,t,e]) · dec[s,t]) · v[i,t,d]) + kf[i,s,d].

  The layout operations (a unit axis added or dropped, a row or a scalar-per-row broadcast) are read
  through the row-major position of an index; a sum over one axis is a sum over that axis's
  coordinate; a product with one contracted axis is a sum over the contracted coordinate.
-/
import proofs.«173582_j32727650795908_1_alg».proof.Proof.KFun
import proofs.«173582_j32727650795908_1_alg».proof.Proof.Spec
import proofs.«173582_j32727650795908_1_alg».proof.Proof.LibDot2
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Gen

open Idealize.ShloMosaic Idealize.ShloMosaic.ValueIdx

namespace KDots

/-! ## Layout operations read at an index -/

section Layout
variable {α : Type}

/-- An `[a, b, c]` array cast to `[a, 1, b, c]` reads, at `(i, u, j, k)`, the operand at `(i, j, k)`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu', Nat.mul_one, Nat.add_zero, Nat.mul_one, Nat.add_zero])

/-- An `[a, 1, 1]` array broadcast to `[a, b, c]` reads, at `(i, j, k)`, the operand's one entry of row `i`. -/
theorem broadcastTo_a11_abc_apply {a b c : ℕ} (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Layout

/-! ## The three products read at an index -/

section Dots

/-- The linear layer's product, `[50, 768]` by `[768, 768]` contracting the left operand's axis 1 with
    the right operand's axis 0, accumulated into the all-zero array: at `(s, f)` it is
    `∑ e, l[s, e] * r[e, f]`. -/
theorem dotP_apply {φ₁ φ₂ : FTy} (l : FVec Ideal S50x768 φ₁) (r : FVec Ideal S768x768 φ₂) (s : Fin 50) (f : Fin 768) :
    matmul dot_S50x768_S768x768_S50x768_1_0_0_1_n_n none l r (constant (F := Ideal) S50x768 .f32 0x00000000#32) (ix2 s f)
      = ∑ e : Fin 768, l (ix2 s e) * r (ix2 e f) :=
  Dot2.matmul_zero_mm_apply dot_S50x768_S768x768_S50x768_1_0_0_1_n_n.wf none l r s f

/-! ### Scores: `[16, 50, 64]` by `[16, 50, 64]`, batch axis 0, contracting axis 2 of both -/

/-- Left operand, axis 0: the batch axis reads the result's axis 0. -/
private theorem qk_lhs0 (j : S16x50x50.Idx) (k : dot_S16x50x64_S16x50x64_S16x50x50_2_2_1_1_0_0.contr.Idx) :
    (dot_S16x50x64_S16x50x64_S16x50x50_2_2_1_1_0_0.lhsIdx j k 0).val = (j 0).val := by
  unfold DotDims.lhsIdx
  rw [dif_pos (show (0 : Fin 3) ∈ dot_S16x50x64_S16x50x64_S16x50x50_2_2_1_1_0_0.lhsBatch by decide)]
  rfl

/-- Left operand, axis 1: its free axis reads the result's axis 1. -/
private theorem qk_lhs1 (j : S16x50x50.Idx) (k : dot_S16x50x64_S16x50x64_S16x50x50_2_2_1_1_0_0.contr.Idx) :
    (dot_S16x50x64_S16x50x64_S16x50x50_2_2_1_1_0_0.lhsIdx j k 1).val = (j 1).val := by
  unfold DotDims.lhsIdx
  rw [dif_neg (show (1 : Fin 3) ∉ dot_S16x50x64_S16x50x64_S16x50x50_2_2_1_1_0_0.lhsBatch by decide),
    dif_pos (show (1 : Fin 3) ∈ dot_S16x50x64_S16x50x64_S16x50x50_2_2_1_1_0_0.lhsNonContracting by decide)]
  rfl

/-- Left operand, axis 2: the contracted axis reads the contraction coordinate. -/
private theorem qk_lhs2 (j : S16x50x50.Idx) (c : Fin 64) :
    (dot_S16x50x64_S16x50x64_S16x50x50_2_2_1_1_0_0.lhsIdx j
      ((contrEquiv1 dot_S16x50x64_S16x50x64_S16x50x50_2_2_1_1_0_0 64 rfl rfl).symm c) 2).val = c.val := by
  rw [dot_S16x50x64_S16x50x64_S16x50x50_2_2_1_1_0_0.lhsIdx_val_of_single rfl]
  exact contrEquiv1_symm_val dot_S16x50x64_S16x50x64_S16x50x50_2_2_1_1_0_0 64 rfl rfl c

/-- Right operand, axis 0: the batch axis reads the result's axis 0. -/
private theorem qk_rhs0 (j : S16x50x50.Idx) (k : dot_S16x50x64_S16x50x64_S16x50x50_2_2_1_1_0_0.contr.Idx) :
    (dot_S16x50x64_S16x50x64_S16x50x50_2_2_1_1_0_0.rhsIdx j k 0).val = (j 0).val := by
  unfold DotDims.rhsIdx
  rw [dif_pos (show (0 : Fin 3) ∈ dot_S16x50x64_S16x50x64_S16x50x50_2_2_1_1_0_0.rhsBatch by decide)]
  rfl

/-- Right operand, axis 1: its free axis reads the result's axis 2. -/
private theorem qk_rhs1 (j : S16x50x50.Idx) (k : dot_S16x50x64_S16x50x64_S16x50x50_2_2_1_1_0_0.contr.Idx) :
    (dot_S16x50x64_S16x50x64_S16x50x50_2_2_1_1_0_0.rhsIdx j k 1).val = (j 2).val := by
  unfold DotDims.rhsIdx
  rw [dif_neg (show (1 : Fin 3) ∉ dot_S16x50x64_S16x50x64_S16x50x50_2_2_1_1_0_0.rhsBatch by decide),
    dif_pos (show (1 : Fin 3) ∈ dot_S16x50x64_S16x50x64_S16x50x50_2_2_1_1_0_0.rhsNonContracting by decide)]
  rfl

/-- Right operand, axis 2: the contracted axis reads the contraction coordinate. -/
private theorem qk_rhs2 (j : S16x50x50.Idx) (c : Fin 64) :
    (dot_S16x50x64_S16x50x64_S16x50x50_2_2_1_1_0_0.rhsIdx j
      ((contrEquiv1 dot_S16x50x64_S16x50x64_S16x50x50_2_2_1_1_0_0 64 rfl rfl).symm c) 2).val = c.val := by
  rw [dot_S16x50x64_S16x50x64_S16x50x50_2_2_1_1_0_0.rhsIdx_val_of_single rfl]
  exact contrEquiv1_symm_val dot_S16x50x64_S16x50x64_S16x50x50_2_2_1_1_0_0 64 rfl rfl c

/-- The scores' product accumulated into the all-zero array: at `(i, s, t)` it is
    `∑ e, l[i, s, e] * r[i, t, e]`. -/
theorem dotQK_apply {φ₁ φ₂ : FTy} (l : FVec Ideal S16x50x64 φ₁) (r : FVec Ideal S16x50x64 φ₂)
    (i : Fin 16) (s t : Fin 50) :
    matmul dot_S16x50x64_S16x50x64_S16x50x50_2_2_1_1_0_0 none l r (constant (F := Ideal) S16x50x50 .f32 0x00000000#32) (ix3 i s t)
      = ∑ e : Fin 64, l (ix3 i s e) * r (ix3 i t e) := by
  refine (Ideal.matmul_constant_zero_apply dot_S16x50x64_S16x50x64_S16x50x50_2_2_1_1_0_0 none l r (ix3 i s t)).trans ?_
  rw [← Equiv.sum_comp (contrEquiv1 dot_S16x50x64_S16x50x64_S16x50x50_2_2_1_1_0_0 64 rfl rfl).symm]
  refine Finset.sum_congr rfl fun c _ => ?_
  have hl : dot_S16x50x64_S16x50x64_S16x50x50_2_2_1_1_0_0.lhsIdx (ix3 i s t)
      ((contrEquiv1 dot_S16x50x64_S16x50x64_S16x50x50_2_2_1_1_0_0 64 rfl rfl).symm c) = ix3 i s c := by
    funext a; apply Fin.ext
    match a with
    | ⟨0, _⟩ => exact qk_lhs0 (ix3 i s t) _
    | ⟨1, _⟩ => exact qk_lhs1 (ix3 i s t) _
    | ⟨2, _⟩ => exact qk_lhs2 (ix3 i s t) c
  have hr : dot_S16x50x64_S16x50x64_S16x50x50_2_2_1_1_0_0.rhsIdx (ix3 i s t)
      ((contrEquiv1 dot_S16x50x64_S16x50x64_S16x50x50_2_2_1_1_0_0 64 rfl rfl).symm c) = ix3 i t c := by
    funext a; apply Fin.ext
    match a with
    | ⟨0, _⟩ => exact qk_rhs0 (ix3 i s t) _
    | ⟨1, _⟩ => exact qk_rhs1 (ix3 i s t) _
    | ⟨2, _⟩ => exact qk_rhs2 (ix3 i s t) c
  rw [hl, hr]

/-! ### Weighted scores applied to the values: `[16, 50, 50]` by `[16, 50, 64]`, batch axis 0,
    contracting the left operand's axis 2 with the right operand's axis 1 -/

/-- Left operand, axis 0: the batch axis reads the result's axis 0. -/
private theorem rv_lhs0 (j : S16x50x64.Idx) (k : dot_S16x50x50_S16x50x64_S16x50x64_2_1_1_2_0_0.contr.Idx) :
    (dot_S16x50x50_S16x50x64_S16x50x64_2_1_1_2_0_0.lhsIdx j k 0).val = (j 0).val := by
  unfold DotDims.lhsIdx
  rw [dif_pos (show (0 : Fin 3) ∈ dot_S16x50x50_S16x50x64_S16x50x64_2_1_1_2_0_0.lhsBatch by decide)]
  rfl

/-- Left operand, axis 1: its free axis reads the result's axis 1. -/
private theorem rv_lhs1 (j : S16x50x64.Idx) (k : dot_S16x50x50_S16x50x64_S16x50x64_2_1_1_2_0_0.contr.Idx) :
    (dot_S16x50x50_S16x50x64_S16x50x64_2_1_1_2_0_0.lhsIdx j k 1).val = (j 1).val := by
  unfold DotDims.lhsIdx
  rw [dif_neg (show (1 : Fin 3) ∉ dot_S16x50x50_S16x50x64_S16x50x64_2_1_1_2_0_0.lhsBatch by decide),
    dif_pos (show (1 : Fin 3) ∈ dot_S16x50x50_S16x50x64_S16x50x64_2_1_1_2_0_0.lhsNonContracting by decide)]
  rfl

/-- Left operand, axis 2: the contracted axis reads the contraction coordinate. -/
private theorem rv_lhs2 (j : S16x50x64.Idx) (c : Fin 50) :
    (dot_S16x50x50_S16x50x64_S16x50x64_2_1_1_2_0_0.lhsIdx j
      ((contrEquiv1 dot_S16x50x50_S16x50x64_S16x50x64_2_1_1_2_0_0 50 rfl rfl).symm c) 2).val = c.val := by
  rw [dot_S16x50x50_S16x50x64_S16x50x64_2_1_1_2_0_0.lhsIdx_val_of_single rfl]
  exact contrEquiv1_symm_val dot_S16x50x50_S16x50x64_S16x50x64_2_1_1_2_0_0 50 rfl rfl c

/-- Right operand, axis 0: the batch axis reads the result's axis 0. -/
private theorem rv_rhs0 (j : S16x50x64.Idx) (k : dot_S16x50x50_S16x50x64_S16x50x64_2_1_1_2_0_0.contr.Idx) :
    (dot_S16x50x50_S16x50x64_S16x50x64_2_1_1_2_0_0.rhsIdx j k 0).val = (j 0).val := by
  unfold DotDims.rhsIdx
  rw [dif_pos (show (0 : Fin 3) ∈ dot_S16x50x50_S16x50x64_S16x50x64_2_1_1_2_0_0.rhsBatch by decide)]
  rfl

/-- Right operand, axis 1: the contracted axis reads the contraction coordinate. -/
private theorem rv_rhs1 (j : S16x50x64.Idx) (c : Fin 50) :
    (dot_S16x50x50_S16x50x64_S16x50x64_2_1_1_2_0_0.rhsIdx j
      ((contrEquiv1 dot_S16x50x50_S16x50x64_S16x50x64_2_1_1_2_0_0 50 rfl rfl).symm c) 1).val = c.val := by
  rw [dot_S16x50x50_S16x50x64_S16x50x64_2_1_1_2_0_0.rhsIdx_val_of_single rfl]
  exact contrEquiv1_symm_val dot_S16x50x50_S16x50x64_S16x50x64_2_1_1_2_0_0 50 rfl rfl c

/-- Right operand, axis 2: its free axis reads the result's axis 2. -/
private theorem rv_rhs2 (j : S16x50x64.Idx) (k : dot_S16x50x50_S16x50x64_S16x50x64_2_1_1_2_0_0.contr.Idx) :
    (dot_S16x50x50_S16x50x64_S16x50x64_2_1_1_2_0_0.rhsIdx j k 2).val = (j 2).val := by
  unfold DotDims.rhsIdx
  rw [dif_neg (show (2 : Fin 3) ∉ dot_S16x50x50_S16x50x64_S16x50x64_2_1_1_2_0_0.rhsBatch by decide),
    dif_pos (show (2 : Fin 3) ∈ dot_S16x50x50_S16x50x64_S16x50x64_2_1_1_2_0_0.rhsNonContracting by decide)]
  rfl

/-- The weighted scores applied to the values, accumulated into the all-zero array: at `(i, s, d)`
    it is `∑ t, l[i, s, t] * r[i, t, d]`. -/
theorem dotRV_apply {φ₁ φ₂ : FTy} (l : FVec Ideal S16x50x50 φ₁) (r : FVec Ideal S16x50x64 φ₂)
    (i : Fin 16) (s : Fin 50) (d : Fin 64) :
    matmul dot_S16x50x50_S16x50x64_S16x50x64_2_1_1_2_0_0 none l r (constant (F := Ideal) S16x50x64 .f32 0x00000000#32) (ix3 i s d)
      = ∑ t : Fin 50, l (ix3 i s t) * r (ix3 i t d) := by
  refine (Ideal.matmul_constant_zero_apply dot_S16x50x50_S16x50x64_S16x50x64_2_1_1_2_0_0 none l r (ix3 i s d)).trans ?_
  rw [← Equiv.sum_comp (contrEquiv1 dot_S16x50x50_S16x50x64_S16x50x64_2_1_1_2_0_0 50 rfl rfl).symm]
  refine Finset.sum_congr rfl fun c _ => ?_
  have hl : dot_S16x50x50_S16x50x64_S16x50x64_2_1_1_2_0_0.lhsIdx (ix3 i s d)
      ((contrEquiv1 dot_S16x50x50_S16x50x64_S16x50x64_2_1_1_2_0_0 50 rfl rfl).symm c) = ix3 i s c := by
    funext a; apply Fin.ext
    match a with
    | ⟨0, _⟩ => exact rv_lhs0 (ix3 i s d) _
    | ⟨1, _⟩ => exact rv_lhs1 (ix3 i s d) _
    | ⟨2, _⟩ => exact rv_lhs2 (ix3 i s d) c
  have hr : dot_S16x50x50_S16x50x64_S16x50x64_2_1_1_2_0_0.rhsIdx (ix3 i s d)
      ((contrEquiv1 dot_S16x50x50_S16x50x64_S16x50x64_2_1_1_2_0_0 50 rfl rfl).symm c) = ix3 i c d := by
    funext a; apply Fin.ext
    match a with
    | ⟨0, _⟩ => exact rv_rhs0 (ix3 i s d) _
    | ⟨1, _⟩ => exact rv_rhs1 (ix3 i s d) c
    | ⟨2, _⟩ => exact rv_rhs2 (ix3 i s d) _
  rw [hl, hr]

end Dots

/-! ## Sums over one axis, and over a row's slab -/

section Sums

/-- The sum over the lanes (axis 2) of a `[16, 50, 64]` array, at `(i, s)`. -/
theorem sumLane_apply (x : FVec Ideal S16x50x64 .f32) (h : S16x50x64.Reduces [2] S16x50) (hφ : FKind.Formats .f32)
    (hacc : (0x00000000#32 : BitVec 32) = 0x00000000#32) (i : Fin 16) (s : Fin 50) :
    multiReduction (F := Ideal) .add [2] S16x50 x 0x00000000#32 h hφ hacc (ix2 i s) = ∑ d : Fin 64, x (ix3 i s d) := by
  refine (Ideal.multiReduction_add_single x _ h hφ hacc (ix2 i s)).trans ?_
  refine Finset.sum_congr rfl fun d _ => congrArg x ?_
  funext a; apply Fin.ext
  match a with
  | ⟨0, _⟩ => rfl
  | ⟨1, _⟩ => rfl
  | ⟨2, _⟩ => rfl

/-- The sum over the positions (axis 1) of a `[16, 50, 1]` array, at `(i, u)`. -/
theorem sumPos_apply (x : FVec Ideal S16x50x1 .f32) (h : S16x50x1.Reduces [1] S16x1) (hφ : FKind.Formats .f32)
    (hacc : (0x00000000#32 : BitVec 32) = 0x00000000#32) (i : Fin 16) (u : Fin 1) :
    multiReduction (F := Ideal) .add [1] S16x1 x 0x00000000#32 h hφ hacc (ix2 i u) = ∑ s : Fin 50, x (ix3 i s u) := by
  refine (Ideal.multiReduction_add_single x _ h hφ hacc (ix2 i u)).trans ?_
  refine Finset.sum_congr rfl fun s _ => congrArg x ?_
  funext a; apply Fin.ext
  match a with
  | ⟨0, _⟩ => rfl
  | ⟨1, _⟩ => rfl
  | ⟨2, _⟩ => rfl

/-- The two-stage sum of a `[16, 50, 64]` array, lanes first and positions second, kept as a
    `[16, 1, 1]` array: at row `i` it is the total of the row's 50 × 64 slab. -/
theorem sumSlab_apply (x : FVec Ideal S16x50x64 .f32)
    (h₁ : S16x50x64.Reduces [2] S16x50) (hφ₁ : FKind.Formats .f32)
    (hacc₁ : (0x00000000#32 : BitVec 32) = 0x00000000#32) (c₁ : S16x50.ShapeCasts S16x50x1)
    (h₂ : S16x50x1.Reduces [1] S16x1) (hφ₂ : FKind.Formats .f32)
    (hacc₂ : (0x00000000#32 : BitVec 32) = 0x00000000#32) (c₂ : S16x1.ShapeCasts S16x1x1)
    (i : Fin 16) (u u' : Fin 1) :
    shapeCast S16x1x1 (multiReduction (F := Ideal) .add [1] S16x1
        (shapeCast S16x50x1 (multiReduction (F := Ideal) .add [2] S16x50 x 0x00000000#32 h₁ hφ₁ hacc₁) c₁)
        0x00000000#32 h₂ hφ₂ hacc₂) c₂ (ix3 i u u')
      = ∑ s : Fin 50, ∑ d : Fin 64, x (ix3 i s d) := by
  refine (shapeCast_a1_a11_apply _ c₂ i u u').trans ?_
  refine (sumPos_apply _ h₂ hφ₂ hacc₂ i 0).trans ?_
  refine Finset.sum_congr rfl fun s _ => ?_
  refine (shapeCast_ab_ab1_apply _ c₁ i s 0).trans ?_
  exact sumLane_apply x h₁ hφ₁ hacc₁ i s

end Sums

/-! ## The linear layer of one batch row -/

section Row

/-- The row cast to `[50, 768]` and narrowed: at `(s, e)` the row's entry `(0, s, e)`. -/
theorem pay5_apply (x : Vec Ideal S1x50x768 .f32) (s : Fin 50) (e : Fin 768) :
    k0_pay5 (F := Ideal) x (ix2 s e) = x (ix3 (0 : Fin 1) s e) := by
  unfold k0_pay5
  rw [truncf_apply]
  exact shapeCast_1ab_ab_apply x _ s e

/-- The weight matrix cast to its own shape is itself. -/
theorem pay2_apply (w : Vec Ideal S768x768 .bf16) (e f : Fin 768) :
    k0_pay2 (F := Ideal) w (ix2 e f) = w (ix2 e f) := by
  unfold k0_pay2
  rw [shapeCast_self]

end Row

/-! ## One head of a block of 16 batch rows -/

section Head

/-- The values narrowed: entrywise the values. -/
theorem pay84_apply (v : Vec Ideal S16x50x64 .f32) (i : Fin 16) (t : Fin 50) (d : Fin 64) :
    k0_pay84 (F := Ideal) v (ix3 i t d) = v (ix3 i t d) := by
  unfold k0_pay84
  rw [truncf_apply]

/-- The weighted scores: at `(i, s, t)` the score of positions `(s, t)` in row `i` times the table's
    entry `(s, t)`. -/
theorem pay85_apply (dec : Vec Ideal S50x50 .f32) (q k : Vec Ideal S16x50x64 .f32) (i : Fin 16) (s t : Fin 50) :
    k0_pay85 (F := Ideal) dec q k (ix3 i s t)
      = (∑ e : Fin 64, q (ix3 i s e) * k (ix3 i t e)) * dec (ix2 s t) := by
  unfold k0_pay85 k0_pay83
  rw [truncf_apply, mulf_apply, dotQK_apply, broadcastTo_1bc_abc_apply, shapeCast_ab_1ab_apply, shapeCast_self]
  simp only [truncf_apply]

/-- A reciprocal root taken entrywise. -/
theorem rsqrt_apply {s : Shape} {φ : FTy} (a : FVec Ideal s φ) (j : s.Idx) : rsqrt a j = Ideal.rsqrt (a j) := rfl

/-- The weighted scores applied to the values plus the key rows, then each row's slab normalised:
    at `(i, 0, s, d)` the normalisation of row `i`'s slab at `(s, d)`. -/
theorem pay86_apply (vb : FVec Ideal S16x50x64 .bf16) (kf : Vec Ideal S16x50x64 .f32) (r : FVec Ideal S16x50x50 .bf16)
    (i : Fin 16) (s : Fin 50) (d : Fin 64) :
    k0_pay86 (F := Ideal) vb kf r (ix4 i 0 s d)
      = Cert.Ret.normK (fun s' d' => (∑ t : Fin 50, r (ix3 i s' t) * vb (ix3 i t d')) + kf (ix3 i s' d')) s d := by
  have ho : (fun (s' : Fin 50) (d' : Fin 64) => (∑ t : Fin 50, r (ix3 i s' t) * vb (ix3 i t d')) + kf (ix3 i s' d'))
      = fun s' d' => addf (matmul dot_S16x50x50_S16x50x64_S16x50x64_2_1_1_2_0_0 none r vb
          (constant (F := Ideal) S16x50x64 .f32 0x00000000#32)) kf (ix3 i s' d') := by
    funext s' d'
    rw [addf_apply, dotRV_apply]
  rw [ho]
  unfold k0_pay86
  dsimp only
  generalize addf (matmul dot_S16x50x50_S16x50x64_S16x50x64_2_1_1_2_0_0 none r vb
      (constant (F := Ideal) S16x50x64 .f32 0x00000000#32)) kf = oh
  refine (shapeCast_abc_a1bc_apply _ _ i 0 s d).trans ?_
  rw [mulf_apply, subf_apply, broadcastTo_a11_abc_apply, broadcastTo_a11_abc_apply]
  simp only [rsqrt_apply, addf_apply, subf_apply, mulf_apply, divf_apply, broadcast_apply, Ideal.ofBits_def]
  rw [sumSlab_apply oh _ _ _ _ _ _ _ _ i 0 0, sumSlab_apply (mulf oh oh) _ _ _ _ _ _ _ _ i 0 0]
  simp only [mulf_apply]
  rfl

end Head

end KDots

open KDots

/-! ## The two computations at an index -/

/-- One batch row through a linear layer, at position `s` and column `f`: the row's entries along
    `s` against the matrix's column `f`, plus the bias at `f`. -/
theorem rowProj_apply (w : Vec Ideal S768x768 .bf16) (b : Vec Ideal S768 .f32) (x : Vec Ideal S1x50x768 .f32)
    (s : Fin 50) (f : Fin 768) :
    rowProj (F := Ideal) w b x (ix3 0 s f) = (∑ e : Fin 768, x (ix3 0 s e) * w (ix2 e f)) + b (ix1 f) := by
  unfold rowProj k0_pay6
  refine (shapeCast_ab_1ab_apply _ _ 0 s f).trans ?_
  rw [addf_apply, dotP_apply, broadcastTo_1b_ab_apply, shapeCast_a_1a_apply]
  refine congrArg (· + b (ix1 f)) (Finset.sum_congr rfl fun e _ => ?_)
  rw [pay5_apply, pay2_apply]

/-- One head of a block of 16 batch rows, at row `i`, position `s` and lane `d`: the normalisation of
    row `i`'s slab of weighted scores applied to the values plus the key rows. -/
theorem headOut_apply (dec : Vec Ideal S50x50 .f32) (q k v kf : Vec Ideal S16x50x64 .f32)
    (i : Fin 16) (s : Fin 50) (d : Fin 64) :
    headOut (F := Ideal) dec q k v kf (ix4 i 0 s d)
      = Cert.Ret.normK (fun s' d' =>
          (∑ t : Fin 50, ((∑ e : Fin 64, q (ix3 i s' e) * k (ix3 i t e)) * dec (ix2 s' t)) * v (ix3 i t d')) + kf (ix3 i s' d')) s d := by
  unfold headOut
  rw [pay86_apply]
  simp only [pay85_apply, pay84_apply]

end Cert.KernelIdeal.Gen

end
-- ==== Proof.KBlock.lean ====
/-
  The output block of one grid point as a function of the blocks the point reads.  With the three
  scratch buffers read back as the three linear layers of the block's 16 batch rows, head `h` of
  row `r` of the output block is the normalised `mixBlk` slab: scores of the head's query and key
  columns, weighted by the table, applied to the head's value columns, plus the key columns.
-/
import proofs.«173582_j32727650795908_1_alg».proof.Proof.KPieces
import proofs.«173582_j32727650795908_1_alg».proof.Proof.KDots
import proofs.«173582_j32727650795908_1_alg».proof.Proof.Spec
import Idealize.ShloMosaic.Lib.Pipeline.Value

set_option maxRecDepth 16384

noncomputable section

open scoped BigOperators

namespace Cert.KernelIdeal.Gen

open Idealize.ShloMosaic Idealize.ShloMosaic.TcCoe Idealize.ShloMosaic.ValueIdx
open Idealize.SL Idealize.SL.Sem
open Cert.Ret (hd normK)

theorem hz1 : (![0] : Fin 1 → Nat) = fun _ => 0 := funext fun a => by fin_cases a; rfl
theorem hz2 : (![0, 0] : Fin 2 → Nat) = fun _ => 0 := funext fun a => by fin_cases a <;> rfl

/-- Entry `(r, s, f)` of a linear layer applied to a block of 16 batch rows: the matrix is read
    as `w[e, f]`. -/
def projBlk (x0 : Vec Ideal S16x50x768 .f32) (w : Vec Ideal S768x768 .bf16) (b : Vec Ideal S768 .f32)
    (r : Fin 16) (s : Fin 50) (f : Fin 768) : EReal :=
  (∑ e : Fin 768, x0 (ix3 r s e) * w (ix2 e f)) + b (ix1 f)

/-- Head `h` of batch row `r` of the block before normalisation. -/
def mixBlk (x0 : Vec Ideal S16x50x768 .f32) (x1 : Vec Ideal S768x768 .bf16) (x2 : Vec Ideal S768 .f32)
    (x3 : Vec Ideal S768x768 .bf16) (x4 : Vec Ideal S768 .f32) (x5 : Vec Ideal S768x768 .bf16) (x6 : Vec Ideal S768 .f32)
    (x7 : Vec Ideal S50x50 .f32) (r : Fin 16) (h : Fin 12) (s : Fin 50) (d : Fin 64) : EReal :=
  (∑ t : Fin 50, ((∑ e : Fin 64, projBlk x0 x1 x2 r s (hd h e) * projBlk x0 x3 x4 r t (hd h e)) * x7 (ix2 s t))
      * projBlk x0 x5 x6 r t (hd h d))
    + projBlk x0 x3 x4 r s (hd h d)

/-- Row `i` of the block placed in the block: local `(0, s, f)` is `(i, s, f)`. -/
theorem emb_row (i : ℕ) (hi : i < 16) (inb : ∀ a, (![i, 0, 0] : Fin 3 → ℕ) a + S1x50x768.size a ≤ S16x50x768.size a)
    (s : Fin 50) (f : Fin 768) :
    (Rect.unit (s := S16x50x768) ![i, 0, 0] S1x50x768.size inb).emb (ix3 (0 : Fin 1) s f) = ix3 (⟨i, hi⟩ : Fin 16) s f := by
  funext a; apply Fin.ext
  match a with
  | ⟨0, _⟩ => show i + 1 * 0 = i; omega
  | ⟨1, _⟩ => show 0 + 1 * s.val = s.val; omega
  | ⟨2, _⟩ => show 0 + 1 * f.val = f.val; omega

/-- Head `h`'s piece placed in the output block: local `(r, 0, s, d)` is `(r, h, s, d)`. -/
theorem emb_head (h : ℕ) (hh : h < 12) (inb : ∀ a, (![0, h, 0, 0] : Fin 4 → ℕ) a + S16x1x50x64.size a ≤ S16x12x50x64.size a)
    (r : Fin 16) (s : Fin 50) (d : Fin 64) :
    (Rect.unit (s := S16x12x50x64) ![0, h, 0, 0] S16x1x50x64.size inb).emb (ix4 r (0 : Fin 1) s d) = ix4 r (⟨h, hh⟩ : Fin 12) s d := by
  funext a; apply Fin.ext
  match a with
  | ⟨0, _⟩ => show 0 + 1 * r.val = r.val; omega
  | ⟨1, _⟩ => show h + 1 * 0 = h; omega
  | ⟨2, _⟩ => show 0 + 1 * s.val = s.val; omega
  | ⟨3, _⟩ => show 0 + 1 * d.val = d.val; omega

/-- Head `h`'s 64 columns of a scratch buffer: local `(r, s, e)` is column `64·h + e`. -/
theorem idx_cols (h : ℕ) (hh : h < 12) (inbs : ∀ a, (![0, 0, 64 * h] : Fin 3 → ℕ) a + S16x50x64.size a ≤ S16x50x768.size a)
    (r : Fin 16) (s : Fin 50) (e : Fin 64) :
    (Rect.unit (s := S16x50x768) ![0, 0, 64 * h] S16x50x64.size inbs).toLoadRect.idx (ix3 r s e) = ix3 r s (hd ⟨h, hh⟩ e) := by
  funext a; apply Fin.ext
  match a with
  | ⟨0, _⟩ => show 0 + 1 * r.val = r.val; omega
  | ⟨1, _⟩ => show 0 + 1 * s.val = s.val; omega
  | ⟨2, _⟩ => show 64 * h + 1 * e.val = 64 * h + e.val; omega

/-- A whole-buffer load of a whole buffer reads its contents. -/
theorem readAt_whole2 (a : Memref sig .tc .vmem S768x768 .bf16) (ha : a.IsWhole) (x : Vec Ideal S768x768 .bf16) :
    View.readAt (Elt Ideal) a.view (Rect.unit ![0, 0] S768x768.size inb_S768x768_S768x768_0_0).toLoadRect (ha.unread x) = x := by
  rw [View.readAt_eq_ld, ha.read_unread, View.ld_unit_zero (S := S768x768) hz2]

theorem readAt_whole1 (a : Memref sig .tc .vmem S768 .f32) (ha : a.IsWhole) (x : Vec Ideal S768 .f32) :
    View.readAt (Elt Ideal) a.view (Rect.unit ![0] S768.size inb_S768_S768_0).toLoadRect (ha.unread x) = x := by
  rw [View.readAt_eq_ld, ha.read_unread, View.ld_unit_zero (S := S768) hz1]

theorem readAt_wholeD (a : Memref sig .tc .vmem S50x50 .f32) (ha : a.IsWhole) (x : Vec Ideal S50x50 .f32) :
    View.readAt (Elt Ideal) a.view (Rect.unit ![0, 0] S50x50.size inb_S50x50_S50x50_0_0).toLoadRect (ha.unread x) = x := by
  rw [View.readAt_eq_ld, ha.read_unread, View.ld_unit_zero (S := S50x50) hz2]

/-- One stored row piece is the linear layer's row of the block, at every local index. -/
theorem rowProj_piece (arg1 : Memref sig .tc .vmem S16x50x768 .f32) (harg1 : arg1.IsWhole)
    (aw : Memref sig .tc .vmem S768x768 .bf16) (haw : aw.IsWhole) (ab : Memref sig .tc .vmem S768 .f32) (hab : ab.IsWhole)
    (x0 : Vec Ideal S16x50x768 .f32) (w : Vec Ideal S768x768 .bf16) (b : Vec Ideal S768 .f32)
    (i : ℕ) (inb : ∀ a, (![i, 0, 0] : Fin 3 → ℕ) a + S1x50x768.size a ≤ S16x50x768.size a)
    (x : (Rect.unit (s := S16x50x768) ![i, 0, 0] S1x50x768.size inb).shape.Idx) :
    rowProj (View.readAt (Elt Ideal) aw.view (Rect.unit ![0, 0] S768x768.size inb_S768x768_S768x768_0_0).toLoadRect (haw.unread w))
        (View.readAt (Elt Ideal) ab.view (Rect.unit ![0] S768.size inb_S768_S768_0).toLoadRect (hab.unread b))
        (View.readAt (Elt Ideal) arg1.view (Rect.unit (s := S16x50x768) ![i, 0, 0] S1x50x768.size inb).toLoadRect (harg1.unread x0)) x
      = (fun y : S16x50x768.Idx => projBlk x0 w b (y 0) (y 1) (y 2))
          ((Rect.unit (s := S16x50x768) ![i, 0, 0] S1x50x768.size inb).emb x) := by
  have hi : i < 16 := by have := inb 0; simp at this; omega
  have hx0 : (x 0).val < 1 := (x 0).isLt
  obtain ⟨s, f, rfl⟩ : ∃ (s : Fin 50) (f : Fin 768), x = ix3 (0 : Fin 1) s f :=
    ⟨x 1, x 2, funext fun a => Fin.ext (by
      match a with
      | ⟨0, _⟩ => show (x 0).val = 0; omega
      | ⟨1, _⟩ => rfl
      | ⟨2, _⟩ => rfl)⟩
  rw [readAt_whole2, readAt_whole1, emb_row i hi inb s f]
  refine (rowProj_apply w b _ s f).trans ?_
  show _ = projBlk x0 w b ⟨i, hi⟩ s f
  unfold projBlk
  refine congrArg (· + b (ix1 f)) (Finset.sum_congr rfl fun e _ => ?_)
  rw [View.readAt_eq_ld, harg1.read_unread]
  show x0 ((Rect.unit (s := S16x50x768) ![i, 0, 0] S1x50x768.size inb).emb (ix3 (0 : Fin 1) s e)) * _ = _
  rw [emb_row i hi inb s e]

/-- Scratch buffer 0 read back after its 16 row stores is the linear layer of the block. -/
theorem canon_hs0 (c : Dev nD) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole)
    (x0 : Vec Ideal S16x50x768 .f32) (x1 : Vec Ideal S768x768 .bf16) (x2 : Vec Ideal S768 .f32) (r : Fin 16) (s : Fin 50) (f : Fin 768) :
    View.canon (kernelRun0_A.sl.HS0_16 c arg1 harg1 arg2 harg2 arg3 harg3 x0 x1 x2) (ix3 r s f) = projBlk x0 x1 x2 r s f := by
  refine (View.canon_apply_of_pieces (fun y : S16x50x768.Idx => projBlk x0 x1 x2 (y 0) (y 1) (y 2)) _ ?_ (ix3 r s f)
    (hs0_cover c arg1 harg1 arg2 harg2 arg3 harg3 x0 x1 x2 (ix3 r s f))).trans rfl
  intro p hp x
  obtain ⟨i, inb, rfl⟩ := hs0_pieces c arg1 harg1 arg2 harg2 arg3 harg3 x0 x1 x2 p hp
  exact rowProj_piece arg1 harg1 arg2 harg2 arg3 harg3 x0 x1 x2 i inb x

/-- Scratch buffer 1 read back after its 16 row stores is the linear layer of the block. -/
theorem canon_hs1 (c : Dev nD) (arg1 : Memref sig .tc .vmem S16x50x768 .f32) (harg1 : arg1.IsWhole) (arg4 : Memref sig .tc .vmem S768x768 .bf16) (harg4 : arg4.IsWhole) (arg5 : Memref sig .tc .vmem S768 .f32) (harg5 : arg5.IsWhole)
    (x0 : Vec Ideal S16x50x768 .f32) (x3 : Vec Ideal S768x768 .bf16) (x4 : Vec Ideal S768 .f32) (r : Fin 16) (s : Fin 50) (f : Fin 768) :
    View.canon (kernelRun0_A.sl.HS1_16 c arg1 harg1 arg4 harg4 arg5 harg5 x0 x3 x4) (ix3 r s f) = projBlk x0 x3 x4 r s f := by
  refine (View.canon_apply_of_pieces (fun y : S16x50x768.Idx => projBlk x0 x3 x4 (y 0) (y 1) (y 2)) _ ?_ (ix3 r s f)
    (hs1_cover c arg1 harg1 arg4 harg4 arg5 harg5 x0 x3 x4 (ix3 r s f))).trans rfl
  intro p hp x
  obtain ⟨i, inb, rfl⟩ := hs1_pieces c arg1 harg1 arg4 harg4 arg5 harg5 x0 x3 x4 p hp
  exact rowProj_piece arg1 harg1 arg4 harg4 arg5 harg5 x0 x3 x4 i inb x

/-- Scratch buffer 2 read back after its 16 row stores is the linear layer of the block. -/
theorem canon_hs2 (c : Dev nD) (arg1 : Memref sig .tc .vmem S16x50x768 .f32) (harg1 : arg1.IsWhole) (arg6 : Memref sig .tc .vmem S768x768 .bf16) (harg6 : arg6.IsWhole) (arg7 : Memref sig .tc .vmem S768 .f32) (harg7 : arg7.IsWhole)
    (x0 : Vec Ideal S16x50x768 .f32) (x5 : Vec Ideal S768x768 .bf16) (x6 : Vec Ideal S768 .f32) (r : Fin 16) (s : Fin 50) (f : Fin 768) :
    View.canon (kernelRun0_A.sl.HS2_16 c arg1 harg1 arg6 harg6 arg7 harg7 x0 x5 x6) (ix3 r s f) = projBlk x0 x5 x6 r s f := by
  refine (View.canon_apply_of_pieces (fun y : S16x50x768.Idx => projBlk x0 x5 x6 (y 0) (y 1) (y 2)) _ ?_ (ix3 r s f)
    (hs2_cover c arg1 harg1 arg6 harg6 arg7 harg7 x0 x5 x6 (ix3 r s f))).trans rfl
  intro p hp x
  obtain ⟨i, inb, rfl⟩ := hs2_pieces c arg1 harg1 arg6 harg6 arg7 harg7 x0 x5 x6 p hp
  exact rowProj_piece arg1 harg1 arg6 harg6 arg7 harg7 x0 x5 x6 i inb x

/-- One stored head piece is the normalised head slab of the block, at every local index. -/
theorem head_piece (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole) (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32)
    (h : ℕ) (inb : ∀ a, (![0, h, 0, 0] : Fin 4 → ℕ) a + S16x1x50x64.size a ≤ S16x12x50x64.size a)
    (inbs : ∀ a, (![0, 0, 64 * h] : Fin 3 → ℕ) a + S16x50x64.size a ≤ S16x50x768.size a)
    (x : (Rect.unit (s := S16x12x50x64) ![0, h, 0, 0] S16x1x50x64.size inb).shape.Idx) :
    headOut (View.readAt (Elt Ideal) arg8.view (Rect.unit ![0, 0] S50x50.size inb_S50x50_S50x50_0_0).toLoadRect (harg8.unread x7))
        (arg10.view.readCov (kernelRun0_A.sl.HS0_16 c arg1 harg1 arg2 harg2 arg3 harg3 x0 x1 x2) (Rect.unit (s := S16x50x768) ![0, 0, 64 * h] S16x50x64.size inbs).toLoadRect)
        (arg11.view.readCov (kernelRun0_A.sl.HS1_16 c arg1 harg1 arg4 harg4 arg5 harg5 x0 x3 x4) (Rect.unit (s := S16x50x768) ![0, 0, 64 * h] S16x50x64.size inbs).toLoadRect)
        (arg12.view.readCov (kernelRun0_A.sl.HS2_16 c arg1 harg1 arg6 harg6 arg7 harg7 x0 x5 x6) (Rect.unit (s := S16x50x768) ![0, 0, 64 * h] S16x50x64.size inbs).toLoadRect)
        (arg11.view.readCov (kernelRun0_A.sl.HS1_16 c arg1 harg1 arg4 harg4 arg5 harg5 x0 x3 x4) (Rect.unit (s := S16x50x768) ![0, 0, 64 * h] S16x50x64.size inbs).toLoadRect) x
      = (fun y : S16x12x50x64.Idx => normK (fun s' d' => mixBlk x0 x1 x2 x3 x4 x5 x6 x7 (y 0) (y 1) s' d') (y 2) (y 3))
          ((Rect.unit (s := S16x12x50x64) ![0, h, 0, 0] S16x1x50x64.size inb).emb x) := by
  have hh : h < 12 := by have := inb 1; simp at this; omega
  have hx1 : (x 1).val < 1 := (x 1).isLt
  obtain ⟨r, s, d, rfl⟩ : ∃ (r : Fin 16) (s : Fin 50) (d : Fin 64), x = ix4 r (0 : Fin 1) s d :=
    ⟨x 0, x 2, x 3, funext fun a => Fin.ext (by
      match a with
      | ⟨0, _⟩ => rfl
      | ⟨1, _⟩ => show (x 1).val = 0; omega
      | ⟨2, _⟩ => rfl
      | ⟨3, _⟩ => rfl)⟩
  rw [readAt_wholeD, emb_head h hh inb r s d]
  refine (headOut_apply x7 _ _ _ _ r s d).trans ?_
  show _ = normK (fun s' d' => mixBlk x0 x1 x2 x3 x4 x5 x6 x7 r ⟨h, hh⟩ s' d') s d
  refine congrArg (fun o => normK o s d) (funext fun s' => funext fun d' => ?_)
  unfold mixBlk
  simp only [View.readCov_eq_canon', idx_cols h hh inbs, canon_hs0, canon_hs1, canon_hs2]

/-- The output block after the body, entry by entry. -/
theorem out0_apply (c : Dev nD) (i : grid0.Coords) (arg1 : Memref sig .tc .vmem S16x50x768 .f32) (harg1 : arg1.IsWhole) (arg2 : Memref sig .tc .vmem S768x768 .bf16) (harg2 : arg2.IsWhole) (arg3 : Memref sig .tc .vmem S768 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S768x768 .bf16) (harg6 : arg6.IsWhole) (arg7 : Memref sig .tc .vmem S768 .f32) (harg7 : arg7.IsWhole) (arg8 : Memref sig .tc .vmem S50x50 .f32) (harg8 : arg8.IsWhole) (arg9 : Memref sig .tc .vmem S16x12x50x64 .f32) (harg9 : arg9.IsWhole) (arg10 : Memref sig .tc .vmem S16x50x768 .f32) (harg10 : arg10.IsWhole) (arg11 : Memref sig .tc .vmem S16x50x768 .f32) (harg11 : arg11.IsWhole) (arg12 : Memref sig .tc .vmem S16x50x768 .f32) (harg12 : arg12.IsWhole) (x0 : Vec Ideal S16x50x768 .f32) (x1 : Vec Ideal S768x768 .bf16) (x2 : Vec Ideal S768 .f32) (x3 : Vec Ideal S768x768 .bf16) (x4 : Vec Ideal S768 .f32) (x5 : Vec Ideal S768x768 .bf16) (x6 : Vec Ideal S768 .f32) (x7 : Vec Ideal S50x50 .f32) (y : S16x12x50x64.Idx) :
    out0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 y
      = normK (fun s' d' => mixBlk x0 x1 x2 x3 x4 x5 x6 x7 (y 0) (y 1) s' d') (y 2) (y 3) := by
  unfold out0_A_8
  rw [View.read_writes_junk_eq_canon]
  refine View.canon_apply_of_pieces (fun y : S16x12x50x64.Idx => normK (fun s' d' => mixBlk x0 x1 x2 x3 x4 x5 x6 x7 (y 0) (y 1) s' d') (y 2) (y 3)) _ ?_ y
    (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 x7 y)
  intro p hp x
  obtain ⟨h, inb, inbs, rfl⟩ := out_pieces c i arg1 harg1 arg2 harg2 arg3 harg3 arg4 harg4 arg5 harg5 arg6 harg6 arg7 harg7 arg8 harg8 arg9 harg9 arg10 harg10 arg11 harg11 arg12 harg12 x0 x1 x2 x3 x4 x5 x6 x7 p hp
  exact head_piece c i arg1 harg1 arg2 harg2 arg3 harg3 arg4 harg4 arg5 harg5 arg6 harg6 arg7 harg7 arg8 harg8 arg9 harg9 arg10 harg10 arg11 harg11 arg12 harg12 x0 x1 x2 x3 x4 x5 x6 x7 h inb inbs x

end Cert.KernelIdeal.Gen

end
-- ==== Proof.Decay.lean ====
/-
  The 50 × 50 weight table: entry (s, t) is 1 / (1 + |s − t|), computed from an index row by
  integer subtraction and absolute value, conversion to a float, and a float quotient.
-/
import proofs.«173582_j32727650795908_1_alg».proof.KernelIdeal

noncomputable section

namespace Cert.KernelIdeal

open Idealize.ShloMosaic

variable {F : FTy → Type} [FloatOps F] [Facts]
open Facts₀ Facts

/-- The weight table as the host operations spell it. -/
def decT : FVec F S50x50 .f32 :=
  Host.divf (broadcastInDim S50x50 ![] bcast_S_S50x50 (constant S_ .f32 0x3F800000#32))
    (addf (broadcastInDim S50x50 ![] bcast_S_S50x50 (constant S_ .f32 0x3F800000#32))
      (sitofp .f32 (absi (subi
        (broadcastInDim S50x50 ![0, 1] bcast_S50x1_S50x50_0_1 (broadcastInDim S50x1 ![0] bcast_S50_S50x1_0 (iotaInDim S50 32 0)))
        (broadcastInDim S50x50 ![0, 1] bcast_S1x50_S50x50_0_1 (broadcastInDim S1x50 ![1] bcast_S50_S1x50_1 (iotaInDim S50 32 0)))))))

end Cert.KernelIdeal

end
-- ==== Proof.KHost.lean ====
/-
  The host operations around the one region, read at the extended reals.

  Before the region each weight matrix is transposed and converted to the narrow format, which on
  the extended reals is the identity: the array the region finds holds entry (f, e) of the
  launched matrix at (e, f).  The 50 × 50 table the region finds is the weight table
  1 / (1 + |s − t|).  After the region the output array is reshaped, and nothing else.
-/
import proofs.«173582_j32727650795908_1_alg».proof.Proof.Gen.KernelIdeal.Frame
import proofs.«173582_j32727650795908_1_alg».proof.Proof.Decay
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Gen

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable (m : (ℓ : Loc nD τ sig) → Buf (Elt Ideal) ℓ)

/-- The first matrix as the region finds it: the launched one transposed, the conversion being the identity. -/
theorem V_wq (c : Dev nD) : (V m c main_v13 : FVec Ideal S768x768 .bf16)
    = truncf (F := Ideal) .bf16 (transpose S768x768 [1, 0] (m ((c : Thread nD τ).loc main_arg1) : FVec Ideal S768x768 .f32)
        transposes_S768x768_S768x768_1_0) bitsLt_bf16_f32 := by
  show StableHlo.after hostOps0 (fun b => m (c, b)) (Proc.devRef .tc main_v13) = _
  after_results

/-- Its entry (e, f) is the launched matrix's entry (f, e). -/
theorem V_wq_apply (c : Dev nD) (e f : Fin 768) : V m c main_v13 (ix2 e f) = m ((c : Thread nD τ).loc main_arg1) (ix2 f e) := by
  refine (congrFun (V_wq m c) (ix2 e f)).trans ?_
  exact transpose_ix2_apply (m ((c : Thread nD τ).loc main_arg1) : FVec Ideal S768x768 .f32) transposes_S768x768_S768x768_1_0 e f

/-- The second matrix as the region finds it: the launched one transposed, the conversion being the identity. -/
theorem V_wk (c : Dev nD) : (V m c main_v15 : FVec Ideal S768x768 .bf16)
    = truncf (F := Ideal) .bf16 (transpose S768x768 [1, 0] (m ((c : Thread nD τ).loc main_arg3) : FVec Ideal S768x768 .f32)
        transposes_S768x768_S768x768_1_0) bitsLt_bf16_f32 := by
  show StableHlo.after hostOps0 (fun b => m (c, b)) (Proc.devRef .tc main_v15) = _
  after_results

/-- Its entry (e, f) is the launched matrix's entry (f, e). -/
theorem V_wk_apply (c : Dev nD) (e f : Fin 768) : V m c main_v15 (ix2 e f) = m ((c : Thread nD τ).loc main_arg3) (ix2 f e) := by
  refine (congrFun (V_wk m c) (ix2 e f)).trans ?_
  exact transpose_ix2_apply (m ((c : Thread nD τ).loc main_arg3) : FVec Ideal S768x768 .f32) transposes_S768x768_S768x768_1_0 e f

/-- The third matrix as the region finds it: the launched one transposed, the conversion being the identity. -/
theorem V_wv (c : Dev nD) : (V m c main_v17 : FVec Ideal S768x768 .bf16)
    = truncf (F := Ideal) .bf16 (transpose S768x768 [1, 0] (m ((c : Thread nD τ).loc main_arg5) : FVec Ideal S768x768 .f32)
        transposes_S768x768_S768x768_1_0) bitsLt_bf16_f32 := by
  show StableHlo.after hostOps0 (fun b => m (c, b)) (Proc.devRef .tc main_v17) = _
  after_results

/-- Its entry (e, f) is the launched matrix's entry (f, e). -/
theorem V_wv_apply (c : Dev nD) (e f : Fin 768) : V m c main_v17 (ix2 e f) = m ((c : Thread nD τ).loc main_arg5) (ix2 f e) := by
  refine (congrFun (V_wv m c) (ix2 e f)).trans ?_
  exact transpose_ix2_apply (m ((c : Thread nD τ).loc main_arg5) : FVec Ideal S768x768 .f32) transposes_S768x768_S768x768_1_0 e f

/-- The 50 × 50 table the region finds is the weight table. -/
theorem V_dec (c : Dev nD) : V m c main_v11 = decT (F := Ideal) := by
  show StableHlo.after hostOps0 (fun b => m (c, b)) (Proc.devRef .tc main_v11) = _
  after_results
  rfl

/-- The program's result is the output array, as the region leaves it, reshaped. -/
theorem tail_result (c : Dev nD) :
    Pipeline.afterTail₀ cfgs (dats m) 0 (V0 m) [hostOps1] c main_v19
      = shapeCast S1024x50x768 ((dats m 0 c).arrAt 8 cfg0.N) shapeCasts_S1024x12x50x64_S1024x50x768 := by
  unfold Pipeline.afterTail₀
  show StableHlo.after hostOps1 _ (Proc.devRef .tc main_v19) = _
  after_results
  have e := Pipeline.withArrays_arr spec0 launch0.win.arr_inj c (V0 m c) (fun w => (dats m 0 c).arrAt w cfg0.N) 8
  funext i
  exact congrArg (fun x : FVec Ideal S1024x12x50x64 .f32 =>
    shapeCast S1024x50x768 x shapeCasts_S1024x12x50x64_S1024x50x768 i) e

end Cert.KernelIdeal.Gen

end
-- ==== Proof.KValue.lean ====
/-
  The kernel program's run, read as values.  Grid point `t` works on batch rows `16·t … 16·t + 15`:
  its input block is those rows of the first argument, the three weight windows hold the
  transposed weight matrices whole, the bias windows the bias rows, the last window the weight
  table; so the block it writes back is rows `16·t … 16·t + 15` of the layer's output `outK`.
  The 64 blocks tile the output array, and the program's last operation re-lays it.
-/
import proofs.«173582_j32727650795908_1_alg».proof.Proof.KBlock
import proofs.«173582_j32727650795908_1_alg».proof.Proof.KHost
import proofs.«173582_j32727650795908_1_alg».proof.Proof.Spec

set_option maxRecDepth 16384

noncomputable section

open scoped BigOperators

namespace Cert.KernelIdeal.Gen

open Idealize.ShloMosaic Idealize.ShloMosaic.TcCoe Idealize.ShloMosaic.ValueIdx
open Idealize.SL Idealize.SL.Sem
open Idealize.ShloMosaic.Pipeline (Dat Cfg Window)
open Cert.Ret (hd normK)

variable (m : (ℓ : Loc nD τ sig) → Buf (Elt Ideal) ℓ) (ρ : Dev nD → PrngReg)

/-- The seven argument arrays as the layer's inputs. -/
def inputsOf (c : Dev nD) : Cert.Ret.Inputs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6)⟩

/-- What the output array ends holding. -/
def GK (c : Dev nD) : S1024x12x50x64.Idx → EReal := Cert.Ret.outK (decT (F := Ideal)) (inputsOf m c)

/-- The printed index maps, decided over the 64 grid points: the first argument's window and the
    output's move one block of 16 rows per point, every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 4) = t.val ∧ win0_8.index t (1 : Fin 4) = 0 ∧ win0_8.index t (2 : Fin 4) = 0
    ∧ win0_8.index t (3 : Fin 4) = 0 :=
  (by decide +kernel : ∀ t : Fin grid0.N, _)

/-- Batch row `r` of point `t`'s block is row `16·t + r` of the array. -/
def rowOf (t : Fin cfg0.N) (r : Fin 16) : Fin 1024 :=
  ⟨16 * t.val + r.val, by have := t.isLt; have hN : cfg0.N = 64 := N_0; omega⟩

/-- The input blocks of point `t`, each at its literal type. -/
abbrev xb0 (c : Dev nD) (t : Fin cfg0.N) : Vec Ideal S16x50x768 .f32 := iblk m c 0 t
abbrev xb1 (c : Dev nD) (t : Fin cfg0.N) : Vec Ideal S768x768 .bf16 := iblk m c 1 t
abbrev xb2 (c : Dev nD) (t : Fin cfg0.N) : Vec Ideal S768 .f32 := iblk m c 2 t
abbrev xb3 (c : Dev nD) (t : Fin cfg0.N) : Vec Ideal S768x768 .bf16 := iblk m c 3 t
abbrev xb4 (c : Dev nD) (t : Fin cfg0.N) : Vec Ideal S768 .f32 := iblk m c 4 t
abbrev xb5 (c : Dev nD) (t : Fin cfg0.N) : Vec Ideal S768x768 .bf16 := iblk m c 5 t
abbrev xb6 (c : Dev nD) (t : Fin cfg0.N) : Vec Ideal S768 .f32 := iblk m c 6 t
abbrev xb7 (c : Dev nD) (t : Fin cfg0.N) : Vec Ideal S50x50 .f32 := iblk m c 7 t

theorem xb0_apply (c : Dev nD) (t : Fin cfg0.N) (r : Fin 16) (s : Fin 50) (e : Fin 768) :
    xb0 m c t (ix3 r s e) = m ((c : Thread nD τ).loc main_arg0) (ix3 (rowOf t r) s e) := by
  show V m c main_arg0 (((cfg0.win 0).blk t).view.emb (ix3 r s e)) = _
  rw [V_main_arg0]
  refine congrArg _ (funext fun a => Fin.ext ?_)
  obtain ⟨e0, e1, e2, -⟩ := idx_facts t
  match a with
  | ⟨0, _⟩ => show win0_0.index t (0 : Fin 3) * 16 + 1 * r.val = 16 * t.val + r.val; omega
  | ⟨1, _⟩ => show win0_0.index t (1 : Fin 3) * 50 + 1 * s.val = s.val; omega
  | ⟨2, _⟩ => show win0_0.index t (2 : Fin 3) * 768 + 1 * e.val = e.val; omega

theorem xb1_apply (c : Dev nD) (t : Fin cfg0.N) (e f : Fin 768) :
    xb1 m c t (ix2 e f) = m ((c : Thread nD τ).loc main_arg1) (ix2 f e) := by
  show V m c main_v13 (((cfg0.win 1).blk t).view.emb (ix2 e f)) = _
  rw [← V_wq_apply m c e f]
  refine congrArg _ (funext fun a => Fin.ext ?_)
  obtain ⟨-, -, -, e0, e1, -⟩ := idx_facts t
  match a with
  | ⟨0, _⟩ => show win0_1.index t (0 : Fin 2) * 768 + 1 * e.val = e.val; omega
  | ⟨1, _⟩ => show win0_1.index t (1 : Fin 2) * 768 + 1 * f.val = f.val; omega

theorem xb2_apply (c : Dev nD) (t : Fin cfg0.N) (f : Fin 768) :
    xb2 m c t (ix1 f) = m ((c : Thread nD τ).loc main_arg2) (ix1 f) := by
  show V m c main_arg2 (((cfg0.win 2).blk t).view.emb (ix1 f)) = _
  rw [V_main_arg2]
  refine congrArg _ (funext fun a => Fin.ext ?_)
  obtain ⟨-, -, -, -, -, e0, -⟩ := idx_facts t
  match a with
  | ⟨0, _⟩ => show win0_2.index t (0 : Fin 1) * 768 + 1 * f.val = f.val; omega

theorem xb3_apply (c : Dev nD) (t : Fin cfg0.N) (e f : Fin 768) :
    xb3 m c t (ix2 e f) = m ((c : Thread nD τ).loc main_arg3) (ix2 f e) := by
  show V m c main_v15 (((cfg0.win 3).blk t).view.emb (ix2 e f)) = _
  rw [← V_wk_apply m c e f]
  refine congrArg _ (funext fun a => Fin.ext ?_)
  obtain ⟨-, -, -, -, -, -, e0, e1, -⟩ := idx_facts t
  match a with
  | ⟨0, _⟩ => show win0_3.index t (0 : Fin 2) * 768 + 1 * e.val = e.val; omega
  | ⟨1, _⟩ => show win0_3.index t (1 : Fin 2) * 768 + 1 * f.val = f.val; omega

theorem xb4_apply (c : Dev nD) (t : Fin cfg0.N) (f : Fin 768) :
    xb4 m c t (ix1 f) = m ((c : Thread nD τ).loc main_arg4) (ix1 f) := by
  show V m c main_arg4 (((cfg0.win 4).blk t).view.emb (ix1 f)) = _
  rw [V_main_arg4]
  refine congrArg _ (funext fun a => Fin.ext ?_)
  obtain ⟨-, -, -, -, -, -, -, -, e0, -⟩ := idx_facts t
  match a with
  | ⟨0, _⟩ => show win0_4.index t (0 : Fin 1) * 768 + 1 * f.val = f.val; omega

theorem xb5_apply (c : Dev nD) (t : Fin cfg0.N) (e f : Fin 768) :
    xb5 m c t (ix2 e f) = m ((c : Thread nD τ).loc main_arg5) (ix2 f e) := by
  show V m c main_v17 (((cfg0.win 5).blk t).view.emb (ix2 e f)) = _
  rw [← V_wv_apply m c e f]
  refine congrArg _ (funext fun a => Fin.ext ?_)
  obtain ⟨-, -, -, -, -, -, -, -, -, e0, e1, -⟩ := idx_facts t
  match a with
  | ⟨0, _⟩ => show win0_5.index t (0 : Fin 2) * 768 + 1 * e.val = e.val; omega
  | ⟨1, _⟩ => show win0_5.index t (1 : Fin 2) * 768 + 1 * f.val = f.val; omega

theorem xb6_apply (c : Dev nD) (t : Fin cfg0.N) (f : Fin 768) :
    xb6 m c t (ix1 f) = m ((c : Thread nD τ).loc main_arg6) (ix1 f) := by
  show V m c main_arg6 (((cfg0.win 6).blk t).view.emb (ix1 f)) = _
  rw [V_main_arg6]
  refine congrArg _ (funext fun a => Fin.ext ?_)
  obtain ⟨-, -, -, -, -, -, -, -, -, -, -, e0, -⟩ := idx_facts t
  match a with
  | ⟨0, _⟩ => show win0_6.index t (0 : Fin 1) * 768 + 1 * f.val = f.val; omega

theorem xb7_apply (c : Dev nD) (t : Fin cfg0.N) (s u : Fin 50) :
    xb7 m c t (ix2 s u) = decT (F := Ideal) (ix2 s u) := by
  show V m c main_v11 (((cfg0.win 7).blk t).view.emb (ix2 s u)) = _
  rw [V_dec]
  refine congrArg _ (funext fun a => Fin.ext ?_)
  obtain ⟨-, -, -, -, -, -, -, -, -, -, -, -, e0, e1, -⟩ := idx_facts t
  match a with
  | ⟨0, _⟩ => show win0_7.index t (0 : Fin 2) * 50 + 1 * s.val = s.val; omega
  | ⟨1, _⟩ => show win0_7.index t (1 : Fin 2) * 50 + 1 * u.val = u.val; omega

/-- The three linear layers of point `t`'s block are rows `16·t + r` of the layers of the array. -/
theorem projBlk_q (c : Dev nD) (t : Fin cfg0.N) (r : Fin 16) (s : Fin 50) (f : Fin 768) :
    projBlk (xb0 m c t) (xb1 m c t) (xb2 m c t) r s f = Cert.Ret.qAt (inputsOf m c) (rowOf t r) s f := by
  unfold projBlk Cert.Ret.qAt Cert.Ret.proj inputsOf
  rw [xb2_apply]
  exact congrArg (· + _) (Finset.sum_congr rfl fun e _ => by rw [xb0_apply, xb1_apply])

theorem projBlk_k (c : Dev nD) (t : Fin cfg0.N) (r : Fin 16) (s : Fin 50) (f : Fin 768) :
    projBlk (xb0 m c t) (xb3 m c t) (xb4 m c t) r s f = Cert.Ret.kAt (inputsOf m c) (rowOf t r) s f := by
  unfold projBlk Cert.Ret.kAt Cert.Ret.proj inputsOf
  rw [xb4_apply]
  exact congrArg (· + _) (Finset.sum_congr rfl fun e _ => by rw [xb0_apply, xb3_apply])

theorem projBlk_v (c : Dev nD) (t : Fin cfg0.N) (r : Fin 16) (s : Fin 50) (f : Fin 768) :
    projBlk (xb0 m c t) (xb5 m c t) (xb6 m c t) r s f = Cert.Ret.vAt (inputsOf m c) (rowOf t r) s f := by
  unfold projBlk Cert.Ret.vAt Cert.Ret.proj inputsOf
  rw [xb6_apply]
  exact congrArg (· + _) (Finset.sum_congr rfl fun e _ => by rw [xb0_apply, xb5_apply])

/-- Head `h` of row `r` of the block is head `h` of row `16·t + r` of the array. -/
theorem mixBlk_eq (c : Dev nD) (t : Fin cfg0.N) (r : Fin 16) (h : Fin 12) (s : Fin 50) (d : Fin 64) :
    mixBlk (xb0 m c t) (xb1 m c t) (xb2 m c t) (xb3 m c t) (xb4 m c t) (xb5 m c t) (xb6 m c t) (xb7 m c t) r h s d
      = Cert.Ret.mix (decT (F := Ideal)) (inputsOf m c) (rowOf t r) h s d := by
  unfold mixBlk Cert.Ret.mix Cert.Ret.score
  rw [projBlk_k]
  refine congrArg (· + _) (Finset.sum_congr rfl fun u _ => ?_)
  rw [projBlk_v, xb7_apply]
  refine congrArg (fun z => z * _ * _) (Finset.sum_congr rfl fun e _ => ?_)
  rw [projBlk_q, projBlk_k]

/-- WHAT POINT `t` WRITES BACK is block `t` of the layer's output. -/
theorem flushed_eq (c : Dev nD) (t : Fin cfg0.N) :
    (dats m 0 c).flushed 8 t = ((cfg0.win 8).blk t).view.read (Elt Ideal) (GK m c) := by
  show (cfg0.win 8).cut (grid0.coords t) ((dats m 0 c).after 8 t) = _
  rw [after0_8]
  funext j
  show outsAt0 m c t j = GK m c (((cfg0.win 8).blk t).view.emb j)
  unfold outsAt0
  refine (out0_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _)
    (xb0 m c t) (xb1 m c t) (xb2 m c t) (xb3 m c t) (xb4 m c t) (xb5 m c t) (xb6 m c t) (xb7 m c t) j).trans ?_
  obtain ⟨r, h, s, d, rfl⟩ : ∃ (r : Fin 16) (h : Fin 12) (s : Fin 50) (d : Fin 64), j = ix4 r h s d :=
    ⟨j 0, j 1, j 2, j 3, eq_ix4 j⟩
  have hemb : ((cfg0.win 8).blk t).view.emb (ix4 r h s d) = ix4 (rowOf t r) h s d := by
    funext a; apply Fin.ext
    obtain ⟨-, -, -, -, -, -, -, -, -, -, -, -, -, -, e0, e1, e2, e3⟩ := idx_facts t
    match a with
    | ⟨0, _⟩ => show win0_8.index t (0 : Fin 4) * 16 + 1 * r.val = 16 * t.val + r.val; omega
    | ⟨1, _⟩ => show win0_8.index t (1 : Fin 4) * 12 + 1 * h.val = h.val; omega
    | ⟨2, _⟩ => show win0_8.index t (2 : Fin 4) * 50 + 1 * s.val = s.val; omega
    | ⟨3, _⟩ => show win0_8.index t (3 : Fin 4) * 64 + 1 * d.val = d.val; omega
  rw [hemb]
  show normK (fun s' d' => mixBlk (xb0 m c t) (xb1 m c t) (xb2 m c t) (xb3 m c t) (xb4 m c t) (xb5 m c t) (xb6 m c t) (xb7 m c t) r h s' d') s d
    = normK (fun s' d' => Cert.Ret.mix (decT (F := Ideal)) (inputsOf m c) (rowOf t r) h s' d') s d
  exact congrArg (fun o => normK o s d) (funext fun s' => funext fun d' => mixBlk_eq m c t r h s' d')

/-- An index of the output array is in point `t`'s block iff each coordinate is in the block's range. -/
theorem mem_blk8 (t : Fin cfg0.N) (i : S1024x12x50x64.Idx) :
    i ∈ ((cfg0.win 8).blk t).view.set ↔ ∀ a : Fin 4, win0_8.index t a * S16x12x50x64.size a ≤ (i a).val ∧ (i a).val < win0_8.index t a * S16x12x50x64.size a + S16x12x50x64.size a := by
  show i ∈ ((View.whole main_v18).slice (win0_8.rect t)).set ↔ _
  rw [View.set_slice_whole, Rect.mem_set_unit]
  exact Iff.rfl

/-- Every index of the output array is in the block of point `i₀ / 16`. -/
theorem cover8 (i : S1024x12x50x64.Idx) :
    ∃ t : Fin cfg0.N, (cfg0.win 8).flush t = true ∧ i ∈ ((cfg0.win 8).blk t).view.set := by
  have hN : cfg0.N = 64 := N_0
  have hi0 : (i 0).val < 1024 := (i 0).isLt
  have hi1 : (i 1).val < 12 := (i 1).isLt
  have hi2 : (i 2).val < 50 := (i 2).isLt
  have hi3 : (i 3).val < 64 := (i 3).isLt
  refine ⟨⟨(i 0).val / 16, by omega⟩, flush0_8 _, ?_⟩
  rw [mem_blk8]
  obtain ⟨-, -, -, -, -, -, -, -, -, -, -, -, -, -, e0, e1, e2, e3⟩ := idx_facts ⟨(i 0).val / 16, by omega⟩
  intro a
  match a with
  | ⟨0, _⟩ => show win0_8.index _ (0 : Fin 4) * 16 ≤ (i 0).val ∧ (i 0).val < win0_8.index _ (0 : Fin 4) * 16 + 16; rw [e0]; dsimp only; omega
  | ⟨1, _⟩ => show win0_8.index _ (1 : Fin 4) * 12 ≤ (i 1).val ∧ (i 1).val < win0_8.index _ (1 : Fin 4) * 12 + 12; rw [e1]; omega
  | ⟨2, _⟩ => show win0_8.index _ (2 : Fin 4) * 50 ≤ (i 2).val ∧ (i 2).val < win0_8.index _ (2 : Fin 4) * 50 + 50; rw [e2]; omega
  | ⟨3, _⟩ => show win0_8.index _ (3 : Fin 4) * 64 ≤ (i 3).val ∧ (i 3).val < win0_8.index _ (3 : Fin 4) * 64 + 64; rw [e3]; omega

/-- THE OUTPUT ARRAY after the run is the layer's output. -/
theorem final8 (c : Dev nD) : (dats m 0 c).arrAt 8 cfg0.N = GK m c :=
  (dats m 0 c).arrAt_eq_of_cover 8 (GK m c) (fun t _ => flushed_eq m c t) (cover8)

/-- The run, read: the result is the layer's output re-laid, the arguments are unchanged. -/
theorem run : θ_run defs (onTc (τ := τ) (main (F := Ideal))) ⟨m, fun _ => 0, ρ⟩ fun r => ∀ c : Dev nD,
      r.2.mem ((c.tc : Thread nD τ).loc main_v19) = shapeCast S1024x50x768 (GK m c) shapeCasts_S1024x12x50x64_S1024x50x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v19 (Pipeline.mem_restRefs_of main_v19 (by decide) (by decide))).trans
        ((tail_result m c).trans (by rw [final8])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c)))⟩)
    (run_main m ρ)

end Cert.KernelIdeal.Gen

end
-- ==== Proof.RefTerm.lean ====
/-
  The reference computation as one term of its seven arguments: three linear layers re-laid by
  head, the weighted scores applied to the values plus the keys, and the per-(batch, head)
  normalisation by mean and variance, re-laid to the input's layout.
-/
import proofs.«173582_j32727650795908_1_alg».proof.ReferenceIdeal

noncomputable section

namespace Cert.ReferenceIdeal.RefValue

open Cert.ReferenceIdeal Idealize.ShloMosaic

variable {F : FTy → Type} [FloatOps F] [Facts]
open Facts₀ Facts

/-- A linear layer `x · Wᵀ + b`, its 768 columns split into 12 heads of 64 lanes and the head
    axis moved in front of the position axis. -/
def projT (x : FVec F S1024x50x768 .f32) (w : FVec F S768x768 .f32) (b : FVec F S768 .f32) : FVec F S1024x12x50x64 .f32 :=
  transpose S1024x12x50x64 [0, 2, 1, 3]
    (shapeCast S1024x50x12x64
      (addf (Host.dotGeneral dot_S1024x50x768_S768x768_S1024x50x768_2_1_01_0_n_n none x w)
        (broadcastInDim S1024x50x768 ![0, 1, 2] bcast_S1x1x768_S1024x50x768_0_1_2 (broadcastInDim S1x1x768 ![2] bcast_S768_S1x1x768_2 b)))
      shapeCasts_S1024x50x768_S1024x50x12x64)
    transposes_S1024x50x12x64_S1024x12x50x64_0_2_1_3

/-- The weight table `1 / (1 + |s − t|)`. -/
def decT : FVec F S50x50 .f32 :=
  Host.divf (broadcastInDim S50x50 ![] bcast_S_S50x50 (constant S_ .f32 0x3F800000#32))
    (addf (broadcastInDim S50x50 ![] bcast_S_S50x50 (constant S_ .f32 0x3F800000#32))
      (sitofp .f32 (absi (subi
        (broadcastInDim S50x50 ![0, 1] bcast_S50x1_S50x50_0_1 (broadcastInDim S50x1 ![0] bcast_S50_S50x1_0 (iotaInDim S50 32 0)))
        (broadcastInDim S50x50 ![0, 1] bcast_S1x50_S50x50_0_1 (broadcastInDim S1x50 ![1] bcast_S50_S1x50_1 (iotaInDim S50 32 0)))))))

/-- Scores `q · kᵀ` per (batch, head), weighted by the table, applied to the values, plus the keys. -/
def mixT (q k v : FVec F S1024x12x50x64 .f32) : FVec F S1024x12x50x64 .f32 :=
  addf
    (Host.dotGeneral dot_S1024x12x50x50_S1024x12x50x64_S1024x12x50x64_3_2_2_3_01_01 none
      (mulf (Host.dotGeneral dot_S1024x12x50x64_S1024x12x50x64_S1024x12x50x50_3_3_2_2_01_01 none q k)
        (broadcastInDim S1024x12x50x50 ![0, 1, 2, 3] bcast_S1x1x50x50_S1024x12x50x50_0_1_2_3
          (broadcastInDim S1x1x50x50 ![2, 3] bcast_S50x50_S1x1x50x50_2_3 decT)))
      v)
    k

/-- The mean of each (batch, head) slab. -/
def meanT (o : FVec F S1024x12x50x64 .f32) : FVec F S1024x12x1x1 .f32 :=
  Host.divf
    (broadcastInDim S1024x12x1x1 ![0, 1] bcast_S1024x12_S1024x12x1x1_0_1
      (Host.reduceAdd o (constant S_ .f32 0x00000000#32) reducesTo_S1024x12x50x64_S1024x12_d2_3 h_S_))
    (broadcastInDim S1024x12x1x1 ![] bcast_S_S1024x12x1x1 (constant S_ .f32 0x45480000#32))

/-- The slab size minus the (zero) degrees-of-freedom correction. -/
def cntT : FVec F S_ .f32 :=
  subf (constant S_ .f32 0x45480000#32) (sitofp .f32 (constantI S_ 32 0#32))

/-- The variance of each (batch, head) slab: the mean of squared deviations, guarded by a test
    that the divisor is positive. -/
def varT (o : FVec F S1024x12x50x64 .f32) : FVec F S1024x12x1x1 .f32 :=
  select (broadcastInDim S1024x12x1x1 ![] bcast_S_S1024x12x1x1 (cmpf .ogt (cntT (F := F)) (constant S_ .f32 0x00000000#32)))
    (Host.divf
      (broadcastInDim S1024x12x1x1 ![0, 1] bcast_S1024x12_S1024x12x1x1_0_1
        (Host.reduceAdd
          (mulf (subf o (broadcastInDim S1024x12x50x64 ![0, 1, 2, 3] bcast_S1024x12x1x1_S1024x12x50x64_0_1_2_3 (meanT o)))
            (subf o (broadcastInDim S1024x12x50x64 ![0, 1, 2, 3] bcast_S1024x12x1x1_S1024x12x50x64_0_1_2_3 (meanT o))))
          (constant S_ .f32 0x00000000#32) reducesTo_S1024x12x50x64_S1024x12_d2_3 h_S_))
      (broadcastInDim S1024x12x1x1 ![] bcast_S_S1024x12x1x1 (cntT (F := F))))
    (broadcastInDim S1024x12x1x1 ![] bcast_S_S1024x12x1x1 (id (constant S_ .f32 0x7FC00000#32)))

/-- Each slab shifted by its mean and divided by the root of its variance plus ε. -/
def normT (o : FVec F S1024x12x50x64 .f32) : FVec F S1024x12x50x64 .f32 :=
  Host.divf
    (subf o (broadcastInDim S1024x12x50x64 ![0, 1, 2, 3] bcast_S1024x12x1x1_S1024x12x50x64_0_1_2_3 (meanT o)))
    (broadcastInDim S1024x12x50x64 ![0, 1, 2, 3] bcast_S1024x12x1x1_S1024x12x50x64_0_1_2_3
      (Host.sqrt (addf (varT o) (broadcastInDim S1024x12x1x1 ![] bcast_S_S1024x12x1x1 (constant S_ .f32 0x3727C5AC#32)))))

/-- The reference's result as a term of its arguments. -/
def refTerm (x : FVec F S1024x50x768 .f32) (wq : FVec F S768x768 .f32) (bq : FVec F S768 .f32)
    (wk : FVec F S768x768 .f32) (bk : FVec F S768 .f32) (wv : FVec F S768x768 .f32) (bv : FVec F S768 .f32) :
    FVec F S1024x50x768 .f32 :=
  shapeCast S1024x50x768 (normT (mixT (projT x wq bq) (projT x wk bk) (projT x wv bv))) shapeCasts_S1024x12x50x64_S1024x50x768

end Cert.ReferenceIdeal.RefValue

end
-- ==== Proof.RefRun.lean ====
/-
  The reference program's run.  @main is a straight line of 77 tensor operations once the two
  outlined functions (the variance, and the select inside it) are written out at their calls:
  54 of @main's own, 20 of the variance's, 3 of the select's.  From any memory every weakly fair
  execution ends with the result buffer holding the composed term of the seven arguments and the
  arguments unchanged.
-/
import proofs.«173582_j32727650795908_1_alg».proof.Proof.RefTerm
import proofs.«173582_j32727650795908_1_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- @main's 77 operations in order, the calls written out over the calls' own buffers. -/
abbrev ops : List (HloOp τ sig (Elt F)) :=
  [
    binary main_arg0 main_arg1 main_v0 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    unary main_arg2 main_v1 (broadcastInDim S1x1x768 ![2] bcast_S768_S1x1x768_2 : (⟨S768, .f32⟩ : BufTy).Contents (Elt F) → (⟨S1x1x768, .f32⟩ : BufTy).Contents (Elt F)),
    unary main_v1 main_v2 (broadcastInDim S1024x50x768 ![0, 1, 2] bcast_S1x1x768_S1024x50x768_0_1_2 : (⟨S1x1x768, .f32⟩ : BufTy).Contents (Elt F) → (⟨S1024x50x768, .f32⟩ : BufTy).Contents (Elt F)),
    binary main_v0 main_v2 main_v3 (addf : (⟨S1024x50x768, .f32⟩ : BufTy).Contents (Elt F) → (⟨S1024x50x768, .f32⟩ : BufTy).Contents (Elt F) → (⟨S1024x50x768, .f32⟩ : BufTy).Contents (Elt F)),
    reshape main_v3 main_v4 rfl shapeCasts_S1024x50x768_S1024x50x12x64,
    unary main_v4 main_v5 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    binary main_arg0 main_arg3 main_v6 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    unary main_arg4 main_v7 (broadcastInDim S1x1x768 ![2] bcast_S768_S1x1x768_2 : (⟨S768, .f32⟩ : BufTy).Contents (Elt F) → (⟨S1x1x768, .f32⟩ : BufTy).Contents (Elt F)),
    unary main_v7 main_v8 (broadcastInDim S1024x50x768 ![0, 1, 2] bcast_S1x1x768_S1024x50x768_0_1_2 : (⟨S1x1x768, .f32⟩ : BufTy).Contents (Elt F) → (⟨S1024x50x768, .f32⟩ : BufTy).Contents (Elt F)),
    binary main_v6 main_v8 main_v9 (addf : (⟨S1024x50x768, .f32⟩ : BufTy).Contents (Elt F) → (⟨S1024x50x768, .f32⟩ : BufTy).Contents (Elt F) → (⟨S1024x50x768, .f32⟩ : BufTy).Contents (Elt F)),
    reshape main_v9 main_v10 rfl shapeCasts_S1024x50x768_S1024x50x12x64,
    unary main_v10 main_v11 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    binary main_arg0 main_arg5 main_v12 ((fun l r => Host.dotGeneral dot_S1024x50x768_S768x768_S1024x50x768_2_1_01_0_n_n none l r) : (⟨S1024x50x768, .f32⟩ : BufTy).Contents (Elt F) → (⟨S768x768, .f32⟩ : BufTy).Contents (Elt F) → (⟨S1024x50x768, .f32⟩ : BufTy).Contents (Elt F)),
    unary main_arg6 main_v13 (broadcastInDim S1x1x768 ![2] bcast_S768_S1x1x768_2 : (⟨S768, .f32⟩ : BufTy).Contents (Elt F) → (⟨S1x1x768, .f32⟩ : BufTy).Contents (Elt F)),
    unary main_v13 main_v14 (broadcastInDim S1024x50x768 ![0, 1, 2] bcast_S1x1x768_S1024x50x768_0_1_2 : (⟨S1x1x768, .f32⟩ : BufTy).Contents (Elt F) → (⟨S1024x50x768, .f32⟩ : BufTy).Contents (Elt F)),
    binary main_v12 main_v14 main_v15 (addf : (⟨S1024x50x768, .f32⟩ : BufTy).Contents (Elt F) → (⟨S1024x50x768, .f32⟩ : BufTy).Contents (Elt F) → (⟨S1024x50x768, .f32⟩ : BufTy).Contents (Elt F)),
    reshape main_v15 main_v16 rfl shapeCasts_S1024x50x768_S1024x50x12x64,
    unary main_v16 main_v17 ((transpose S1024x12x50x64 [0, 2, 1, 3] · transposes_S1024x50x12x64_S1024x12x50x64_0_2_1_3) : (⟨S1024x50x12x64, .f32⟩ : BufTy).Contents (Elt F) → (⟨S1024x12x50x64, .f32⟩ : BufTy).Contents (Elt F)),
    nullary main_v18 (iotaInDim S50 32 0),
    unary main_v18 main_v19 (broadcastInDim S50x1 ![0] bcast_S50_S50x1_0 : (⟨S50, .i32⟩ : BufTy).Contents (Elt F) → (⟨S50x1, .i32⟩ : BufTy).Contents (Elt F)),
    unary main_v18 main_v20 (broadcastInDim S1x50 ![1] bcast_S50_S1x50_1 : (⟨S50, .i32⟩ : BufTy).Contents (Elt F) → (⟨S1x50, .i32⟩ : BufTy).Contents (Elt F)),
    unary main_v19 main_v21 (broadcastInDim S50x50 ![0, 1] bcast_S50x1_S50x50_0_1 : (⟨S50x1, .i32⟩ : BufTy).Contents (Elt F) → (⟨S50x50, .i32⟩ : BufTy).Contents (Elt F)),
    unary main_v20 main_v22 (broadcastInDim S50x50 ![0, 1] bcast_S1x50_S50x50_0_1 : (⟨S1x50, .i32⟩ : BufTy).Contents (Elt F) → (⟨S50x50, .i32⟩ : BufTy).Contents (Elt F)),
    binary main_v21 main_v22 main_v23 (subi : (⟨S50x50, .i32⟩ : BufTy).Contents (Elt F) → (⟨S50x50, .i32⟩ : BufTy).Contents (Elt F) → (⟨S50x50, .i32⟩ : BufTy).Contents (Elt F)),
    unary main_v23 main_v24 (absi : (⟨S50x50, .i32⟩ : BufTy).Contents (Elt F) → (⟨S50x50, .i32⟩ : BufTy).Contents (Elt F)),
    unary main_v24 main_v25 (sitofp .f32 : (⟨S50x50, .i32⟩ : BufTy).Contents (Elt F) → (⟨S50x50, .f32⟩ : BufTy).Contents (Elt F)),
    nullary main_cst (constant S_ .f32 0x3F800000#32),
    unary main_cst main_v26 (broadcastInDim S50x50 ![] bcast_S_S50x50 : (⟨S_, .f32⟩ : BufTy).Contents (Elt F) → (⟨S50x50, .f32⟩ : BufTy).Contents (Elt F)),
    binary main_v26 main_v25 main_v27 (addf : (⟨S50x50, .f32⟩ : BufTy).Contents (Elt F) → (⟨S50x50, .f32⟩ : BufTy).Contents (Elt F) → (⟨S50x50, .f32⟩ : BufTy).Contents (Elt F)),
    nullary main_cst_0 (constant S_ .f32 0x3F800000#32),
    unary main_cst_0 main_v28 (broadcastInDim S50x50 ![] bcast_S_S50x50 : (⟨S_, .f32⟩ : BufTy).Contents (Elt F) → (⟨S50x50, .f32⟩ : BufTy).Contents (Elt F)),
    binary main_v28 main_v27 main_v29 (Host.divf : (⟨S50x50, .f32⟩ : BufTy).Contents (Elt F) → (⟨S50x50, .f32⟩ : BufTy).Contents (Elt F) → (⟨S50x50, .f32⟩ : BufTy).Contents (Elt F)),
    binary main_v5 main_v11 main_v30 ((fun l r => Host.dotGeneral dot_S1024x12x50x64_S1024x12x50x64_S1024x12x50x50_3_3_2_2_01_01 none l r) : (⟨S1024x12x50x64, .f32⟩ : BufTy).Contents (Elt F) → (⟨S1024x12x50x64, .f32⟩ : BufTy).Contents (Elt F) → (⟨S1024x12x50x50, .f32⟩ : BufTy).Contents (Elt F)),
    unary main_v29 main_v31 (broadcastInDim S1x1x50x50 ![2, 3] bcast_S50x50_S1x1x50x50_2_3 : (⟨S50x50, .f32⟩ : BufTy).Contents (Elt F) → (⟨S1x1x50x50, .f32⟩ : BufTy).Contents (Elt F)),
    unary main_v31 main_v32 (broadcastInDim S1024x12x50x50 ![0, 1, 2, 3] bcast_S1x1x50x50_S1024x12x50x50_0_1_2_3 : (⟨S1x1x50x50, .f32⟩ : BufTy).Contents (Elt F) → (⟨S1024x12x50x50, .f32⟩ : BufTy).Contents (Elt F)),
    binary main_v30 main_v32 main_v33 (mulf : (⟨S1024x12x50x50, .f32⟩ : BufTy).Contents (Elt F) → (⟨S1024x12x50x50, .f32⟩ : BufTy).Contents (Elt F) → (⟨S1024x12x50x50, .f32⟩ : BufTy).Contents (Elt F)),
    binary main_v33 main_v17 main_v34 ((fun l r => Host.dotGeneral dot_S1024x12x50x50_S1024x12x50x64_S1024x12x50x64_3_2_2_3_01_01 none l r) : (⟨S1024x12x50x50, .f32⟩ : BufTy).Contents (Elt F) → (⟨S1024x12x50x64, .f32⟩ : BufTy).Contents (Elt F) → (⟨S1024x12x50x64, .f32⟩ : BufTy).Contents (Elt F)),
    binary main_v34 main_v11 main_v35 (addf : (⟨S1024x12x50x64, .f32⟩ : BufTy).Contents (Elt F) → (⟨S1024x12x50x64, .f32⟩ : BufTy).Contents (Elt F) → (⟨S1024x12x50x64, .f32⟩ : BufTy).Contents (Elt F)),
    nullary main_cst_1 (constant S_ .f32 0x00000000#32),
    binary main_v35 main_cst_1 main_v36 ((fun x v => Host.reduceAdd x v reducesTo_S1024x12x50x64_S1024x12_d2_3 h_S_) : (⟨S1024x12x50x64, .f32⟩ : BufTy).Contents (Elt F) → (⟨S_, .f32⟩ : BufTy).Contents (Elt F) → (⟨S1024x12, .f32⟩ : BufTy).Contents (Elt F)),
    unary main_v36 main_v37 (broadcastInDim S1024x12x1x1 ![0, 1] bcast_S1024x12_S1024x12x1x1_0_1 : (⟨S1024x12, .f32⟩ : BufTy).Contents (Elt F) → (⟨S1024x12x1x1, .f32⟩ : BufTy).Contents (Elt F)),
    nullary main_cst_2 (constant S_ .f32 0x45480000#32),
    unary main_cst_2 main_v38 (broadcastInDim S1024x12x1x1 ![] bcast_S_S1024x12x1x1 : (⟨S_, .f32⟩ : BufTy).Contents (Elt F) → (⟨S1024x12x1x1, .f32⟩ : BufTy).Contents (Elt F)),
    binary main_v37 main_v38 main_v39 (Host.divf : (⟨S1024x12x1x1, .f32⟩ : BufTy).Contents (Elt F) → (⟨S1024x12x1x1, .f32⟩ : BufTy).Contents (Elt F) → (⟨S1024x12x1x1, .f32⟩ : BufTy).Contents (Elt F)),
    nullary main_c (constantI S_ 32 0#32),
    TRef.nullary main_call0.cst (constant S_ .f32 0x00000000#32),
    TRef.binary (.of main_v35) main_call0.cst main_call0.v0 (fun x v => Host.reduceAdd x v reducesTo_S1024x12x50x64_S1024x12_d2_3 h_S_),
    TRef.unary main_call0.v0 main_call0.v1 (broadcastInDim S1024x12x1x1 ![0, 1] bcast_S1024x12_S1024x12x1x1_0_1),
    TRef.nullary main_call0.cst_0 (constant S_ .f32 0x45480000#32),
    TRef.unary main_call0.cst_0 main_call0.v2 (broadcastInDim S1024x12x1x1 ![] bcast_S_S1024x12x1x1),
    TRef.binary main_call0.v1 main_call0.v2 main_call0.v3 Host.divf,
    TRef.unary main_call0.v3 main_call0.v4 (broadcastInDim S1024x12x50x64 ![0, 1, 2, 3] bcast_S1024x12x1x1_S1024x12x50x64_0_1_2_3),
    TRef.binary (.of main_v35) main_call0.v4 main_call0.v5 subf,
    TRef.binary main_call0.v5 main_call0.v5 main_call0.v6 mulf,
    TRef.unary (.of main_c) main_call0.v7 (sitofp .f32),
    TRef.nullary main_call0.cst_1 (constant S_ .f32 0x45480000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1024x12x50x64_S1024x12_d2_3 h_S_),
    TRef.unary main_call0.v9 main_call0.v10 (broadcastInDim S1024x12x1x1 ![0, 1] bcast_S1024x12_S1024x12x1x1_0_1),
    TRef.unary main_call0.v8 main_call0.v11 (broadcastInDim S1024x12x1x1 ![] bcast_S_S1024x12x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1024x12x1x1 ![] bcast_S_S1024x12x1x1),
    TRef.ternary main_call0.v13 main_call0.v12 main_call0.call0.v1 main_call0.call0.v2 (fun p a b => select (broadcastInDim S1024x12x1x1 ![] bcast_S_S1024x12x1x1 p) a b),
    unary main_v39 main_v41 (broadcastInDim S1024x12x50x64 ![0, 1, 2, 3] bcast_S1024x12x1x1_S1024x12x50x64_0_1_2_3 : (⟨S1024x12x1x1, .f32⟩ : BufTy).Contents (Elt F) → (⟨S1024x12x50x64, .f32⟩ : BufTy).Contents (Elt F)),
    binary main_v35 main_v41 main_v42 (subf : (⟨S1024x12x50x64, .f32⟩ : BufTy).Contents (Elt F) → (⟨S1024x12x50x64, .f32⟩ : BufTy).Contents (Elt F) → (⟨S1024x12x50x64, .f32⟩ : BufTy).Contents (Elt F)),
    nullary main_cst_3 (constant S_ .f32 0x3727C5AC#32),
    unary main_cst_3 main_v43 (broadcastInDim S1024x12x1x1 ![] bcast_S_S1024x12x1x1 : (⟨S_, .f32⟩ : BufTy).Contents (Elt F) → (⟨S1024x12x1x1, .f32⟩ : BufTy).Contents (Elt F)),
    binary main_v40 main_v43 main_v44 (addf : (⟨S1024x12x1x1, .f32⟩ : BufTy).Contents (Elt F) → (⟨S1024x12x1x1, .f32⟩ : BufTy).Contents (Elt F) → (⟨S1024x12x1x1, .f32⟩ : BufTy).Contents (Elt F)),
    unary main_v44 main_v45 (Host.sqrt : (⟨S1024x12x1x1, .f32⟩ : BufTy).Contents (Elt F) → (⟨S1024x12x1x1, .f32⟩ : BufTy).Contents (Elt F)),
    unary main_v45 main_v46 (broadcastInDim S1024x12x50x64 ![0, 1, 2, 3] bcast_S1024x12x1x1_S1024x12x50x64_0_1_2_3 : (⟨S1024x12x1x1, .f32⟩ : BufTy).Contents (Elt F) → (⟨S1024x12x50x64, .f32⟩ : BufTy).Contents (Elt F)),
    binary main_v42 main_v46 main_v47 (Host.divf : (⟨S1024x12x50x64, .f32⟩ : BufTy).Contents (Elt F) → (⟨S1024x12x50x64, .f32⟩ : BufTy).Contents (Elt F) → (⟨S1024x12x50x64, .f32⟩ : BufTy).Contents (Elt F)),
    reshape main_v47 main_v48 rfl shapeCasts_S1024x12x50x64_S1024x50x768 ]

set_option maxRecDepth 4096 in
set_option maxHeartbeats 1600000 in
/-- @main is that straight line: the functions unfolded at their calls, sequencing re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., reshape_bufs_sub .., unary_bufs_sub ..,
    binary_bufs_sub .., unary_bufs_sub .., unary_bufs_sub .., binary_bufs_sub .., reshape_bufs_sub .., unary_bufs_sub ..,
    binary_bufs_sub .., unary_bufs_sub .., unary_bufs_sub .., binary_bufs_sub .., reshape_bufs_sub .., unary_bufs_sub ..,
    nullary_bufs_sub .., unary_bufs_sub .., unary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., unary_bufs_sub .., binary_bufs_sub ..,
    binary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., reshape_bufs_sub ..⟩

attribute [local irreducible] transpose in
set_option maxRecDepth 8192 in
set_option maxHeartbeats 1600000 in
/-- What the result buffer holds after the line: the reference's term at the arguments' contents. -/
theorem out_eq (V : Valuation τ sig (Elt F)) :
    after ops V (main_v48 : DevRef τ sig)
      = refTerm (F := F) (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  after_results_simp
  rfl

set_option maxRecDepth 8192 in
set_option maxHeartbeats 1600000 in
/-- No operation writes argument 0. -/
theorem arg0_eq (V : Valuation τ sig (Elt F)) :
    after ops V (main_arg0 : DevRef τ sig) = V (main_arg0 : DevRef τ sig) := by
  after_results_simp

set_option maxRecDepth 8192 in
set_option maxHeartbeats 1600000 in
/-- No operation writes argument 1. -/
theorem arg1_eq (V : Valuation τ sig (Elt F)) :
    after ops V (main_arg1 : DevRef τ sig) = V (main_arg1 : DevRef τ sig) := by
  after_results_simp

set_option maxRecDepth 8192 in
set_option maxHeartbeats 1600000 in
/-- No operation writes argument 2. -/
theorem arg2_eq (V : Valuation τ sig (Elt F)) :
    after ops V (main_arg2 : DevRef τ sig) = V (main_arg2 : DevRef τ sig) := by
  after_results_simp

set_option maxRecDepth 8192 in
set_option maxHeartbeats 1600000 in
/-- No operation writes argument 3. -/
theorem arg3_eq (V : Valuation τ sig (Elt F)) :
    after ops V (main_arg3 : DevRef τ sig) = V (main_arg3 : DevRef τ sig) := by
  after_results_simp

set_option maxRecDepth 8192 in
set_option maxHeartbeats 1600000 in
/-- No operation writes argument 4. -/
theorem arg4_eq (V : Valuation τ sig (Elt F)) :
    after ops V (main_arg4 : DevRef τ sig) = V (main_arg4 : DevRef τ sig) := by
  after_results_simp

set_option maxRecDepth 8192 in
set_option maxHeartbeats 1600000 in
/-- No operation writes argument 5. -/
theorem arg5_eq (V : Valuation τ sig (Elt F)) :
    after ops V (main_arg5 : DevRef τ sig) = V (main_arg5 : DevRef τ sig) := by
  after_results_simp

set_option maxRecDepth 8192 in
set_option maxHeartbeats 1600000 in
/-- No operation writes argument 6. -/
theorem arg6_eq (V : Valuation τ sig (Elt F)) :
    after ops V (main_arg6 : DevRef τ sig) = V (main_arg6 : DevRef τ sig) := by
  after_results_simp

/-- On every device, for any float values, from any memory with zero counters: every weakly fair execution of
    @main terminates with the result at the reference's term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v48)
          = refTerm (F := F) (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v48).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefValue

end
-- ==== Proof.RefDots.lean ====
/-
  The reference's three products and its two layout chains, read at an index, at the ideal
  instance (floats are the extended reals).

  A product with ONE contracted axis is, at a result index, the sum over the contracted
  coordinate of the products of the operands' entries, with no rounding and no order of
  summation left in it.  Three products occur:
    * the linear layer, [1024,50,768] by [768,768], contracting axis 2 against axis 1:
        (x · wᵀ)[m,s,f] = ∑ e, x[m,s,e] * w[f,e];
    * the scores, per (batch, head), [50,64] by [50,64], contracting the lanes:
        (q · kᵀ)[m,h,s,t] = ∑ d, q[m,h,s,d] * k[m,h,t,d];
    * the weighted scores applied to the values, per (batch, head), [50,50] by [50,64]:
        (r · v)[m,h,s,d] = ∑ t, r[m,h,s,t] * v[m,h,t,d].
  The linear layer's 768 columns are then split into 12 heads of 64 lanes (column 64·h + d is
  head h, lane d) and the head axis is moved in front of the position axis; the weight table is
  read at (s, t) whatever the batch entry and head.
-/
import proofs.«173582_j32727650795908_1_alg».proof.Proof.RefTerm
import proofs.«173582_j32727650795908_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Idealize.ShloMosaic Idealize.ShloMosaic.ValueIdx

/-! ## The linear layer's product: [1024,50,768] × [768,768] → [1024,50,768] -/

/-- Contracting the left operand's axis 2 with the right operand's axis 1, no batch axis: the
    result's axes 0 and 1 are the left operand's axes 0 and 1, its axis 2 the right operand's
    axis 0. -/
abbrev linDims (wf : DotDims.WF S1024x50x768 S768x768 S1024x50x768 [2] [1] [0, 1] [0] [] []) :
    DotDims S1024x50x768 S768x768 S1024x50x768 where
  lhsContracting := [2]
  rhsContracting := [1]
  lhsNonContracting := [0, 1]
  rhsNonContracting := [0]
  lhsBatch := []
  rhsBatch := []
  wf := wf

section Lin
variable (wf : DotDims.WF S1024x50x768 S768x768 S1024x50x768 [2] [1] [0, 1] [0] [] [])

/-- The left operand's axis 0 is free: its coordinate is the result's axis 0. -/
private theorem lin_lhs0 (j : S1024x50x768.Idx) (k : (linDims wf).contr.Idx) :
    ((linDims wf).lhsIdx j k 0).val = (j 0).val := by
  unfold DotDims.lhsIdx
  rw [dif_neg (show (0 : Fin 3) ∉ ([] : List (Fin 3)) by decide),
    dif_pos (show (0 : Fin 3) ∈ [(0 : Fin 3), 1] by decide)]
  rfl

/-- The left operand's axis 1 is free: its coordinate is the result's axis 1. -/
private theorem lin_lhs1 (j : S1024x50x768.Idx) (k : (linDims wf).contr.Idx) :
    ((linDims wf).lhsIdx j k 1).val = (j 1).val := by
  unfold DotDims.lhsIdx
  rw [dif_neg (show (1 : Fin 3) ∉ ([] : List (Fin 3)) by decide),
    dif_pos (show (1 : Fin 3) ∈ [(0 : Fin 3), 1] by decide)]
  rfl

/-- The left operand's axis 2 is the contracted one: at the contraction index with coordinate
    `c` its coordinate is `c`. -/
private theorem lin_lhs2 (j : S1024x50x768.Idx) (c : Fin 768) :
    ((linDims wf).lhsIdx j ((contrEquiv1 (linDims wf) 768 rfl rfl).symm c) 2).val = c.val := by
  rw [(linDims wf).lhsIdx_val_of_single rfl]
  exact contrEquiv1_symm_val (linDims wf) 768 rfl rfl c

/-- The right operand's axis 0 is free: its coordinate is the result's axis 2. -/
private theorem lin_rhs0 (j : S1024x50x768.Idx) (k : (linDims wf).contr.Idx) :
    ((linDims wf).rhsIdx j k 0).val = (j 2).val := by
  unfold DotDims.rhsIdx
  rw [dif_neg (show (0 : Fin 2) ∉ ([] : List (Fin 2)) by decide),
    dif_pos (show (0 : Fin 2) ∈ [(0 : Fin 2)] by decide)]
  rfl

/-- The right operand's axis 1 is the contracted one: at the contraction index with coordinate
    `c` its coordinate is `c`. -/
private theorem lin_rhs1 (j : S1024x50x768.Idx) (c : Fin 768) :
    ((linDims wf).rhsIdx j ((contrEquiv1 (linDims wf) 768 rfl rfl).symm c) 1).val = c.val := by
  rw [(linDims wf).rhsIdx_val_of_single rfl]
  exact contrEquiv1_symm_val (linDims wf) 768 rfl rfl c

/-- The contraction's sum at `(m, s, f)`, over the contraction index set and through the operand
    index maps, is the sum over the contracted coordinate `e` of `l[m, s, e] * r[f, e]`. -/
theorem lin_sum (l : S1024x50x768.Idx → EReal) (r : S768x768.Idx → EReal)
    (m : Fin 1024) (s : Fin 50) (f : Fin 768) :
    ∑ k : (linDims wf).contr.Idx,
        l ((linDims wf).lhsIdx (ix3 m s f) k) * r ((linDims wf).rhsIdx (ix3 m s f) k)
      = ∑ e : Fin 768, l (ix3 m s e) * r (ix2 f e) := by
  rw [← Equiv.sum_comp (contrEquiv1 (linDims wf) 768 rfl rfl).symm]
  refine Finset.sum_congr rfl fun c _ => ?_
  have hl : (linDims wf).lhsIdx (ix3 m s f) ((contrEquiv1 (linDims wf) 768 rfl rfl).symm c)
      = ix3 m s c := by
    funext a; apply Fin.ext
    match a with
    | ⟨0, _⟩ => exact lin_lhs0 wf (ix3 m s f) _
    | ⟨1, _⟩ => exact lin_lhs1 wf (ix3 m s f) _
    | ⟨2, _⟩ => exact lin_lhs2 wf (ix3 m s f) c
  have hr : (linDims wf).rhsIdx (ix3 m s f) ((contrEquiv1 (linDims wf) 768 rfl rfl).symm c)
      = ix2 f c := by
    funext a; apply Fin.ext
    match a with
    | ⟨0, _⟩ => exact lin_rhs0 wf (ix3 m s f) _
    | ⟨1, _⟩ => exact lin_rhs1 wf (ix3 m s f) c
  rw [hl, hr]

end Lin

/-! ## The scores: [1024,12,50,64] × [1024,12,50,64] → [1024,12,50,50] -/

/-- Batch axes 0 and 1 on both operands, contracting axis 3 of both: the result's axes 0 and 1
    are the batch axes, its axis 2 the left operand's axis 2, its axis 3 the right operand's
    axis 2. -/
abbrev scoreDims (wf : DotDims.WF S1024x12x50x64 S1024x12x50x64 S1024x12x50x50 [3] [3] [2] [2] [0, 1] [0, 1]) :
    DotDims S1024x12x50x64 S1024x12x50x64 S1024x12x50x50 where
  lhsContracting := [3]
  rhsContracting := [3]
  lhsNonContracting := [2]
  rhsNonContracting := [2]
  lhsBatch := [0, 1]
  rhsBatch := [0, 1]
  wf := wf

section Score
variable (wf : DotDims.WF S1024x12x50x64 S1024x12x50x64 S1024x12x50x50 [3] [3] [2] [2] [0, 1] [0, 1])

/-- The left operand's axis 0 is the first batch axis: its coordinate is the result's axis 0. -/
private theorem score_lhs0 (j : S1024x12x50x50.Idx) (k : (scoreDims wf).contr.Idx) :
    ((scoreDims wf).lhsIdx j k 0).val = (j 0).val := by
  unfold DotDims.lhsIdx
  rw [dif_pos (show (0 : Fin 4) ∈ [(0 : Fin 4), 1] by decide)]
  rfl

/-- The left operand's axis 1 is the second batch axis: its coordinate is the result's axis 1. -/
private theorem score_lhs1 (j : S1024x12x50x50.Idx) (k : (scoreDims wf).contr.Idx) :
    ((scoreDims wf).lhsIdx j k 1).val = (j 1).val := by
  unfold DotDims.lhsIdx
  rw [dif_pos (show (1 : Fin 4) ∈ [(0 : Fin 4), 1] by decide)]
  rfl

/-- The left operand's axis 2 is free: its coordinate is the result's axis 2. -/
private theorem score_lhs2 (j : S1024x12x50x50.Idx) (k : (scoreDims wf).contr.Idx) :
    ((scoreDims wf).lhsIdx j k 2).val = (j 2).val := by
  unfold DotDims.lhsIdx
  rw [dif_neg (show (2 : Fin 4) ∉ [(0 : Fin 4), 1] by decide),
    dif_pos (show (2 : Fin 4) ∈ [(2 : Fin 4)] by decide)]
  rfl

/-- The left operand's axis 3 is the contracted one: at the contraction index with coordinate
    `c` its coordinate is `c`. -/
private theorem score_lhs3 (j : S1024x12x50x50.Idx) (c : Fin 64) :
    ((scoreDims wf).lhsIdx j ((contrEquiv1 (scoreDims wf) 64 rfl rfl).symm c) 3).val = c.val := by
  rw [(scoreDims wf).lhsIdx_val_of_single rfl]
  exact contrEquiv1_symm_val (scoreDims wf) 64 rfl rfl c

/-- The right operand's axis 0 is the first batch axis: its coordinate is the result's axis 0. -/
private theorem score_rhs0 (j : S1024x12x50x50.Idx) (k : (scoreDims wf).contr.Idx) :
    ((scoreDims wf).rhsIdx j k 0).val = (j 0).val := by
  unfold DotDims.rhsIdx
  rw [dif_pos (show (0 : Fin 4) ∈ [(0 : Fin 4), 1] by decide)]
  rfl

/-- The right operand's axis 1 is the second batch axis: its coordinate is the result's axis 1. -/
private theorem score_rhs1 (j : S1024x12x50x50.Idx) (k : (scoreDims wf).contr.Idx) :
    ((scoreDims wf).rhsIdx j k 1).val = (j 1).val := by
  unfold DotDims.rhsIdx
  rw [dif_pos (show (1 : Fin 4) ∈ [(0 : Fin 4), 1] by decide)]
  rfl

/-- The right operand's axis 2 is free: its coordinate is the result's axis 3. -/
private theorem score_rhs2 (j : S1024x12x50x50.Idx) (k : (scoreDims wf).contr.Idx) :
    ((scoreDims wf).rhsIdx j k 2).val = (j 3).val := by
  unfold DotDims.rhsIdx
  rw [dif_neg (show (2 : Fin 4) ∉ [(0 : Fin 4), 1] by decide),
    dif_pos (show (2 : Fin 4) ∈ [(2 : Fin 4)] by decide)]
  rfl

/-- The right operand's axis 3 is the contracted one: at the contraction index with coordinate
    `c` its coordinate is `c`. -/
private theorem score_rhs3 (j : S1024x12x50x50.Idx) (c : Fin 64) :
    ((scoreDims wf).rhsIdx j ((contrEquiv1 (scoreDims wf) 64 rfl rfl).symm c) 3).val = c.val := by
  rw [(scoreDims wf).rhsIdx_val_of_single rfl]
  exact contrEquiv1_symm_val (scoreDims wf) 64 rfl rfl c

/-- The contraction's sum at `(m, h, s, t)` is the sum over the lane `d` of
    `l[m, h, s, d] * r[m, h, t, d]`. -/
theorem score_sum (l r : S1024x12x50x64.Idx → EReal)
    (m : Fin 1024) (h : Fin 12) (s t : Fin 50) :
    ∑ k : (scoreDims wf).contr.Idx,
        l ((scoreDims wf).lhsIdx (ix4 m h s t) k) * r ((scoreDims wf).rhsIdx (ix4 m h s t) k)
      = ∑ d : Fin 64, l (ix4 m h s d) * r (ix4 m h t d) := by
  rw [← Equiv.sum_comp (contrEquiv1 (scoreDims wf) 64 rfl rfl).symm]
  refine Finset.sum_congr rfl fun c _ => ?_
  have hl : (scoreDims wf).lhsIdx (ix4 m h s t) ((contrEquiv1 (scoreDims wf) 64 rfl rfl).symm c)
      = ix4 m h s c := by
    funext a; apply Fin.ext
    match a with
    | ⟨0, _⟩ => exact score_lhs0 wf (ix4 m h s t) _
    | ⟨1, _⟩ => exact score_lhs1 wf (ix4 m h s t) _
    | ⟨2, _⟩ => exact score_lhs2 wf (ix4 m h s t) _
    | ⟨3, _⟩ => exact score_lhs3 wf (ix4 m h s t) c
  have hr : (scoreDims wf).rhsIdx (ix4 m h s t) ((contrEquiv1 (scoreDims wf) 64 rfl rfl).symm c)
      = ix4 m h t c := by
    funext a; apply Fin.ext
    match a with
    | ⟨0, _⟩ => exact score_rhs0 wf (ix4 m h s t) _
    | ⟨1, _⟩ => exact score_rhs1 wf (ix4 m h s t) _
    | ⟨2, _⟩ => exact score_rhs2 wf (ix4 m h s t) _
    | ⟨3, _⟩ => exact score_rhs3 wf (ix4 m h s t) c
  rw [hl, hr]

end Score

/-! ## The weighted scores applied to the values: [1024,12,50,50] × [1024,12,50,64] → [1024,12,50,64] -/

/-- Batch axes 0 and 1 on both operands, contracting the left operand's axis 3 with the right
    operand's axis 2: the result's axes 0 and 1 are the batch axes, its axis 2 the left operand's
    axis 2, its axis 3 the right operand's axis 3. -/
abbrev applyDims (wf : DotDims.WF S1024x12x50x50 S1024x12x50x64 S1024x12x50x64 [3] [2] [2] [3] [0, 1] [0, 1]) :
    DotDims S1024x12x50x50 S1024x12x50x64 S1024x12x50x64 where
  lhsContracting := [3]
  rhsContracting := [2]
  lhsNonContracting := [2]
  rhsNonContracting := [3]
  lhsBatch := [0, 1]
  rhsBatch := [0, 1]
  wf := wf

section Apply
variable (wf : DotDims.WF S1024x12x50x50 S1024x12x50x64 S1024x12x50x64 [3] [2] [2] [3] [0, 1] [0, 1])

/-- The left operand's axis 0 is the first batch axis: its coordinate is the result's axis 0. -/
private theorem apply_lhs0 (j : S1024x12x50x64.Idx) (k : (applyDims wf).contr.Idx) :
    ((applyDims wf).lhsIdx j k 0).val = (j 0).val := by
  unfold DotDims.lhsIdx
  rw [dif_pos (show (0 : Fin 4) ∈ [(0 : Fin 4), 1] by decide)]
  rfl

/-- The left operand's axis 1 is the second batch axis: its coordinate is the result's axis 1. -/
private theorem apply_lhs1 (j : S1024x12x50x64.Idx) (k : (applyDims wf).contr.Idx) :
    ((applyDims wf).lhsIdx j k 1).val = (j 1).val := by
  unfold DotDims.lhsIdx
  rw [dif_pos (show (1 : Fin 4) ∈ [(0 : Fin 4), 1] by decide)]
  rfl

/-- The left operand's axis 2 is free: its coordinate is the result's axis 2. -/
private theorem apply_lhs2 (j : S1024x12x50x64.Idx) (k : (applyDims wf).contr.Idx) :
    ((applyDims wf).lhsIdx j k 2).val = (j 2).val := by
  unfold DotDims.lhsIdx
  rw [dif_neg (show (2 : Fin 4) ∉ [(0 : Fin 4), 1] by decide),
    dif_pos (show (2 : Fin 4) ∈ [(2 : Fin 4)] by decide)]
  rfl

/-- The left operand's axis 3 is the contracted one: at the contraction index with coordinate
    `c` its coordinate is `c`. -/
private theorem apply_lhs3 (j : S1024x12x50x64.Idx) (c : Fin 50) :
    ((applyDims wf).lhsIdx j ((contrEquiv1 (applyDims wf) 50 rfl rfl).symm c) 3).val = c.val := by
  rw [(applyDims wf).lhsIdx_val_of_single rfl]
  exact contrEquiv1_symm_val (applyDims wf) 50 rfl rfl c

/-- The right operand's axis 0 is the first batch axis: its coordinate is the result's axis 0. -/
private theorem apply_rhs0 (j : S1024x12x50x64.Idx) (k : (applyDims wf).contr.Idx) :
    ((applyDims wf).rhsIdx j k 0).val = (j 0).val := by
  unfold DotDims.rhsIdx
  rw [dif_pos (show (0 : Fin 4) ∈ [(0 : Fin 4), 1] by decide)]
  rfl

/-- The right operand's axis 1 is the second batch axis: its coordinate is the result's axis 1. -/
private theorem apply_rhs1 (j : S1024x12x50x64.Idx) (k : (applyDims wf).contr.Idx) :
    ((applyDims wf).rhsIdx j k 1).val = (j 1).val := by
  unfold DotDims.rhsIdx
  rw [dif_pos (show (1 : Fin 4) ∈ [(0 : Fin 4), 1] by decide)]
  rfl

/-- The right operand's axis 2 is the contracted one: at the contraction index with coordinate
    `c` its coordinate is `c`. -/
private theorem apply_rhs2 (j : S1024x12x50x64.Idx) (c : Fin 50) :
    ((applyDims wf).rhsIdx j ((contrEquiv1 (applyDims wf) 50 rfl rfl).symm c) 2).val = c.val := by
  rw [(applyDims wf).rhsIdx_val_of_single rfl]
  exact contrEquiv1_symm_val (applyDims wf) 50 rfl rfl c

/-- The right operand's axis 3 is free: its coordinate is the result's axis 3. -/
private theorem apply_rhs3 (j : S1024x12x50x64.Idx) (k : (applyDims wf).contr.Idx) :
    ((applyDims wf).rhsIdx j k 3).val = (j 3).val := by
  unfold DotDims.rhsIdx
  rw [dif_neg (show (3 : Fin 4) ∉ [(0 : Fin 4), 1] by decide),
    dif_pos (show (3 : Fin 4) ∈ [(3 : Fin 4)] by decide)]
  rfl

/-- The contraction's sum at `(m, h, s, d)` is the sum over the position `t` of
    `l[m, h, s, t] * r[m, h, t, d]`. -/
theorem apply_sum (l : S1024x12x50x50.Idx → EReal) (r : S1024x12x50x64.Idx → EReal)
    (m : Fin 1024) (h : Fin 12) (s : Fin 50) (d : Fin 64) :
    ∑ k : (applyDims wf).contr.Idx,
        l ((applyDims wf).lhsIdx (ix4 m h s d) k) * r ((applyDims wf).rhsIdx (ix4 m h s d) k)
      = ∑ t : Fin 50, l (ix4 m h s t) * r (ix4 m h t d) := by
  rw [← Equiv.sum_comp (contrEquiv1 (applyDims wf) 50 rfl rfl).symm]
  refine Finset.sum_congr rfl fun c _ => ?_
  have hl : (applyDims wf).lhsIdx (ix4 m h s d) ((contrEquiv1 (applyDims wf) 50 rfl rfl).symm c)
      = ix4 m h s c := by
    funext a; apply Fin.ext
    match a with
    | ⟨0, _⟩ => exact apply_lhs0 wf (ix4 m h s d) _
    | ⟨1, _⟩ => exact apply_lhs1 wf (ix4 m h s d) _
    | ⟨2, _⟩ => exact apply_lhs2 wf (ix4 m h s d) _
    | ⟨3, _⟩ => exact apply_lhs3 wf (ix4 m h s d) c
  have hr : (applyDims wf).rhsIdx (ix4 m h s d) ((contrEquiv1 (applyDims wf) 50 rfl rfl).symm c)
      = ix4 m h c d := by
    funext a; apply Fin.ext
    match a with
    | ⟨0, _⟩ => exact apply_rhs0 wf (ix4 m h s d) _
    | ⟨1, _⟩ => exact apply_rhs1 wf (ix4 m h s d) _
    | ⟨2, _⟩ => exact apply_rhs2 wf (ix4 m h s d) c
    | ⟨3, _⟩ => exact apply_rhs3 wf (ix4 m h s d) _
  rw [hl, hr]

end Apply

/-! ## The three products of the reference, read at an index -/

section AtIndex
variable [Facts]
open Facts₀ Facts

/-- The linear layer's product at `(m, s, f)`: `∑ e, x[m, s, e] * w[f, e]`. -/
theorem dotP_apply (x : FVec Ideal S1024x50x768 .f32) (w : FVec Ideal S768x768 .f32)
    (m : Fin 1024) (s : Fin 50) (f : Fin 768) :
    Host.dotGeneral dot_S1024x50x768_S768x768_S1024x50x768_2_1_01_0_n_n none x w (ix3 m s f)
      = ∑ e : Fin 768, x (ix3 m s e) * w (ix2 f e) := by
  show FloatOps.dotGeneral (linDims dot_S1024x50x768_S768x768_S1024x50x768_2_1_01_0_n_n_wf) none .single x w
      (ix3 m s f) = _
  rw [Ideal.dotGeneral_apply]
  exact lin_sum _ x w m s f

/-- The scores' product at `(m, h, s, t)`: `∑ d, q[m, h, s, d] * k[m, h, t, d]`. -/
theorem dotQK_apply (q k : FVec Ideal S1024x12x50x64 .f32)
    (m : Fin 1024) (h : Fin 12) (s t : Fin 50) :
    Host.dotGeneral dot_S1024x12x50x64_S1024x12x50x64_S1024x12x50x50_3_3_2_2_01_01 none q k (ix4 m h s t)
      = ∑ d : Fin 64, q (ix4 m h s d) * k (ix4 m h t d) := by
  show FloatOps.dotGeneral (scoreDims dot_S1024x12x50x64_S1024x12x50x64_S1024x12x50x50_3_3_2_2_01_01_wf) none .single q k
      (ix4 m h s t) = _
  rw [Ideal.dotGeneral_apply]
  exact score_sum _ q k m h s t

/-- The product of the weighted scores by the values at `(m, h, s, d)`:
    `∑ t, r[m, h, s, t] * v[m, h, t, d]`. -/
theorem dotRV_apply (r : FVec Ideal S1024x12x50x50 .f32) (v : FVec Ideal S1024x12x50x64 .f32)
    (m : Fin 1024) (h : Fin 12) (s : Fin 50) (d : Fin 64) :
    Host.dotGeneral dot_S1024x12x50x50_S1024x12x50x64_S1024x12x50x64_3_2_2_3_01_01 none r v (ix4 m h s d)
      = ∑ t : Fin 50, r (ix4 m h s t) * v (ix4 m h t d) := by
  show FloatOps.dotGeneral (applyDims dot_S1024x12x50x50_S1024x12x50x64_S1024x12x50x64_3_2_2_3_01_01_wf) none .single r v
      (ix4 m h s d) = _
  rw [Ideal.dotGeneral_apply]
  exact apply_sum _ r v m h s d

/-! ## The linear layer re-laid by head, and the mixing step -/

/-- Column `64·h + d` of the row-major [1024,50,768] array is entry `(h, d)` of the row-major
    [1024,50,12,64] array over the same `(m, s)`. -/
private theorem split_pos (m : Fin 1024) (s : Fin 50) (h : Fin 12) (d : Fin 64) :
    (S1024x50x768.rowMajor (ix3 m s (Cert.Ret.hd h d))).val = (S1024x50x12x64.rowMajor (ix4 m s h d)).val := by
  rw [Shape.rowMajor_val_three, Shape.rowMajor_val_four]
  show (m.val * 50 + s.val) * 768 + (64 * h.val + d.val) = ((m.val * 50 + s.val) * 12 + h.val) * 64 + d.val
  omega

/-- The bias, broadcast to [1,1,768] and then to [1024,50,768], reads at `(m, s, f)` its entry `f`. -/
private theorem bias_apply (b : FVec Ideal S768 .f32) (m : Fin 1024) (s : Fin 50) (f : Fin 768) :
    broadcastInDim S1024x50x768 ![0, 1, 2] bcast_S1x1x768_S1024x50x768_0_1_2
        (broadcastInDim S1x1x768 ![2] bcast_S768_S1x1x768_2 b) (ix3 m s f) = b (ix1 f) := by
  refine (broadcastInDim_apply _ _ _ (ix3 m s f) (ix3 (0 : Fin 1) (0 : Fin 1) f) fun a => ?_).trans ?_
  · match a with
    | ⟨0, _⟩ => rfl
    | ⟨1, _⟩ => rfl
    | ⟨2, _⟩ => rfl
  · exact broadcastInDim_apply _ _ _ _ (ix1 f) fun a => match a with | ⟨0, _⟩ => rfl

/-- The linear layer re-laid by head reads, at `(m, h, s, d)`, the layer's entry at batch entry
    `m`, position `s`, column `64·h + d`. -/
theorem projT_apply (x : FVec Ideal S1024x50x768 .f32) (w : FVec Ideal S768x768 .f32) (b : FVec Ideal S768 .f32)
    (m : Fin 1024) (h : Fin 12) (s : Fin 50) (d : Fin 64) :
    projT (F := Ideal) x w b (ix4 m h s d) = Cert.Ret.proj x w b m s (Cert.Ret.hd h d) := by
  unfold projT Cert.Ret.proj
  refine (transpose_apply _ _ _ (ix4 m h s d) (ix4 m s h d) fun c => match c with
    | ⟨0, _⟩ => rfl | ⟨1, _⟩ => rfl | ⟨2, _⟩ => rfl | ⟨3, _⟩ => rfl).trans ?_
  refine (shapeCast_apply _ _ (ix4 m s h d) (ix3 m s (Cert.Ret.hd h d)) (split_pos m s h d)).trans ?_
  rw [addf_apply, dotP_apply, bias_apply]

/-- The weight table, broadcast to [1,1,50,50] and then to [1024,12,50,50], reads at
    `(m, h, s, t)` its entry `(s, t)`. -/
private theorem table_apply (T : FVec Ideal S50x50 .f32) (m : Fin 1024) (h : Fin 12) (s t : Fin 50) :
    broadcastInDim S1024x12x50x50 ![0, 1, 2, 3] bcast_S1x1x50x50_S1024x12x50x50_0_1_2_3
        (broadcastInDim S1x1x50x50 ![2, 3] bcast_S50x50_S1x1x50x50_2_3 T) (ix4 m h s t) = T (ix2 s t) := by
  refine (broadcastInDim_apply _ _ _ (ix4 m h s t) (ix4 (0 : Fin 1) (0 : Fin 1) s t) fun a => ?_).trans ?_
  · match a with
    | ⟨0, _⟩ => rfl
    | ⟨1, _⟩ => rfl
    | ⟨2, _⟩ => rfl
    | ⟨3, _⟩ => rfl
  · exact broadcastInDim_apply _ _ _ _ (ix2 s t) fun a => match a with | ⟨0, _⟩ => rfl | ⟨1, _⟩ => rfl

/-- The mixing step at `(m, h, s, d)`: the scores of row `s` against every row `t`, each weighted
    by the table's entry `(s, t)`, applied to the values' lane `d`, plus the key's entry. -/
theorem mixT_apply (q k v : FVec Ideal S1024x12x50x64 .f32) (m : Fin 1024) (h : Fin 12) (s : Fin 50) (d : Fin 64) :
    mixT (F := Ideal) q k v (ix4 m h s d)
      = (∑ t : Fin 50, ((∑ d' : Fin 64, q (ix4 m h s d') * k (ix4 m h t d')) * decT (F := Ideal) (ix2 s t)) * v (ix4 m h t d))
          + k (ix4 m h s d) := by
  unfold mixT
  rw [addf_apply, dotRV_apply]
  refine congrArg (· + k (ix4 m h s d)) (Finset.sum_congr rfl fun t _ => ?_)
  rw [mulf_apply, dotQK_apply, table_apply]

end AtIndex

end Cert.ReferenceIdeal.RefValue

end
-- ==== Proof.Consts.lean ====
/-
  The float patterns the two programs spell, as the extended reals they denote: the slab size
  3200 = 50 · 64, the ε under the root (a positive real), one and zero.
-/
import proofs.«173582_j32727650795908_1_alg».proof.Proof.Spec

noncomputable section

namespace Cert.Ret

open Idealize.ShloMosaic

/-- The pattern of `3200.0` denotes the real 3200. -/
theorem c3200_eq : c3200 = ((3200 : ℝ) : EReal) := by
  unfold c3200
  simp [Ideal.ofBits, Ideal.ieee, -EReal.coe_mul]; norm_num

/-- The pattern of ε denotes a positive real. -/
theorem ceps_pos : ∃ r : ℝ, 0 < r ∧ ceps = (r : EReal) := by
  unfold ceps
  refine ⟨_, ?_, by simp [Ideal.ofBits, Ideal.ieee, -EReal.coe_mul]; rfl⟩
  norm_num

/-- The pattern of `1.0` denotes 1. -/
theorem ofBits_one : Ideal.ofBits .f32 0x3F800000#32 = ((1 : ℝ) : EReal) := by
  simp [Ideal.ofBits, Ideal.ieee, -EReal.coe_mul]; norm_num

/-- The pattern of `+0.0` denotes 0. -/
theorem ofBits_zero : Ideal.ofBits .f32 0x00000000#32 = 0 := by
  simp [Ideal.ofBits, Ideal.ieee]

end Cert.Ret

end
-- ==== Proof.RefNorm.lean ====
/-
  The reference's per-(batch, head) normalisation read at an index.

  The reference sums a slab `o (m, h, ·, ·)` of 50 × 64 numbers over its two trailing axes from a
  zero initial value; the indices that reduce to `(m, h)` are exactly the `(m, h, s, d)`, so at
  `(m, h)` that sum is `∑ s, ∑ d, o (m, h, s, d)`.  Divided by the slab size it is the mean; the
  variance is the same sum of the squared deviations from the mean over the divisor
  `3200 − 0 = 3200`, guarded by the test that the divisor is positive, which holds; the result is
  the deviation divided by the root of the variance plus ε.  Every broadcast reads its operand at
  the evident index, so at `(m, h, s, d)` the term is the second spelling of the normalisation
  applied to the slab `fun s' d' => o (m, h, s', d')`.
-/
import proofs.«173582_j32727650795908_1_alg».proof.Proof.RefTerm
import proofs.«173582_j32727650795908_1_alg».proof.Proof.Spec
import proofs.«173582_j32727650795908_1_alg».proof.Proof.Consts
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.RefValue

open Cert.ReferenceIdeal Idealize.ShloMosaic Idealize.ShloMosaic.ValueIdx

variable [Facts]
open Facts₀ Facts

/-! ### The sum over the two trailing axes -/

/-- Dropping axes 2 and 3 of a rank-4 index leaves its first two coordinates. -/
private theorem drop23 (hR : S1024x12x50x64.ReducesTo [2, 3] S1024x12) (i : S1024x12x50x64.Idx) :
    hR.drop i = (ix2 (i 0) (i 1) : S1024x12.Idx) := by
  funext b
  match b with
  | ⟨0, _⟩ => exact Fin.ext (hR.drop_apply_val_of_eq i 0 0)
  | ⟨1, _⟩ => exact Fin.ext (hR.drop_apply_val_of_eq i 1 1)

/-- The sum over axes 2 and 3 from a zero initial value, read at `(m, h)`: the indices that drop
    to `(m, h)` are exactly the `(m, h, s, d)`, so the sum over them is the double sum over
    `s` and `d`. -/
theorem reduce2_apply (x : FVec Ideal S1024x12x50x64 .f32) (m : Fin 1024) (h : Fin 12) :
    Host.reduceAdd x (constant (F := Ideal) S_ .f32 0x00000000#32) reducesTo_S1024x12x50x64_S1024x12_d2_3 h_S_ (ix2 m h)
      = ∑ s : Fin 50, ∑ d : Fin 64, x (ix4 m h s d) := by
  show Ideal.hostReduceAdd reducesTo_S1024x12x50x64_S1024x12_d2_3 x (Ideal.ofBits .f32 0x00000000#32) (ix2 m h) = _
  unfold Ideal.hostReduceAdd
  rw [Cert.Ret.ofBits_zero, zero_add, ← Fintype.sum_prod_type' (f := fun (s : Fin 50) (d : Fin 64) => x (ix4 m h s d))]
  refine Finset.sum_nbij' (fun i => ((i 2, i 3) : Fin 50 × Fin 64)) (fun p => (ix4 m h p.1 p.2 : S1024x12x50x64.Idx))
    (fun _ _ => Finset.mem_univ _) ?_ ?_ (fun _ _ => rfl) ?_
  · intro p _
    rw [Finset.mem_filter]
    exact ⟨Finset.mem_univ _, by rw [drop23]⟩
  · intro i hi
    rw [Finset.mem_filter, drop23] at hi
    have h0 : i 0 = m := congrFun hi.2 0
    have h1 : i 1 = h := congrFun hi.2 1
    rw [← h0, ← h1]
    exact (eq_ix4 i).symm
  · intro i hi
    rw [Finset.mem_filter, drop23] at hi
    have h0 : i 0 = m := congrFun hi.2 0
    have h1 : i 1 = h := congrFun hi.2 1
    rw [← h0, ← h1]
    exact congrArg x (eq_ix4 i)

/-! ### The broadcasts read at an index -/

/-- A per-(batch, head) array broadcast over the slab reads its `(m, h, 0, 0)` entry. -/
private theorem bcast4_apply {α : Type} (v : S1024x12x1x1.Idx → α) (m : Fin 1024) (h : Fin 12) (s : Fin 50) (d : Fin 64) :
    broadcastInDim S1024x12x50x64 ![0, 1, 2, 3] bcast_S1024x12x1x1_S1024x12x50x64_0_1_2_3 v (ix4 m h s d)
      = v (ix4 m h 0 0) :=
  broadcastInDim_apply _ _ _ _ (ix4 m h 0 0)
    (fun a => match a with | ⟨0, _⟩ => rfl | ⟨1, _⟩ => rfl | ⟨2, _⟩ => rfl | ⟨3, _⟩ => rfl)

/-- A `[1024, 12]` array given two unit axes reads its `(m, h)` entry. -/
private theorem bcast2_apply {α : Type} (v : S1024x12.Idx → α) (m : Fin 1024) (h : Fin 12) :
    broadcastInDim S1024x12x1x1 ![0, 1] bcast_S1024x12_S1024x12x1x1_0_1 v (ix4 m h 0 0) = v (ix2 m h) :=
  broadcastInDim_apply _ _ _ _ (ix2 m h) (fun a => match a with | ⟨0, _⟩ => rfl | ⟨1, _⟩ => rfl)

/-- A scalar broadcast to the per-(batch, head) shape reads the scalar. -/
private theorem bcast0_apply {α : Type} (v : S_.Idx → α) (j : S1024x12x1x1.Idx) :
    broadcastInDim S1024x12x1x1 ![] bcast_S_S1024x12x1x1 v j = v ix0 := by
  unfold broadcastInDim; exact congrArg v (funext fun a => a.elim0)

/-- The host's quotient and root are pointwise the extended reals' division and root. -/
private theorem hdivf_apply {s : Shape} (a b : FVec Ideal s .f32) (i : s.Idx) : Host.divf a b i = Ideal.div (a i) (b i) := rfl
private theorem hsqrt_apply {s : Shape} (a : FVec Ideal s .f32) (i : s.Idx) : Host.sqrt a i = Ideal.sqrt (a i) := rfl

/-! ### Mean, divisor, variance, normalisation -/

/-- The mean of slab `(m, h)`: its sum divided by the slab size. -/
theorem meanT_apply (o : FVec Ideal S1024x12x50x64 .f32) (m : Fin 1024) (h : Fin 12) :
    meanT (F := Ideal) o (ix4 m h 0 0) = Ideal.div (∑ s : Fin 50, ∑ d : Fin 64, o (ix4 m h s d)) Cert.Ret.c3200 := by
  show Ideal.div (broadcastInDim S1024x12x1x1 ![0, 1] bcast_S1024x12_S1024x12x1x1_0_1
      (Host.reduceAdd o (constant (F := Ideal) S_ .f32 0x00000000#32) reducesTo_S1024x12x50x64_S1024x12_d2_3 h_S_)
      (ix4 m h 0 0)) Cert.Ret.c3200 = _
  rw [bcast2_apply, reduce2_apply]

/-- The divisor: the slab size minus the integer zero converted, which is the slab size. -/
theorem cntT_eq (k : S_.Idx) : cntT (F := Ideal) k = Cert.Ret.c3200 := by
  show Ideal.ofBits .f32 0x45480000#32 - (((0#32 : BitVec 32).toInt : ℝ) : EReal) = Cert.Ret.c3200
  simp [Cert.Ret.c3200]

/-- The divisor is positive, so the guard's comparison is the word one. -/
private theorem guard_apply (k : S_.Idx) :
    cmpf .ogt (cntT (F := Ideal)) (constant (F := Ideal) S_ .f32 0x00000000#32) k = 1#1 := by
  show Ideal.cmp .ogt (cntT (F := Ideal) k) (Ideal.ofBits .f32 0x00000000#32) = 1#1
  rw [cntT_eq, Cert.Ret.ofBits_zero, Cert.Ret.c3200_eq]
  have : (0 : EReal) < ((3200 : ℝ) : EReal) := by exact_mod_cast (by norm_num : (0 : ℝ) < 3200)
  simp [Ideal.cmp, this]

/-- The variance of slab `(m, h)`: the guard holds, so it is the sum of squared deviations from
    the mean divided by the slab size. -/
theorem varT_apply (o : FVec Ideal S1024x12x50x64 .f32) (m : Fin 1024) (h : Fin 12) :
    varT (F := Ideal) o (ix4 m h 0 0)
      = Ideal.div (∑ s : Fin 50, ∑ d : Fin 64,
          (o (ix4 m h s d) - Ideal.div (∑ s' : Fin 50, ∑ d' : Fin 64, o (ix4 m h s' d')) Cert.Ret.c3200)
            * (o (ix4 m h s d) - Ideal.div (∑ s' : Fin 50, ∑ d' : Fin 64, o (ix4 m h s' d')) Cert.Ret.c3200))
          Cert.Ret.c3200 := by
  unfold varT
  rw [select_apply, bcast0_apply, guard_apply, select_one, hdivf_apply, bcast2_apply, bcast0_apply, cntT_eq,
    reduce2_apply]
  refine congrArg (fun t => Ideal.div t Cert.Ret.c3200)
    (Finset.sum_congr rfl fun s _ => Finset.sum_congr rfl fun d _ => ?_)
  rw [mulf_apply, subf_apply, bcast4_apply, meanT_apply]

/-- The reference's normalisation at `(m, h, s, d)` is the second spelling applied to slab `(m, h)`. -/
theorem normT_apply (o : FVec Ideal S1024x12x50x64 .f32) (m : Fin 1024) (h : Fin 12) (s : Fin 50) (d : Fin 64) :
    normT (F := Ideal) o (ix4 m h s d) = Cert.Ret.normR (fun s' d' => o (ix4 m h s' d')) s d := by
  unfold normT
  rw [hdivf_apply, subf_apply, bcast4_apply, bcast4_apply, hsqrt_apply, addf_apply, bcast0_apply, constant_apply,
    meanT_apply, varT_apply]
  rfl

end Cert.ReferenceIdeal.RefValue

end
-- ==== Proof.RefValue.lean ====
/-
  The reference's result as the re-laid second spelling of the layer.

  Read at `(m, h, s, d)`, each of the three linear layers re-laid by head is the layer's entry at
  batch `m`, position `s`, column `64·h + d`; the weighted scores applied to the values plus the
  keys are then the mixed array of the specification; and the per-(batch, head) normalisation is
  the second spelling applied to slab `(m, h)` of the mixed array.  So before its last re-laying
  the reference's term is the specification's output array, entry by entry.
-/
import proofs.«173582_j32727650795908_1_alg».proof.Proof.RefTerm
import proofs.«173582_j32727650795908_1_alg».proof.Proof.RefDots
import proofs.«173582_j32727650795908_1_alg».proof.Proof.RefNorm
import proofs.«173582_j32727650795908_1_alg».proof.Proof.Spec
import Idealize.ShloMosaic.Lib.ValueIdx

noncomputable section

open scoped BigOperators

namespace Cert.ReferenceIdeal.RefValue

open Cert.ReferenceIdeal Idealize.ShloMosaic Idealize.ShloMosaic.ValueIdx

variable [Facts]
open Facts₀ Facts

/-- The reference's result is the re-laid second spelling of the layer: each linear layer read at
    `(m, h, s, d)` is the layer's entry at column `64·h + d`, the weighted scores applied to the
    values plus the keys are the mixed array, and the normalisation is the second spelling on
    each (batch, head) slab. -/
theorem refTerm_eq (x : FVec Ideal S1024x50x768 .f32) (wq : FVec Ideal S768x768 .f32) (bq : FVec Ideal S768 .f32)
    (wk : FVec Ideal S768x768 .f32) (bk : FVec Ideal S768 .f32) (wv : FVec Ideal S768x768 .f32) (bv : FVec Ideal S768 .f32) :
    refTerm (F := Ideal) x wq bq wk bk wv bv
      = shapeCast S1024x50x768 (Cert.Ret.outR (decT (F := Ideal)) ⟨x, wq, bq, wk, bk, wv, bv⟩) shapeCasts_S1024x12x50x64_S1024x50x768 := by
  unfold refTerm
  refine congrArg (fun g => shapeCast S1024x50x768 g shapeCasts_S1024x12x50x64_S1024x50x768) (funext fun j => ?_)
  obtain ⟨m, h, s, d, rfl⟩ : ∃ (m : Fin 1024) (h : Fin 12) (s : Fin 50) (d : Fin 64), j = ix4 m h s d :=
    ⟨j 0, j 1, j 2, j 3, eq_ix4 j⟩
  rw [normT_apply]
  show _ = Cert.Ret.normR (fun s' d' => Cert.Ret.mix (decT (F := Ideal)) ⟨x, wq, bq, wk, bk, wv, bv⟩ m h s' d') s d
  refine congrArg (fun o => Cert.Ret.normR o s d) (funext fun s' => funext fun d' => ?_)
  rw [mixT_apply]
  show _ = (∑ t : Fin 50, ((∑ d'' : Fin 64, Cert.Ret.proj x wq bq m s' (Cert.Ret.hd h d'') * Cert.Ret.proj x wk bk m t (Cert.Ret.hd h d''))
      * decT (F := Ideal) (ix2 s' t)) * Cert.Ret.proj x wv bv m t (Cert.Ret.hd h d')) + Cert.Ret.proj x wk bk m s' (Cert.Ret.hd h d')
  refine congrArg₂ (· + ·) (Finset.sum_congr rfl fun t _ => ?_) (projT_apply x wk bk m h s' d')
  refine congrArg₂ (· * ·) (congrArg (· * decT (F := Ideal) (ix2 s' t)) (Finset.sum_congr rfl fun d'' _ => ?_))
    (projT_apply x wv bv m h t d')
  rw [projT_apply, projT_apply]

end Cert.ReferenceIdeal.RefValue

end
-- ==== Proof.Algebra.lean ====
/-
  The two spellings of the slab normalisation agree on slabs of real numbers, and the mixed
  array is such a slab.

  For real entries x (s, d) over the 50 × 64 slab write S = ∑ x, μ = S / 3200.  Because 3200 is
  exactly the number of entries,
      (∑ x²) / 3200 − μ²  =  (∑ (x − μ)²) / 3200  =: v  ≥ 0,
  and with a real ε > 0 the number v + ε is positive.  So the reciprocal root of v + ε is the real
  (√(v + ε))⁻¹, the root is the nonzero real √(v + ε), and dividing by it is multiplying by its
  reciprocal: both spellings are the real (x − μ) · (√(v + ε))⁻¹.
-/
import proofs.«173582_j32727650795908_1_alg».proof.Proof.Spec
import proofs.«173582_j32727650795908_1_alg».proof.Proof.Consts
import Mathlib.Data.EReal.Basic
import Mathlib.Data.EReal.Operations
import Mathlib.Data.EReal.Inv
import Mathlib.Analysis.SpecialFunctions.Sqrt
import Mathlib.Algebra.BigOperators.Ring.Finset
import Mathlib.Tactic.NormNum
import Mathlib.Tactic.Ring

noncomputable section

open scoped BigOperators

namespace Cert.Ret

open Idealize.ShloMosaic Idealize.ShloMosaic.ValueIdx

/-! ### Finite sums of coerced reals -/

/-- A finite sum of coerced reals is the coerced sum. -/
private theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a s ha ih => rw [Finset.sum_insert ha, Finset.sum_insert ha, ih, EReal.coe_add]

/-! ### The variance identity over the reals -/

/-- The mean of a real slab. -/
private def mu (x : Fin 50 → Fin 64 → ℝ) : ℝ := (∑ s, ∑ d, x s d) * (1 / 3200)

/-- The mean of squared deviations of a real slab. -/
private def va (x : Fin 50 → Fin 64 → ℝ) : ℝ :=
  (∑ s, ∑ d, (x s d - mu x) * (x s d - mu x)) * (1 / 3200)

private theorem va_nonneg (x : Fin 50 → Fin 64 → ℝ) : 0 ≤ va x := by
  unfold va
  refine mul_nonneg ?_ (by norm_num)
  exact Finset.sum_nonneg fun s _ => Finset.sum_nonneg fun d _ => mul_self_nonneg _

/-- Mean of squares minus squared mean is the mean of squared deviations: expand
    `(x − μ)² = x² − 2μx + μ²`, sum over the 3200 entries, and use `∑ x = 3200 μ`. -/
private theorem var_identity (x : Fin 50 → Fin 64 → ℝ) :
    (∑ s, ∑ d, x s d * x s d) * (1 / 3200) - mu x * mu x = va x := by
  unfold va
  generalize hμ : mu x = μ
  have hS : ∑ s, ∑ d, x s d = 3200 * μ := by rw [← hμ, mu]; ring
  have h1 : ∀ s d, (x s d - μ) * (x s d - μ) = x s d * x s d - 2 * μ * x s d + μ * μ := by
    intros; ring
  simp only [h1, Finset.sum_add_distrib, Finset.sum_sub_distrib, ← Finset.mul_sum, Finset.sum_const,
    Finset.card_univ, Fintype.card_fin, nsmul_eq_mul]
  rw [hS]; push_cast; ring

/-! ### The two spellings on a slab of reals -/

private theorem mean_coe (x : Fin 50 → Fin 64 → ℝ) :
    Ideal.div (∑ s, ∑ d, ((x s d : ℝ) : EReal)) c3200 = ((mu x : ℝ) : EReal) := by
  rw [c3200_eq, Ideal.div_coe (by norm_num)]
  simp only [coe_sum]
  rw [← EReal.coe_mul, mu]

private theorem meansq_coe (x : Fin 50 → Fin 64 → ℝ) :
    Ideal.div (∑ s, ∑ d, ((x s d : ℝ) : EReal) * ((x s d : ℝ) : EReal)) c3200
      = (((∑ s, ∑ d, x s d * x s d) * (1 / 3200) : ℝ) : EReal) := by
  rw [c3200_eq, Ideal.div_coe (by norm_num)]
  simp only [← EReal.coe_mul, coe_sum]

private theorem meandev_coe (x : Fin 50 → Fin 64 → ℝ) :
    Ideal.div (∑ s, ∑ d, (((x s d : ℝ) : EReal) - ((mu x : ℝ) : EReal))
        * (((x s d : ℝ) : EReal) - ((mu x : ℝ) : EReal))) c3200 = ((va x : ℝ) : EReal) := by
  rw [c3200_eq, Ideal.div_coe (by norm_num)]
  simp only [← EReal.coe_sub, ← EReal.coe_mul, coe_sum]
  rw [va]

/-- The first spelling on a real slab. -/
private theorem normK_coe (x : Fin 50 → Fin 64 → ℝ) (e : ℝ) (he : 0 < e) (hce : ceps = (e : EReal))
    (s : Fin 50) (d : Fin 64) :
    normK (fun s d => ((x s d : ℝ) : EReal)) s d
      = (((x s d - mu x) * (Real.sqrt (va x + e))⁻¹ : ℝ) : EReal) := by
  have hpos : 0 < va x + e := add_pos_of_nonneg_of_pos (va_nonneg x) he
  simp only [normK]
  rw [mean_coe, meansq_coe, hce, ← EReal.coe_mul, ← EReal.coe_sub, ← EReal.coe_sub, ← EReal.coe_add,
    var_identity, Ideal.rsqrt_coe, if_neg (not_lt.mpr hpos.le), if_neg hpos.ne', ← EReal.coe_mul]

/-- The second spelling on a real slab. -/
private theorem normR_coe (x : Fin 50 → Fin 64 → ℝ) (e : ℝ) (he : 0 < e) (hce : ceps = (e : EReal))
    (s : Fin 50) (d : Fin 64) :
    normR (fun s d => ((x s d : ℝ) : EReal)) s d
      = (((x s d - mu x) * (Real.sqrt (va x + e))⁻¹ : ℝ) : EReal) := by
  have hpos : 0 < va x + e := add_pos_of_nonneg_of_pos (va_nonneg x) he
  have hne : Real.sqrt (va x + e) ≠ 0 := (Real.sqrt_pos.mpr hpos).ne'
  simp only [normR]
  rw [mean_coe, meandev_coe, hce, ← EReal.coe_sub, ← EReal.coe_add, Ideal.sqrt_coe,
    if_neg (not_lt.mpr hpos.le), Ideal.div_coe hne, ← EReal.coe_mul, one_div]

theorem normK_eq_normR (o : Fin 50 → Fin 64 → EReal) (ho : ∀ s d, ∃ r : ℝ, o s d = (r : EReal))
    (s : Fin 50) (d : Fin 64) : normK o s d = normR o s d := by
  choose x hx using ho
  obtain rfl : o = fun s d => ((x s d : ℝ) : EReal) := funext fun s => funext fun d => hx s d
  obtain ⟨e, he, hce⟩ := ceps_pos
  rw [normK_coe x e he hce, normR_coe x e he hce]

/-! ### The mixed array is real -/

/-- An extended real that is a real number. -/
private def IsR (a : EReal) : Prop := ∃ r : ℝ, a = (r : EReal)

private theorem IsR.add {a b : EReal} (ha : IsR a) (hb : IsR b) : IsR (a + b) := by
  obtain ⟨r, rfl⟩ := ha; obtain ⟨q, rfl⟩ := hb
  exact ⟨r + q, (EReal.coe_add r q).symm⟩

private theorem IsR.mul {a b : EReal} (ha : IsR a) (hb : IsR b) : IsR (a * b) := by
  obtain ⟨r, rfl⟩ := ha; obtain ⟨q, rfl⟩ := hb
  exact ⟨r * q, (EReal.coe_mul r q).symm⟩

private theorem IsR.sum {ι : Type*} (t : Finset ι) (f : ι → EReal) (h : ∀ i, IsR (f i)) :
    IsR (∑ i ∈ t, f i) := by
  choose g hg using h
  exact ⟨∑ i ∈ t, g i, by rw [← coe_sum]; exact Finset.sum_congr rfl fun i _ => hg i⟩

private theorem proj_real (X : SX.Idx → EReal) (W : SW.Idx → EReal) (b : SB.Idx → EReal)
    (hX : AllReal X) (hW : AllReal W) (hb : AllReal b) (m : Fin 1024) (s : Fin 50) (f : Fin 768) :
    IsR (proj X W b m s f) :=
  IsR.add (IsR.sum _ _ fun e => IsR.mul (hX (ix3 m s e)) (hW (ix2 f e))) (hb (ix1 f))

private theorem score_real (I : Inputs) (hI : I.Finite) (m : Fin 1024) (h : Fin 12) (s t : Fin 50) :
    IsR (score I m h s t) :=
  IsR.sum _ _ fun d => IsR.mul (proj_real _ _ _ hI.X hI.Wq hI.bq m s (hd h d))
    (proj_real _ _ _ hI.X hI.Wk hI.bk m t (hd h d))

theorem mix_real (dec : SD.Idx → EReal) (hdec : AllReal dec) (I : Inputs) (hI : I.Finite)
    (m : Fin 1024) (h : Fin 12) (s : Fin 50) (d : Fin 64) : ∃ r : ℝ, mix dec I m h s d = (r : EReal) :=
  IsR.add
    (IsR.sum _ _ fun t => IsR.mul (IsR.mul (score_real I hI m h s t) (hdec (ix2 s t)))
      (proj_real _ _ _ hI.X hI.Wv hI.bv m t (hd h d)))
    (proj_real _ _ _ hI.X hI.Wk hI.bk m s (hd h d))

theorem outK_eq_outR (dec : SD.Idx → EReal) (hdec : AllReal dec) (I : Inputs) (hI : I.Finite) :
    outK dec I = outR dec I := by
  funext j
  unfold outK outR
  exact normK_eq_normR _ (fun s d => mix_real dec hdec I hI (j 0) (j 1) s d) _ _

end Cert.Ret

end
-- ==== Proof.Finite.lean ====
/-
  From the finiteness condition on the inputs to "every entry of every input is a real number".

  The condition says, for each of the seven arrays, that every entry x has |x| < +∞, and takes the
  conjunction of the seven.  On the extended reals |x| = max x (−x), and max x (−x) < ⊤ excludes
  both x = ⊤ and x = ⊥, so x is a real.
-/
import proofs.«173582_j32727650795908_1_alg».proof.Proof.Spec
import proofs.«173582_j32727650795908_1_alg».proof.Pre_finite_inputs
import proofs.«173582_j32727650795908_1_alg».proof.Proof.Gen.Pre_finite_inputs
import Idealize.ShloMosaic.Lib.ReduceAll
import Idealize.ShloMosaic.Lib.IdealHost

noncomputable section

namespace Cert.Ret

open Idealize.ShloMosaic Idealize.ShloMosaic.ValueIdx

/-- The pattern 0x7F800000 denotes +∞. -/
theorem ofBits_inf_f32 : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- An array that passes the entrywise test |x| < +∞ holds only real numbers. -/
theorem allReal_of_test {s : Shape} (x : FVec Ideal s .f32)
    (hb : Cert.Pre_finite_inputs.S_.BroadcastsInDim s (![] : Fin 0 → Fin s.rank))
    (h : ∀ i, cmpf .olt (Host.absf x)
      (broadcastInDim s ![] hb (constant (F := Ideal) Cert.Pre_finite_inputs.S_ .f32 0x7F800000#32)) i = 1#1) :
    AllReal x := by
  intro i
  refine real_of_abs_lt_inf (x i) ?_
  have hi := h i
  rw [cmpf_apply, broadcastInDim_scalar_apply, constant_apply] at hi
  exact hi

open Cert.Pre_finite_inputs in
theorem finite_of_pre [Cert.Pre_finite_inputs.Facts]
    (a0 : FVec Ideal ⟨3, ![1024, 50, 768]⟩ .f32) (a1 : FVec Ideal ⟨2, ![768, 768]⟩ .f32) (a2 : FVec Ideal ⟨1, ![768]⟩ .f32)
    (a3 : FVec Ideal ⟨2, ![768, 768]⟩ .f32) (a4 : FVec Ideal ⟨1, ![768]⟩ .f32) (a5 : FVec Ideal ⟨2, ![768, 768]⟩ .f32) (a6 : FVec Ideal ⟨1, ![768]⟩ .f32)
    (h : Cert.Pre_finite_inputs.fn (F := Ideal) a0 a1 a2 a3 a4 a5 a6 = fun _ => 1#1) :
    Cert.Ret.Inputs.Finite ⟨a0, a1, a2, a3, a4, a5, a6⟩ := by
  have h0 := congrFun h ix0
  dsimp only [Cert.Pre_finite_inputs.fn, Cert.Pre_finite_inputs.fn_part1] at h0
  have split : ∀ (a b : IVec S_ 1), andi a b ix0 = 1#1 → a ix0 = 1#1 ∧ b ix0 = 1#1 :=
    fun a b e => IntOp.andi_eq_one.1 e
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  exact
    { X := allReal_of_test a0 _ (Host.reduce_andi_all _ _ _ _ _ e0)
      Wq := allReal_of_test a1 _ (Host.reduce_andi_all _ _ _ _ _ e1)
      bq := allReal_of_test a2 _ (Host.reduce_andi_all _ _ _ _ _ e2)
      Wk := allReal_of_test a3 _ (Host.reduce_andi_all _ _ _ _ _ e3)
      bk := allReal_of_test a4 _ (Host.reduce_andi_all _ _ _ _ _ e4)
      Wv := allReal_of_test a5 _ (Host.reduce_andi_all _ _ _ _ _ e5)
      bv := allReal_of_test a6 _ (Host.reduce_andi_all _ _ _ _ _ e6) }

end Cert.Ret

end
-- ==== Proof.DecayReal.lean ====
/-
  Every entry of the 50 × 50 weight table is a real number.

  The entry at (s, t) is 1 / (1 + n), where n is the signed value of the absolute value of a
  32-bit word.  The quotient is a real number as soon as 1 + n ≠ 0, that is n ≠ −1; and the
  absolute value of a word is never the all-ones word: a word with a clear sign bit has a
  nonnegative signed value, and a word w with a set sign bit has −w = −1 only for w = 1, whose
  sign bit is clear.
-/
import proofs.«173582_j32727650795908_1_alg».proof.Proof.Decay
import proofs.«173582_j32727650795908_1_alg».proof.Proof.Spec
import Idealize.ShloMosaic.Lib.IdealHost

noncomputable section

namespace Cert.KernelIdeal

open Idealize.ShloMosaic Idealize.ShloMosaic.ValueIdx

/-- The absolute value of a 32-bit word, read signed, is never −1. -/
theorem absi_toInt_ne_neg_one (w : BitVec 32) : (IntOp.absi w).toInt ≠ -1 := by
  unfold IntOp.absi
  split
  · rename_i hm
    intro e
    have h1 : -w = -1#32 := BitVec.eq_of_toInt_eq (by rw [e]; decide)
    have h2 : w = 1#32 := by
      have := congrArg (fun x => -x) h1
      simpa using this
    rw [h2] at hm
    exact absurd hm (by decide)
  · rename_i hm
    have hm' : w.msb = false := by simpa using hm
    rw [BitVec.toInt_eq_toNat_of_msb hm']
    omega

/-- One over one plus the signed value of an absolute value is a real number. -/
theorem one_div_one_add_absi_real (w : BitVec 32) :
    ∃ r : ℝ, Ideal.div (Ideal.ofBits .f32 0x3F800000#32)
      (Ideal.ofBits .f32 0x3F800000#32 + (((IntOp.absi w).toInt : ℝ) : EReal)) = (r : EReal) := by
  rw [Ideal.ofBits_one_f32]
  have hne : (1 : ℝ) + ((IntOp.absi w).toInt : ℝ) ≠ 0 := by
    intro e
    apply absi_toInt_ne_neg_one w
    have h : ((IntOp.absi w).toInt : ℝ) = ((-1 : ℤ) : ℝ) := by push_cast; linarith
    exact_mod_cast h
  have hc : (1 : EReal) + (((IntOp.absi w).toInt : ℝ) : EReal) = ((1 + ((IntOp.absi w).toInt : ℝ) : ℝ) : EReal) := by
    norm_cast
  rw [hc, Ideal.div_coe hne, one_mul]
  exact ⟨_, rfl⟩

/-- Every entry of the weight table is a real number. -/
theorem decT_real [Facts] : Cert.Ret.AllReal (decT (F := Ideal)) := by
  intro i
  exact one_div_one_add_absi_real _

end Cert.KernelIdeal

end
-- ==== Proof.lean ====
/-
  The certificate's five claims for a retention layer with a per-head group normalisation.

  Both programs compute, for each batch entry and each of 12 heads, the 50 × 64 slab
      mix = (((q · kᵀ) ∘ dec) · v) + k
  of three linear layers q, k, v of the input, with `dec[s,t] = 1 / (1 + |s − t|)`, and normalise
  each slab to mean 0 and variance 1 (ε under the root).  The kernel works on 16 batch entries per
  grid point, with the weight matrices transposed beforehand, and takes the variance as the mean
  of squares minus the squared mean, multiplying by a reciprocal root; the reference takes the
  mean of squared deviations and divides by a root.  On finite inputs every slab entry is a real
  number and the two normalisations agree, which is the one place the precondition is used.
  The three frames are the programs' runs with the values forgotten; nothing was rewritten by the
  idealisation, so that claim is trivial.
-/
import proofs.«173582_j32727650795908_1_alg».proof.Defs
import proofs.«173582_j32727650795908_1_alg».proof.Proof.Gen.Kernel
import proofs.«173582_j32727650795908_1_alg».proof.Proof.Gen.Kernel.Frame
import proofs.«173582_j32727650795908_1_alg».proof.Proof.Gen.KernelIdeal
import proofs.«173582_j32727650795908_1_alg».proof.Proof.Gen.KernelIdeal.Frame
import proofs.«173582_j32727650795908_1_alg».proof.Proof.Gen.ReferenceIdeal
import proofs.«173582_j32727650795908_1_alg».proof.Proof.Gen.Pre_finite_inputs
import proofs.«173582_j32727650795908_1_alg».proof.Proof.KValue
import proofs.«173582_j32727650795908_1_alg».proof.Proof.RefRun
import proofs.«173582_j32727650795908_1_alg».proof.Proof.RefValue
import proofs.«173582_j32727650795908_1_alg».proof.Proof.Algebra
import proofs.«173582_j32727650795908_1_alg».proof.Proof.Finite
import proofs.«173582_j32727650795908_1_alg».proof.Proof.DecayReal
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefValue.run (F := Ideal) m ρ)

/-- Both runs end with the layer's output re-laid: the kernel's in its own spelling of the
    normalisation, the reference's in the other; on finite inputs the two are one array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => shapeCast Cert.KernelIdeal.S1024x50x768 (Cert.KernelIdeal.Gen.GK m c)
      Cert.KernelIdeal.Gen.facts.toFacts₀.shapeCasts_S1024x12x50x64_S1024x50x768, Cert.KernelIdeal.Gen.run m ρ, ?_⟩
  refine (θ_run Cert.ReferenceIdeal.defs _ _).mono (fun _ h c => ⟨(h c).1.trans ?_, (h c).2⟩)
    (Cert.ReferenceIdeal.RefValue.run (F := Ideal) m' ρ')
  have hfin : (Cert.KernelIdeal.Gen.inputsOf m c).Finite := Cert.Ret.finite_of_pre _ _ _ _ _ _ _ (hpre c)
  rw [Cert.ReferenceIdeal.RefValue.refTerm_eq, (hagree c).1, (hagree c).2.1, (hagree c).2.2.1, (hagree c).2.2.2.1,
    (hagree c).2.2.2.2.1, (hagree c).2.2.2.2.2.1, (hagree c).2.2.2.2.2.2]
  beta_reduce
  unfold Cert.KernelIdeal.Gen.GK
  rw [Cert.Ret.outK_eq_outR _ Cert.KernelIdeal.decT_real _ hfin]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
